-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S1000000x64 : Shape := ⟨2, ![1000000, 64]⟩
abbrev S1000000x1 : Shape := ⟨2, ![1000000, 1]⟩
abbrev S1 : Shape := ⟨1, ![1]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1000000x1 : S_.BroadcastsInDim S1000000x1 (![] : Fin 0 → Fin S1000000x1.rank)
  reducesTo_S1000000x1_S_d0_1 : S1000000x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part2 {F : FTy → Type} [FloatOps F] (main_arg1 : IVec S16384 32) (main_v31 : IVec S_ 1) (main_v32 : IVec S16384 32) : IVec S_ 1 :=
  let main_v33 : IVec S16384 1 := cmpi .sge main_arg1 main_v32
  let main_c_13 : IVec S_ 1 := constantI S_ 1 1#1
  let main_v34 : IVec S_ 1 := (fun x v => Host.reduce IntOp.andi x v reducesTo_S16384_S_d0 h_S_) main_v33 main_c_13
  let main_v35 : IVec S_ 1 := andi main_v31 main_v34
  let main_c_14 : IVec S_ 32 := constantI S_ 32 1000000#32
  let main_v36 : IVec S16384 32 := broadcastInDim S16384 ![] bcast_S_S16384 main_c_14
  let main_v37 : IVec S16384 1 := cmpi .slt main_arg1 main_v36
  let main_c_15 : IVec S_ 1 := constantI S_ 1 1#1
  let main_v38 : IVec S_ 1 := (fun x v => Host.reduce IntOp.andi x v reducesTo_S16384_S_d0 h_S_) main_v37 main_c_15
  let main_v39 : IVec S_ 1 := andi main_v35 main_v38
  main_v39

def fn_part1 {F : FTy → Type} [FloatOps F] (main_arg0 : IVec S16384 32) (main_arg1 : IVec S16384 32) (main_arg6 : FVec F S1 .f32) (main_v13 : IVec S_ 1) (main_v16 : IVec S1000000x1 1) : IVec S_ 1 :=
  let main_c_5 : IVec S_ 1 := constantI S_ 1 1#1
  let main_v17 : IVec S_ 1 := (fun x v => Host.reduce IntOp.andi x v reducesTo_S1000000x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_c_8 : IVec S_ 32 := constantI S_ 32 0#32
  let main_v24 : IVec S16384 32 := broadcastInDim S16384 ![] bcast_S_S16384 main_c_8
  let main_v25 : IVec S16384 1 := cmpi .sge main_arg0 main_v24
  let main_c_9 : IVec S_ 1 := constantI S_ 1 1#1
  let main_v26 : IVec S_ 1 := (fun x v => Host.reduce IntOp.andi x v reducesTo_S16384_S_d0 h_S_) main_v25 main_c_9
  let main_v27 : IVec S_ 1 := andi main_v23 main_v26
  let main_c_10 : IVec S_ 32 := constantI S_ 32 1000000#32
  let main_v28 : IVec S16384 32 := broadcastInDim S16384 ![] bcast_S_S16384 main_c_10
  let main_v29 : IVec S16384 1 := cmpi .slt main_arg0 main_v28
  let main_c_11 : IVec S_ 1 := constantI S_ 1 1#1
  let main_v30 : IVec S_ 1 := (fun x v => Host.reduce IntOp.andi x v reducesTo_S16384_S_d0 h_S_) main_v29 main_c_11
  let main_v31 : IVec S_ 1 := andi main_v27 main_v30
  let main_c_12 : IVec S_ 32 := constantI S_ 32 0#32
  let main_v32 : IVec S16384 32 := broadcastInDim S16384 ![] bcast_S_S16384 main_c_12
  fn_part2 (F := F) main_arg1 main_v31 main_v32

def fn {F : FTy → Type} [FloatOps F] (main_arg0 : IVec S16384 32) (main_arg1 : IVec S16384 32) (main_arg2 : FVec F S1000000x64 .f32) (main_arg3 : FVec F S1000000x64 .f32) (main_arg4 : FVec F S1000000x1 .f32) (main_arg5 : FVec F S1000000x1 .f32) (main_arg6 : FVec F S1 .f32) : IVec S_ 1 :=
  let main_v0 : FVec F S1000000x64 .f32 := Host.absf main_arg2
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1000000x64 .f32 := Host.absf main_arg3
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S1000000x1 .f32 := Host.absf main_arg4
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S1000000x1 .f32 := Host.absf main_arg5
  let main_cst_4 : FVec F S_ .f32 := constant S_ .f32 0x7F800000#32
  let main_v15 : FVec F S1000000x1 .f32 := broadcastInDim S1000000x1 ![] bcast_S_S1000000x1 main_cst_4
  let main_v16 : IVec S1000000x1 1 := cmpf .olt main_v14 main_v15
  fn_part1 (F := F) main_arg0 main_arg1 main_arg6 main_v13 main_v16
-- ==== Kernel.lean ====
abbrev S16384 : Shape := ⟨1, ![16384]⟩
abbrev S1000000x64 : Shape := ⟨2, ![1000000, 64]⟩
abbrev S1000000x1 : Shape := ⟨2, ![1000000, 1]⟩
abbrev S1 : Shape := ⟨1, ![1]⟩
abbrev S_ : Shape := ⟨0, ![]⟩
abbrev S1000000x128 : Shape := ⟨2, ![1000000, 128]⟩
abbrev S1000000 : Shape := ⟨1, ![1000000]⟩
abbrev S1000000x1x128 : Shape := ⟨3, ![1000000, 1, 128]⟩
abbrev S512 : Shape := ⟨1, ![512]⟩
abbrev S512x1x128 : Shape := ⟨3, ![512, 1, 128]⟩
abbrev S8 : Shape := ⟨1, ![8]⟩
abbrev S1x1x128 : Shape := ⟨3, ![1, 1, 128]⟩
abbrev S1x128 : Shape := ⟨2, ![1, 128]⟩
abbrev S512x128 : Shape := ⟨2, ![512, 128]⟩
abbrev S512x64 : Shape := ⟨2, ![512, 64]⟩
abbrev S512x1 : Shape := ⟨2, ![512, 1]⟩

abbrev nBuf : Space → Nat
  | .hbm => 22
  | .vmem => 5
  | .smem => 2
  | _ => 0

abbrev bufTy : (tb : Table) → Fin (tcTables nBuf tb) → BufTy
  | .hbm, ⟨0, _⟩ => ⟨S1000000x64, .f32⟩
  | .hbm, ⟨1, _⟩ => ⟨S1000000x64, .f32⟩
  | .hbm, ⟨2, _⟩ => ⟨S1000000x1, .f32⟩
  | .hbm, ⟨3, _⟩ => ⟨S1000000x1, .f32⟩
  | .hbm, ⟨4, _⟩ => ⟨S1, .f32⟩
  | .hbm, ⟨5, _⟩ => ⟨S_, .i32⟩
  | .hbm, ⟨6, _⟩ => ⟨S_, .f32⟩
  | .hbm, ⟨7, _⟩ => ⟨S1000000x128, .f32⟩
  | .hbm, ⟨8, _⟩ => ⟨S1000000, .f32⟩
  | .hbm, ⟨9, _⟩ => ⟨S_, .i32⟩
  | .hbm, ⟨10, _⟩ => ⟨S1, .i32⟩
  | .hbm, ⟨11, _⟩ => ⟨S1000000x128, .f32⟩
  | .hbm, ⟨12, _⟩ => ⟨S1000000x1x128, .f32⟩
  | .hbm, ⟨13, _⟩ => ⟨S_, .i32⟩
  | .hbm, ⟨14, _⟩ => ⟨S_, .f32⟩
  | .hbm, ⟨15, _⟩ => ⟨S1000000x128, .f32⟩
  | .hbm, ⟨16, _⟩ => ⟨S1000000, .f32⟩
  | .hbm, ⟨17, _⟩ => ⟨S_, .i32⟩
  | .hbm, ⟨18, _⟩ => ⟨S1, .i32⟩
  | .hbm, ⟨19, _⟩ => ⟨S1000000x128, .f32⟩
  | .hbm, ⟨20, _⟩ => ⟨S1000000x1x128, .f32⟩
  | .hbm, ⟨21, _⟩ => ⟨S16384, .f32⟩
  | .local _ .vmem, ⟨0, _⟩ => ⟨S1, .f32⟩
  | .local _ .vmem, ⟨1, _⟩ => ⟨S512, .f32⟩
  | .local _ .vmem, ⟨2, _⟩ => ⟨S512, .f32⟩
  | .local _ .vmem, ⟨3, _⟩ => ⟨S512x1x128, .f32⟩
  | .local _ .vmem, ⟨4, _⟩ => ⟨S512x1x128, .f32⟩
  | .local _ .smem, ⟨0, _⟩ => ⟨S16384, .i32⟩
  | .local _ .smem, ⟨1, _⟩ => ⟨S16384, .i32⟩
  | _, _ => ⟨S1000000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![32], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k0_t1_loop : Scf.Loop 32 :=
  let c0_i32 : BitVec 32 := 0#32
  let c64_i32 : BitVec 32 := 64#32
  let v1 : BitVec 32 := Scalar.addi c0_i32 c64_i32
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg11 : BitVec 32 := Scf.iv c0_i32 c1_i32 k0_t1
  let c8_i32 : BitVec 32 := 8#32
  let v25 : BitVec 32 := Scalar.muli arg11 c8_i32
  let c0_i32_10 : BitVec 32 := 0#32
  let v26 : BitVec 32 := Scalar.addi v25 c0_i32_10
  let v27 : BitVec 32 := Scalar.addi v0 v26
  let v28 : Index := Scalar.indexCast v27
  ![v28.toNat]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32 : BitVec 32 := 8#32
  let v25 : BitVec 32 := Scalar.muli arg11 c8_i32
  let c0_i32_10 : BitVec 32 := 0#32
  let v26 : BitVec 32 := Scalar.addi v25 c0_i32_10
  let c0_i32_12 : BitVec 32 := 0#32
  let c0_i32_13 : BitVec 32 := 0#32
  ![v26.toNat, 0, 0]
def k0_off3 (v29 : BitVec 32) : Fin 3 → Nat :=
  let c0_i32_14 : BitVec 32 := 0#32
  let c0_i32_15 : BitVec 32 := 0#32
  ![v29.toNat, 0, 0]

def k0_chk1 (v29 : BitVec 32) : Prop :=
  (∀ a, (k0_off3 v29) a + S1x1x128.size a ≤ S1000000x1x128.size a)
instance k0_chk1.dec : ∀ (v29 : BitVec 32), Decidable (k0_chk1 v29) := fun v29 => decidable_of_iff' _ (Iff.of_eq (k0_chk1.eq_1 v29))
theorem k0_off3_inb : ∀ (v29 : BitVec 32) (k0_hw1 : k0_chk1 v29), ∀ a, (k0_off3 v29) a + S1x1x128.size a ≤ S1000000x1x128.size a := fun v29 k0_hw1 => k0_hw1

def k0_off4 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32 : BitVec 32 := 8#32
  let v25 : BitVec 32 := Scalar.muli arg11 c8_i32
  let c0_i32_10 : BitVec 32 := 0#32
  let v26 : BitVec 32 := Scalar.addi v25 c0_i32_10
  let c0_i32_17 : BitVec 32 := 0#32
  let c0_i32_18 : BitVec 32 := 0#32
  ![v26.toNat, 0, 0]
def k0_off5 (v31 : BitVec 32) : Fin 3 → Nat :=
  let c0_i32_19 : BitVec 32 := 0#32
  let c0_i32_20 : BitVec 32 := 0#32
  ![v31.toNat, 0, 0]

def k0_chk2 (v31 : BitVec 32) : Prop :=
  (∀ a, (k0_off5 v31) a + S1x1x128.size a ≤ S1000000x1x128.size a)
instance k0_chk2.dec : ∀ (v31 : BitVec 32), Decidable (k0_chk2 v31) := fun v31 => decidable_of_iff' _ (Iff.of_eq (k0_chk2.eq_1 v31))
theorem k0_off5_inb : ∀ (v31 : BitVec 32) (k0_hw2 : k0_chk2 v31), ∀ a, (k0_off5 v31) a + S1x1x128.size a ≤ S1000000x1x128.size a := fun v31 k0_hw2 => k0_hw2

def k0_off6 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg11 : BitVec 32 := Scf.iv c0_i32 c1_i32 k0_t1
  let c8_i32_21 : BitVec 32 := 8#32
  let v44 : BitVec 32 := Scalar.muli arg11 c8_i32_21
  let c1_i32_22 : BitVec 32 := 1#32
  let v45 : BitVec 32 := Scalar.addi v44 c1_i32_22
  let v46 : BitVec 32 := Scalar.addi v0 v45
  let v47 : Index := Scalar.indexCast v46
  ![v47.toNat]
def k0_off7 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_21 : BitVec 32 := 8#32
  let v44 : BitVec 32 := Scalar.muli arg11 c8_i32_21
  let c1_i32_22 : BitVec 32 := 1#32
  let v45 : BitVec 32 := Scalar.addi v44 c1_i32_22
  let c0_i32_24 : BitVec 32 := 0#32
  let c0_i32_25 : BitVec 32 := 0#32
  ![v45.toNat, 0, 0]
def k0_off8 (v48 : BitVec 32) : Fin 3 → Nat :=
  let c0_i32_26 : BitVec 32 := 0#32
  let c0_i32_27 : BitVec 32 := 0#32
  ![v48.toNat, 0, 0]

def k0_chk3 (v48 : BitVec 32) : Prop :=
  (∀ a, (k0_off8 v48) a + S1x1x128.size a ≤ S1000000x1x128.size a)
instance k0_chk3.dec : ∀ (v48 : BitVec 32), Decidable (k0_chk3 v48) := fun v48 => decidable_of_iff' _ (Iff.of_eq (k0_chk3.eq_1 v48))
theorem k0_off8_inb : ∀ (v48 : BitVec 32) (k0_hw3 : k0_chk3 v48), ∀ a, (k0_off8 v48) a + S1x1x128.size a ≤ S1000000x1x128.size a := fun v48 k0_hw3 => k0_hw3

def k0_off9 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_21 : BitVec 32 := 8#32
  let v44 : BitVec 32 := Scalar.muli arg11 c8_i32_21
  let c1_i32_22 : BitVec 32 := 1#32
  let v45 : BitVec 32 := Scalar.addi v44 c1_i32_22
  let c0_i32_29 : BitVec 32 := 0#32
  let c0_i32_30 : BitVec 32 := 0#32
  ![v45.toNat, 0, 0]
def k0_off10 (v50 : BitVec 32) : Fin 3 → Nat :=
  let c0_i32_31 : BitVec 32 := 0#32
  let c0_i32_32 : BitVec 32 := 0#32
  ![v50.toNat, 0, 0]

def k0_chk4 (v50 : BitVec 32) : Prop :=
  (∀ a, (k0_off10 v50) a + S1x1x128.size a ≤ S1000000x1x128.size a)
instance k0_chk4.dec : ∀ (v50 : BitVec 32), Decidable (k0_chk4 v50) := fun v50 => decidable_of_iff' _ (Iff.of_eq (k0_chk4.eq_1 v50))
theorem k0_off10_inb : ∀ (v50 : BitVec 32) (k0_hw4 : k0_chk4 v50), ∀ a, (k0_off10 v50) a + S1x1x128.size a ≤ S1000000x1x128.size a := fun v50 k0_hw4 => k0_hw4

def k0_off11 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg11 : BitVec 32 := Scf.iv c0_i32 c1_i32 k0_t1
  let c8_i32_33 : BitVec 32 := 8#32
  let v63 : BitVec 32 := Scalar.muli arg11 c8_i32_33
  let c2_i32 : BitVec 32 := 2#32
  let v64 : BitVec 32 := Scalar.addi v63 c2_i32
  let v65 : BitVec 32 := Scalar.addi v0 v64
  let v66 : Index := Scalar.indexCast v65
  ![v66.toNat]
def k0_off12 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_33 : BitVec 32 := 8#32
  let v63 : BitVec 32 := Scalar.muli arg11 c8_i32_33
  let c2_i32 : BitVec 32 := 2#32
  let v64 : BitVec 32 := Scalar.addi v63 c2_i32
  let c0_i32_35 : BitVec 32 := 0#32
  let c0_i32_36 : BitVec 32 := 0#32
  ![v64.toNat, 0, 0]
def k0_off13 (v67 : BitVec 32) : Fin 3 → Nat :=
  let c0_i32_37 : BitVec 32 := 0#32
  let c0_i32_38 : BitVec 32 := 0#32
  ![v67.toNat, 0, 0]

def k0_chk5 (v67 : BitVec 32) : Prop :=
  (∀ a, (k0_off13 v67) a + S1x1x128.size a ≤ S1000000x1x128.size a)
instance k0_chk5.dec : ∀ (v67 : BitVec 32), Decidable (k0_chk5 v67) := fun v67 => decidable_of_iff' _ (Iff.of_eq (k0_chk5.eq_1 v67))
theorem k0_off13_inb : ∀ (v67 : BitVec 32) (k0_hw5 : k0_chk5 v67), ∀ a, (k0_off13 v67) a + S1x1x128.size a ≤ S1000000x1x128.size a := fun v67 k0_hw5 => k0_hw5

def k0_off14 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_33 : BitVec 32 := 8#32
  let v63 : BitVec 32 := Scalar.muli arg11 c8_i32_33
  let c2_i32 : BitVec 32 := 2#32
  let v64 : BitVec 32 := Scalar.addi v63 c2_i32
  let c0_i32_40 : BitVec 32 := 0#32
  let c0_i32_41 : BitVec 32 := 0#32
  ![v64.toNat, 0, 0]
def k0_off15 (v69 : BitVec 32) : Fin 3 → Nat :=
  let c0_i32_42 : BitVec 32 := 0#32
  let c0_i32_43 : BitVec 32 := 0#32
  ![v69.toNat, 0, 0]

def k0_chk6 (v69 : BitVec 32) : Prop :=
  (∀ a, (k0_off15 v69) a + S1x1x128.size a ≤ S1000000x1x128.size a)
instance k0_chk6.dec : ∀ (v69 : BitVec 32), Decidable (k0_chk6 v69) := fun v69 => decidable_of_iff' _ (Iff.of_eq (k0_chk6.eq_1 v69))
theorem k0_off15_inb : ∀ (v69 : BitVec 32) (k0_hw6 : k0_chk6 v69), ∀ a, (k0_off15 v69) a + S1x1x128.size a ≤ S1000000x1x128.size a := fun v69 k0_hw6 => k0_hw6

def k0_off16 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg11 : BitVec 32 := Scf.iv c0_i32 c1_i32 k0_t1
  let c8_i32_44 : BitVec 32 := 8#32
  let v82 : BitVec 32 := Scalar.muli arg11 c8_i32_44
  let c3_i32 : BitVec 32 := 3#32
  let v83 : BitVec 32 := Scalar.addi v82 c3_i32
  let v84 : BitVec 32 := Scalar.addi v0 v83
  let v85 : Index := Scalar.indexCast v84
  ![v85.toNat]
def k0_off17 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_44 : BitVec 32 := 8#32
  let v82 : BitVec 32 := Scalar.muli arg11 c8_i32_44
  let c3_i32 : BitVec 32 := 3#32
  let v83 : BitVec 32 := Scalar.addi v82 c3_i32
  let c0_i32_46 : BitVec 32 := 0#32
  let c0_i32_47 : BitVec 32 := 0#32
  ![v83.toNat, 0, 0]
def k0_off18 (v86 : BitVec 32) : Fin 3 → Nat :=
  let c0_i32_48 : BitVec 32 := 0#32
  let c0_i32_49 : BitVec 32 := 0#32
  ![v86.toNat, 0, 0]

def k0_chk7 (v86 : BitVec 32) : Prop :=
  (∀ a, (k0_off18 v86) a + S1x1x128.size a ≤ S1000000x1x128.size a)
instance k0_chk7.dec : ∀ (v86 : BitVec 32), Decidable (k0_chk7 v86) := fun v86 => decidable_of_iff' _ (Iff.of_eq (k0_chk7.eq_1 v86))
theorem k0_off18_inb : ∀ (v86 : BitVec 32) (k0_hw7 : k0_chk7 v86), ∀ a, (k0_off18 v86) a + S1x1x128.size a ≤ S1000000x1x128.size a := fun v86 k0_hw7 => k0_hw7

def k0_off19 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_44 : BitVec 32 := 8#32
  let v82 : BitVec 32 := Scalar.muli arg11 c8_i32_44
  let c3_i32 : BitVec 32 := 3#32
  let v83 : BitVec 32 := Scalar.addi v82 c3_i32
  let c0_i32_51 : BitVec 32 := 0#32
  let c0_i32_52 : BitVec 32 := 0#32
  ![v83.toNat, 0, 0]
def k0_off20 (v88 : BitVec 32) : Fin 3 → Nat :=
  let c0_i32_53 : BitVec 32 := 0#32
  let c0_i32_54 : BitVec 32 := 0#32
  ![v88.toNat, 0, 0]

def k0_chk8 (v88 : BitVec 32) : Prop :=
  (∀ a, (k0_off20 v88) a + S1x1x128.size a ≤ S1000000x1x128.size a)
instance k0_chk8.dec : ∀ (v88 : BitVec 32), Decidable (k0_chk8 v88) := fun v88 => decidable_of_iff' _ (Iff.of_eq (k0_chk8.eq_1 v88))
theorem k0_off20_inb : ∀ (v88 : BitVec 32) (k0_hw8 : k0_chk8 v88), ∀ a, (k0_off20 v88) a + S1x1x128.size a ≤ S1000000x1x128.size a := fun v88 k0_hw8 => k0_hw8

def k0_off21 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg11 : BitVec 32 := Scf.iv c0_i32 c1_i32 k0_t1
  let c8_i32_55 : BitVec 32 := 8#32
  let v101 : BitVec 32 := Scalar.muli arg11 c8_i32_55
  let c4_i32 : BitVec 32 := 4#32
  let v102 : BitVec 32 := Scalar.addi v101 c4_i32
  let v103 : BitVec 32 := Scalar.addi v0 v102
  let v104 : Index := Scalar.indexCast v103
  ![v104.toNat]
def k0_off22 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_55 : BitVec 32 := 8#32
  let v101 : BitVec 32 := Scalar.muli arg11 c8_i32_55
  let c4_i32 : BitVec 32 := 4#32
  let v102 : BitVec 32 := Scalar.addi v101 c4_i32
  let c0_i32_57 : BitVec 32 := 0#32
  let c0_i32_58 : BitVec 32 := 0#32
  ![v102.toNat, 0, 0]
def k0_off23 (v105 : BitVec 32) : Fin 3 → Nat :=
  let c0_i32_59 : BitVec 32 := 0#32
  let c0_i32_60 : BitVec 32 := 0#32
  ![v105.toNat, 0, 0]

def k0_chk9 (v105 : BitVec 32) : Prop :=
  (∀ a, (k0_off23 v105) a + S1x1x128.size a ≤ S1000000x1x128.size a)
instance k0_chk9.dec : ∀ (v105 : BitVec 32), Decidable (k0_chk9 v105) := fun v105 => decidable_of_iff' _ (Iff.of_eq (k0_chk9.eq_1 v105))
theorem k0_off23_inb : ∀ (v105 : BitVec 32) (k0_hw9 : k0_chk9 v105), ∀ a, (k0_off23 v105) a + S1x1x128.size a ≤ S1000000x1x128.size a := fun v105 k0_hw9 => k0_hw9

def k0_off24 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_55 : BitVec 32 := 8#32
  let v101 : BitVec 32 := Scalar.muli arg11 c8_i32_55
  let c4_i32 : BitVec 32 := 4#32
  let v102 : BitVec 32 := Scalar.addi v101 c4_i32
  let c0_i32_62 : BitVec 32 := 0#32
  let c0_i32_63 : BitVec 32 := 0#32
  ![v102.toNat, 0, 0]
def k0_off25 (v107 : BitVec 32) : Fin 3 → Nat :=
  let c0_i32_64 : BitVec 32 := 0#32
  let c0_i32_65 : BitVec 32 := 0#32
  ![v107.toNat, 0, 0]

def k0_chk10 (v107 : BitVec 32) : Prop :=
  (∀ a, (k0_off25 v107) a + S1x1x128.size a ≤ S1000000x1x128.size a)
instance k0_chk10.dec : ∀ (v107 : BitVec 32), Decidable (k0_chk10 v107) := fun v107 => decidable_of_iff' _ (Iff.of_eq (k0_chk10.eq_1 v107))
theorem k0_off25_inb : ∀ (v107 : BitVec 32) (k0_hw10 : k0_chk10 v107), ∀ a, (k0_off25 v107) a + S1x1x128.size a ≤ S1000000x1x128.size a := fun v107 k0_hw10 => k0_hw10

def k0_off26 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg11 : BitVec 32 := Scf.iv c0_i32 c1_i32 k0_t1
  let c8_i32_66 : BitVec 32 := 8#32
  let v120 : BitVec 32 := Scalar.muli arg11 c8_i32_66
  let c5_i32 : BitVec 32 := 5#32
  let v121 : BitVec 32 := Scalar.addi v120 c5_i32
  let v122 : BitVec 32 := Scalar.addi v0 v121
  let v123 : Index := Scalar.indexCast v122
  ![v123.toNat]
def k0_off27 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_66 : BitVec 32 := 8#32
  let v120 : BitVec 32 := Scalar.muli arg11 c8_i32_66
  let c5_i32 : BitVec 32 := 5#32
  let v121 : BitVec 32 := Scalar.addi v120 c5_i32
  let c0_i32_68 : BitVec 32 := 0#32
  let c0_i32_69 : BitVec 32 := 0#32
  ![v121.toNat, 0, 0]
def k0_off28 (v124 : BitVec 32) : Fin 3 → Nat :=
  let c0_i32_70 : BitVec 32 := 0#32
  let c0_i32_71 : BitVec 32 := 0#32
  ![v124.toNat, 0, 0]

def k0_chk11 (v124 : BitVec 32) : Prop :=
  (∀ a, (k0_off28 v124) a + S1x1x128.size a ≤ S1000000x1x128.size a)
instance k0_chk11.dec : ∀ (v124 : BitVec 32), Decidable (k0_chk11 v124) := fun v124 => decidable_of_iff' _ (Iff.of_eq (k0_chk11.eq_1 v124))
theorem k0_off28_inb : ∀ (v124 : BitVec 32) (k0_hw11 : k0_chk11 v124), ∀ a, (k0_off28 v124) a + S1x1x128.size a ≤ S1000000x1x128.size a := fun v124 k0_hw11 => k0_hw11

def k0_off29 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_66 : BitVec 32 := 8#32
  let v120 : BitVec 32 := Scalar.muli arg11 c8_i32_66
  let c5_i32 : BitVec 32 := 5#32
  let v121 : BitVec 32 := Scalar.addi v120 c5_i32
  let c0_i32_73 : BitVec 32 := 0#32
  let c0_i32_74 : BitVec 32 := 0#32
  ![v121.toNat, 0, 0]
def k0_off30 (v126 : BitVec 32) : Fin 3 → Nat :=
  let c0_i32_75 : BitVec 32 := 0#32
  let c0_i32_76 : BitVec 32 := 0#32
  ![v126.toNat, 0, 0]

def k0_chk12 (v126 : BitVec 32) : Prop :=
  (∀ a, (k0_off30 v126) a + S1x1x128.size a ≤ S1000000x1x128.size a)
instance k0_chk12.dec : ∀ (v126 : BitVec 32), Decidable (k0_chk12 v126) := fun v126 => decidable_of_iff' _ (Iff.of_eq (k0_chk12.eq_1 v126))
theorem k0_off30_inb : ∀ (v126 : BitVec 32) (k0_hw12 : k0_chk12 v126), ∀ a, (k0_off30 v126) a + S1x1x128.size a ≤ S1000000x1x128.size a := fun v126 k0_hw12 => k0_hw12

def k0_off31 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg11 : BitVec 32 := Scf.iv c0_i32 c1_i32 k0_t1
  let c8_i32_77 : BitVec 32 := 8#32
  let v139 : BitVec 32 := Scalar.muli arg11 c8_i32_77
  let c6_i32 : BitVec 32 := 6#32
  let v140 : BitVec 32 := Scalar.addi v139 c6_i32
  let v141 : BitVec 32 := Scalar.addi v0 v140
  let v142 : Index := Scalar.indexCast v141
  ![v142.toNat]
def k0_off32 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_77 : BitVec 32 := 8#32
  let v139 : BitVec 32 := Scalar.muli arg11 c8_i32_77
  let c6_i32 : BitVec 32 := 6#32
  let v140 : BitVec 32 := Scalar.addi v139 c6_i32
  let c0_i32_79 : BitVec 32 := 0#32
  let c0_i32_80 : BitVec 32 := 0#32
  ![v140.toNat, 0, 0]
def k0_off33 (v143 : BitVec 32) : Fin 3 → Nat :=
  let c0_i32_81 : BitVec 32 := 0#32
  let c0_i32_82 : BitVec 32 := 0#32
  ![v143.toNat, 0, 0]

def k0_chk13 (v143 : BitVec 32) : Prop :=
  (∀ a, (k0_off33 v143) a + S1x1x128.size a ≤ S1000000x1x128.size a)
instance k0_chk13.dec : ∀ (v143 : BitVec 32), Decidable (k0_chk13 v143) := fun v143 => decidable_of_iff' _ (Iff.of_eq (k0_chk13.eq_1 v143))
theorem k0_off33_inb : ∀ (v143 : BitVec 32) (k0_hw13 : k0_chk13 v143), ∀ a, (k0_off33 v143) a + S1x1x128.size a ≤ S1000000x1x128.size a := fun v143 k0_hw13 => k0_hw13

def k0_off34 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_77 : BitVec 32 := 8#32
  let v139 : BitVec 32 := Scalar.muli arg11 c8_i32_77
  let c6_i32 : BitVec 32 := 6#32
  let v140 : BitVec 32 := Scalar.addi v139 c6_i32
  let c0_i32_84 : BitVec 32 := 0#32
  let c0_i32_85 : BitVec 32 := 0#32
  ![v140.toNat, 0, 0]
def k0_off35 (v145 : BitVec 32) : Fin 3 → Nat :=
  let c0_i32_86 : BitVec 32 := 0#32
  let c0_i32_87 : BitVec 32 := 0#32
  ![v145.toNat, 0, 0]

def k0_chk14 (v145 : BitVec 32) : Prop :=
  (∀ a, (k0_off35 v145) a + S1x1x128.size a ≤ S1000000x1x128.size a)
instance k0_chk14.dec : ∀ (v145 : BitVec 32), Decidable (k0_chk14 v145) := fun v145 => decidable_of_iff' _ (Iff.of_eq (k0_chk14.eq_1 v145))
theorem k0_off35_inb : ∀ (v145 : BitVec 32) (k0_hw14 : k0_chk14 v145), ∀ a, (k0_off35 v145) a + S1x1x128.size a ≤ S1000000x1x128.size a := fun v145 k0_hw14 => k0_hw14

def k0_off36 (i : grid0.Coords) (k0_t1 : Fin k0_t1_loop.trips) : Fin 1 → Nat :=
  let arg0 : BitVec 32 := BitVec.ofNat 32 (i 0).val
  let c512_i32 : BitVec 32 := 512#32
  let v0 : BitVec 32 := Scalar.muli arg0 c512_i32
  let c0_i32 : BitVec 32 := 0#32
  let c1_i32 : BitVec 32 := 1#32
  let arg11 : BitVec 32 := Scf.iv c0_i32 c1_i32 k0_t1
  let c8_i32_88 : BitVec 32 := 8#32
  let v158 : BitVec 32 := Scalar.muli arg11 c8_i32_88
  let c7_i32 : BitVec 32 := 7#32
  let v159 : BitVec 32 := Scalar.addi v158 c7_i32
  let v160 : BitVec 32 := Scalar.addi v0 v159
  let v161 : Index := Scalar.indexCast v160
  ![v161.toNat]
def k0_off37 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_88 : BitVec 32 := 8#32
  let v158 : BitVec 32 := Scalar.muli arg11 c8_i32_88
  let c7_i32 : BitVec 32 := 7#32
  let v159 : BitVec 32 := Scalar.addi v158 c7_i32
  let c0_i32_90 : BitVec 32 := 0#32
  let c0_i32_91 : BitVec 32 := 0#32
  ![v159.toNat, 0, 0]
def k0_off38 (v162 : BitVec 32) : Fin 3 → Nat :=
  let c0_i32_92 : BitVec 32 := 0#32
  let c0_i32_93 : BitVec 32 := 0#32
  ![v162.toNat, 0, 0]

def k0_chk15 (v162 : BitVec 32) : Prop :=
  (∀ a, (k0_off38 v162) a + S1x1x128.size a ≤ S1000000x1x128.size a)
instance k0_chk15.dec : ∀ (v162 : BitVec 32), Decidable (k0_chk15 v162) := fun v162 => decidable_of_iff' _ (Iff.of_eq (k0_chk15.eq_1 v162))
theorem k0_off38_inb : ∀ (v162 : BitVec 32) (k0_hw15 : k0_chk15 v162), ∀ a, (k0_off38 v162) a + S1x1x128.size a ≤ S1000000x1x128.size a := fun v162 k0_hw15 => k0_hw15

def k0_off39 (k0_t1 : Fin k0_t1_loop.trips) : Fin 3 → Nat :=
  let c0_i32 : BitVec 32 := 0#32
  let c1_i32 : BitVec 32 := 1#32
  let arg11 : BitVec 32 := Scf.iv c0_i32 c1_i32 k0_t1
  let c8_i32_88 : BitVec 32 := 8#32
  let v158 : BitVec 32 := Scalar.muli arg11 c8_i32_88
  let c7_i32 : BitVec 32 := 7#32
  let v159 : BitVec 32 := Scalar.addi v158 c7_i32
  let c0_i32_95 : BitVec 32 := 0#32
  let c0_i32_96 : BitVec 32 := 0#32
  ![v159.toNat, 0, 0]
def k0_off40 (v164 : BitVec 32) : Fin 3 → Nat :=
  let c0_i32_97 : BitVec 32 := 0#32
  let c0_i32_98 : BitVec 32 := 0#32
  ![v164.toNat, 0, 0]

def k0_chk16 (v164 : BitVec 32) : Prop :=
  (∀ a, (k0_off40 v164) a + S1x1x128.size a ≤ S1000000x1x128.size a)
instance k0_chk16.dec : ∀ (v164 : BitVec 32), Decidable (k0_chk16 v164) := fun v164 => decidable_of_iff' _ (Iff.of_eq (k0_chk16.eq_1 v164))
theorem k0_off40_inb : ∀ (v164 : BitVec 32) (k0_hw16 : k0_chk16 v164), ∀ a, (k0_off40 v164) a + S1x1x128.size a ≤ S1000000x1x128.size a := fun v164 k0_hw16 => k0_hw16

def k0_off41 (k0_t1 : Fin k0_t1_loop.trips) (c0_i32_100 : BitVec 32) : Fin 3 → Nat :=
  let c0_i32 : BitVec 32 := 0#32
  let c1_i32 : BitVec 32 := 1#32
  let arg11 : BitVec 32 := Scf.iv c0_i32 c1_i32 k0_t1
  let c8_i32_99 : BitVec 32 := 8#32
  let v177 : BitVec 32 := Scalar.muli arg11 c8_i32_99
  let v178 : BitVec 32 := Scalar.addi v177 c0_i32_100
  let c0_i32_103 : BitVec 32 := 0#32
  let c0_i32_104 : BitVec 32 := 0#32
  ![v178.toNat, 0, 0]
def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S1000000x64_S1000000x128_000_0640 : S1000000x64.Pads (![0, 0] : Fin 2 → Nat) ![0, 64] ![0, 0] S1000000x128
  h_S_ : 0 < S_.numel
  shapeCasts_S1000000x1_S1000000 : S1000000x1.ShapeCasts S1000000
  bcast_S_S1 : S_.BroadcastsInDim S1 (![] : Fin 0 → Fin S1.rank)
  shapeCasts_S1000000x128_S1000000x1x128 : S1000000x128.ShapeCasts S1000000x1x128
  numel1_S1 : S1.numel = 1
  inb_S8_S1_0 : ∀ a, (![0] : Fin 1 → Nat) a + S1.size a ≤ S8.size a
  squeezes_S1_S_ : S1.Squeezes S_
  squeezes_S1x1x128_S1x128 : S1x1x128.Squeezes S1x128
  inb_S8_S1_1 : ∀ a, (![1] : Fin 1 → Nat) a + S1.size a ≤ S8.size a
  inb_S8_S1_2 : ∀ a, (![2] : Fin 1 → Nat) a + S1.size a ≤ S8.size a
  inb_S8_S1_3 : ∀ a, (![3] : Fin 1 → Nat) a + S1.size a ≤ S8.size a
  inb_S8_S1_4 : ∀ a, (![4] : Fin 1 → Nat) a + S1.size a ≤ S8.size a
  inb_S8_S1_5 : ∀ a, (![5] : Fin 1 → Nat) a + S1.size a ≤ S8.size a
  inb_S8_S1_6 : ∀ a, (![6] : Fin 1 → Nat) a + S1.size a ≤ S8.size a
  inb_S8_S1_7 : ∀ a, (![7] : Fin 1 → Nat) a + S1.size a ≤ S8.size a
  inb_S1000000x1x128_S1x1x128_0_0_0 : ∀ a, (![0, 0, 0] : Fin 3 → Nat) a + S1x1x128.size a ≤ S1000000x1x128.size a
  inb_S512x1x128_S512x1x128_0_0_0 : ∀ a, (![0, 0, 0] : Fin 3 → Nat) a + S512x1x128.size a ≤ S512x1x128.size a
  h_S512x1x128 : 0 < S512x1x128.numel
  shapeCasts_S512x1x128_S512x128 : S512x1x128.ShapeCasts S512x128
  slices_S512x128_o0_0_S512x64 : S512x128.Slices ![0, 0] S512x64
  reduces_S512x64_S512 : S512x64.Reduces [1] S512
  slices_S512x128_o0_64_S512x1 : S512x128.Slices ![0, 64] S512x1
  shapeCasts_S512x1_S512 : S512x1.ShapeCasts S512
  inb_S1_S1_0 : ∀ a, (![0] : Fin 1 → Nat) a + S1.size a ≤ S1.size a
  h_S1 : 0 < S1.numel
  inpos_S1_p0 : ∀ a, (![0] : Fin 1 → Nat) a < S1.size a
  inb_S512_S512_0 : ∀ a, (![0] : Fin 1 → Nat) a + S512.size a ≤ S512.size a
  h_S512 : 0 < S512.numel
  scatter_S1000000x128_S1_S1000000_0_1_1_0_wf : ScatterDims.WF S1000000x128 S1 S1000000 [0] [1] [1] 0
  hcc0_scratch2 : 3 + S8.numel ≤ 19
  hcc0_scratch3 : 11 + S8.numel ≤ 19
  hrank0 : 0 < grid0.rank
  k0_t1_ok : k0_t1_loop.OK
  k0_off1_inb : ∀ (i : grid0.Coords) (k0_t1 : Fin k0_t1_loop.trips), ∀ a, (k0_off1 i k0_t1) a + S1.size a ≤ S16384.size a
  k0_off2_inb : ∀ k0_t1 : Fin k0_t1_loop.trips, ∀ a, (k0_off2 k0_t1) a + S1x1x128.size a ≤ S512x1x128.size a
  k0_off4_inb : ∀ k0_t1 : Fin k0_t1_loop.trips, ∀ a, (k0_off4 k0_t1) a + S1x1x128.size a ≤ S512x1x128.size a
  k0_off6_inb : ∀ (i : grid0.Coords) (k0_t1 : Fin k0_t1_loop.trips), ∀ a, (k0_off6 i k0_t1) a + S1.size a ≤ S16384.size a
  k0_off7_inb : ∀ k0_t1 : Fin k0_t1_loop.trips, ∀ a, (k0_off7 k0_t1) a + S1x1x128.size a ≤ S512x1x128.size a
  k0_off9_inb : ∀ k0_t1 : Fin k0_t1_loop.trips, ∀ a, (k0_off9 k0_t1) a + S1x1x128.size a ≤ S512x1x128.size a
  k0_off11_inb : ∀ (i : grid0.Coords) (k0_t1 : Fin k0_t1_loop.trips), ∀ a, (k0_off11 i k0_t1) a + S1.size a ≤ S16384.size a
  k0_off12_inb : ∀ k0_t1 : Fin k0_t1_loop.trips, ∀ a, (k0_off12 k0_t1) a + S1x1x128.size a ≤ S512x1x128.size a
  k0_off14_inb : ∀ k0_t1 : Fin k0_t1_loop.trips, ∀ a, (k0_off14 k0_t1) a + S1x1x128.size a ≤ S512x1x128.size a
  k0_off16_inb : ∀ (i : grid0.Coords) (k0_t1 : Fin k0_t1_loop.trips), ∀ a, (k0_off16 i k0_t1) a + S1.size a ≤ S16384.size a
  k0_off17_inb : ∀ k0_t1 : Fin k0_t1_loop.trips, ∀ a, (k0_off17 k0_t1) a + S1x1x128.size a ≤ S512x1x128.size a
  k0_off19_inb : ∀ k0_t1 : Fin k0_t1_loop.trips, ∀ a, (k0_off19 k0_t1) a + S1x1x128.size a ≤ S512x1x128.size a
  k0_off21_inb : ∀ (i : grid0.Coords) (k0_t1 : Fin k0_t1_loop.trips), ∀ a, (k0_off21 i k0_t1) a + S1.size a ≤ S16384.size a
  k0_off22_inb : ∀ k0_t1 : Fin k0_t1_loop.trips, ∀ a, (k0_off22 k0_t1) a + S1x1x128.size a ≤ S512x1x128.size a
  k0_off24_inb : ∀ k0_t1 : Fin k0_t1_loop.trips, ∀ a, (k0_off24 k0_t1) a + S1x1x128.size a ≤ S512x1x128.size a
  k0_off26_inb : ∀ (i : grid0.Coords) (k0_t1 : Fin k0_t1_loop.trips), ∀ a, (k0_off26 i k0_t1) a + S1.size a ≤ S16384.size a
  k0_off27_inb : ∀ k0_t1 : Fin k0_t1_loop.trips, ∀ a, (k0_off27 k0_t1) a + S1x1x128.size a ≤ S512x1x128.size a
  k0_off29_inb : ∀ k0_t1 : Fin k0_t1_loop.trips, ∀ a, (k0_off29 k0_t1) a + S1x1x128.size a ≤ S512x1x128.size a
  k0_off31_inb : ∀ (i : grid0.Coords) (k0_t1 : Fin k0_t1_loop.trips), ∀ a, (k0_off31 i k0_t1) a + S1.size a ≤ S16384.size a
  k0_off32_inb : ∀ k0_t1 : Fin k0_t1_loop.trips, ∀ a, (k0_off32 k0_t1) a + S1x1x128.size a ≤ S512x1x128.size a
  k0_off34_inb : ∀ k0_t1 : Fin k0_t1_loop.trips, ∀ a, (k0_off34 k0_t1) a + S1x1x128.size a ≤ S512x1x128.size a
  k0_off36_inb : ∀ (i : grid0.Coords) (k0_t1 : Fin k0_t1_loop.trips), ∀ a, (k0_off36 i k0_t1) a + S1.size a ≤ S16384.size a
  k0_off37_inb : ∀ k0_t1 : Fin k0_t1_loop.trips, ∀ a, (k0_off37 k0_t1) a + S1x1x128.size a ≤ S512x1x128.size a
  k0_off39_inb : ∀ k0_t1 : Fin k0_t1_loop.trips, ∀ a, (k0_off39 k0_t1) a + S1x1x128.size a ≤ S512x1x128.size a
  k0_off41_inb : ∀ k0_t1 : Fin k0_t1_loop.trips, ∀ (r : Fin 8), ∀ a, (k0_off41 k0_t1 (BitVec.ofNat 32 r.val)) a + S1x1x128.size a ≤ S512x1x128.size a
  hstage0_0 : ∀ j, (stage0_0 j).IsWhole
  nbuf0_0 : grid0.bufCount reads0_0 true = 1
  hreads0_0 : ∀ i i' : grid0.Coords, (∀ a, reads0_0 a = true → i a = i' a) → cc0_transform_2 i = cc0_transform_2 i'
  hinb0_0 : ∀ (i : grid0.Coords) a, (cc0_transform_2 i a + 1) * S1.size a ≤ S1.size a
  hwx0_0 : ∀ i : grid0.Coords, EltTy.bits .f32 = 32 ∨ (Rect.block (s := S1) S1.size (cc0_transform_2 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_3 i = cc0_transform_3 i'
  hinb0_1 : ∀ (i : grid0.Coords) a, (cc0_transform_3 i a + 1) * S512.size a ≤ S16384.size a
  hwx0_1 : ∀ i : grid0.Coords, EltTy.bits .f32 = 32 ∨ (Rect.block (s := S16384) S512.size (cc0_transform_3 i) (hinb0_1 i)).WholeWords (EltTy.packing .f32)

variable [Facts₀]

abbrev cc0_scratch2 : DmaSems sig S8 := SemArray.consecutive 3 S8 hcc0_scratch2
abbrev cc0_scratch3 : DmaSems sig S8 := SemArray.consecutive 11 S8 hcc0_scratch3
def scatter_S1000000x128_S1_S1000000_0_1_1_0 : ScatterDims S1000000x128 S1 S1000000 where
  updateWindowDims := [0]
  insertedWindowDims := [1]
  scatterDimsToOperandDims := [1]
  indexVectorDim := 0
  wf := scatter_S1000000x128_S1_S1000000_0_1_1_0_wf

abbrev spec0_0 : Pipeline.WinSpec sig grid0.rank :=
  Pipeline.WinSpec.ofSpec (Memref.whole main_arg6) S1.size reads0_0 false true 1 stage0_0 sem0_0 nbuf0_0 hstage0_0

abbrev spec0_1 : Pipeline.WinSpec sig grid0.rank :=
  Pipeline.WinSpec.ofSpec (Memref.whole main_v10) S512.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_2 | 1 => cc0_transform_3 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S16384 : Shape := ⟨1, ![16384]⟩
abbrev S1000000x64 : Shape := ⟨2, ![1000000, 64]⟩
abbrev S1000000x1 : Shape := ⟨2, ![1000000, 1]⟩
abbrev S1 : Shape := ⟨1, ![1]⟩
abbrev S_ : Shape := ⟨0, ![]⟩
abbrev S16384x1 : Shape := ⟨2, ![16384, 1]⟩
abbrev S16384x64 : Shape := ⟨2, ![16384, 64]⟩
abbrev S16384x2 : Shape := ⟨2, ![16384, 2]⟩

abbrev nBuf : Space → Nat
  | .hbm => 69
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S1000000x64, .f32⟩
  | .hbm, ⟨3, _⟩ => ⟨S1000000x64, .f32⟩
  | .hbm, ⟨4, _⟩ => ⟨S1000000x1, .f32⟩
  | .hbm, ⟨5, _⟩ => ⟨S1000000x1, .f32⟩
  | .hbm, ⟨6, _⟩ => ⟨S1, .f32⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S_, .i32⟩
  | .hbm, ⟨11, _⟩ => ⟨S16384, .i32⟩
  | .hbm, ⟨12, _⟩ => ⟨S16384, .i32⟩
  | .hbm, ⟨13, _⟩ => ⟨S16384, .i32⟩
  | .hbm, ⟨14, _⟩ => ⟨S16384x1, .i32⟩
  | .hbm, ⟨15, _⟩ => ⟨S16384x64, .f32⟩
  | .hbm, ⟨16, _⟩ => ⟨S_, .i32⟩
  | .hbm, ⟨17, _⟩ => ⟨S16384, .i32⟩
  | .hbm, ⟨18, _⟩ => ⟨S16384, .i1⟩
  | .hbm, ⟨19, _⟩ => ⟨S_, .i32⟩
  | .hbm, ⟨20, _⟩ => ⟨S16384, .i32⟩
  | .hbm, ⟨21, _⟩ => ⟨S16384, .i32⟩
  | .hbm, ⟨22, _⟩ => ⟨S16384, .i32⟩
  | .hbm, ⟨23, _⟩ => ⟨S16384x1, .i32⟩
  | .hbm, ⟨24, _⟩ => ⟨S16384x64, .f32⟩
  | .hbm, ⟨25, _⟩ => ⟨S16384x64, .f32⟩
  | .hbm, ⟨26, _⟩ => ⟨S_, .f32⟩
  | .hbm, ⟨27, _⟩ => ⟨S16384, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S_, .i32⟩
  | .hbm, ⟨36, _⟩ => ⟨S16384, .i32⟩
  | .hbm, ⟨37, _⟩ => ⟨S16384, .i32⟩
  | .hbm, ⟨38, _⟩ => ⟨S16384x1, .i32⟩
  | .hbm, ⟨39, _⟩ => ⟨S16384x1, .i32⟩
  | .hbm, ⟨40, _⟩ => ⟨S16384x2, .i32⟩
  | .hbm, ⟨41, _⟩ => ⟨S16384, .f32⟩
  | .hbm, ⟨42, _⟩ => ⟨S_, .i32⟩
  | .hbm, ⟨43, _⟩ => ⟨S16384, .i32⟩
  | .hbm, ⟨44, _⟩ => ⟨S16384, .i1⟩
  | .hbm, ⟨45, _⟩ => ⟨S_, .i32⟩
  | .hbm, ⟨46, _⟩ => ⟨S16384, .i32⟩
  | .hbm, ⟨47, _⟩ => ⟨S16384, .i32⟩
  | .hbm, ⟨48, _⟩ => ⟨S16384, .i32⟩
  | .hbm, ⟨49, _⟩ => ⟨S_, .i32⟩
  | .hbm, ⟨50, _⟩ => ⟨S16384, .i32⟩
  | .hbm, ⟨51, _⟩ => ⟨S16384, .i32⟩
  | .hbm, ⟨52, _⟩ => ⟨S16384x1, .i32⟩
  | .hbm, ⟨53, _⟩ => ⟨S16384x1, .i32⟩
  | .hbm, ⟨54, _⟩ => ⟨S16384x2, .i32⟩
  | .hbm, ⟨55, _⟩ => ⟨S16384, .f32⟩
  | .hbm, ⟨56, _⟩ => ⟨S16384, .f32⟩
  | .hbm, ⟨57, _⟩ => ⟨S_, .f32⟩
  | .hbm, ⟨58, _⟩ => ⟨S16384, .f32⟩
  | .hbm, ⟨59, _⟩ => ⟨S16384, .f32⟩
  | .hbm, ⟨60, _⟩ => ⟨S16384, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S16384, .f32⟩
  | .hbm, ⟨65, _⟩ => ⟨S16384, .f32⟩
  | .hbm, ⟨66, _⟩ => ⟨S_, .f32⟩
  | .hbm, ⟨67, _⟩ => ⟨S16384, .f32⟩
  | .hbm, ⟨68, _⟩ => ⟨S16384, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_6 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_cst_10 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  concatenates_S16384x1_S16384x1_S16384x2_d1 : Shape.Concatenates [S16384x1, S16384x1] S16384x2 1
  shapeCasts_S1_S_ : S1.ShapeCasts S_
  gather_S1000000x64_S16384x1_S16384x64_1_0_n_n_0_1_164_wf : GatherDims.WF S1000000x64 S16384x1 S16384x64 [1] [0] [] [0] [] 1 ![1, 64]
  gather_S1000000x1_S16384x2_S16384_n_01_n_n_01_1_11_wf : GatherDims.WF S1000000x1 S16384x2 S16384 [] [0, 1] [] [0, 1] [] 1 ![1, 1]

variable [Facts₀]

def gather_S1000000x64_S16384x1_S16384x64_1_0_n_n_0_1_164 : GatherDims S1000000x64 S16384x1 S16384x64 where
  offsetDims := [1]
  collapsedSliceDims := [0]
  operandBatchingDims := []
  startIndicesBatchingDims := []
  startIndexMap := [0]
  indexVectorDim := 1
  sliceSizes := ![1, 64]
  wf := gather_S1000000x64_S16384x1_S16384x64_1_0_n_n_0_1_164_wf
def gather_S1000000x1_S16384x2_S16384_n_01_n_n_01_1_11 : GatherDims S1000000x1 S16384x2 S16384 where
  offsetDims := []
  collapsedSliceDims := [0, 1]
  operandBatchingDims := []
  startIndicesBatchingDims := []
  startIndexMap := [0, 1]
  indexVectorDim := 1
  sliceSizes := ![1, 1]
  wf := gather_S1000000x1_S16384x2_S16384_n_01_n_n_01_1_11_wf

class Facts : Prop extends Facts₀ where

variable [Facts]
-- ==== Proof.LibIndexWrap.lean ====
/-
  GENERAL LEMMA. INDEX WORDS: numpy's wrap of a negative index, and the arrays that carry index words to a gather or a
  scatter, read at a position.

  An index into an axis of extent N is read the numpy way: a negative index counts from the end, so the word v becomes
  v + N where v < 0 (signed) and stays v otherwise. jnp prints this as a select over a signed compare with 0 and an add
  of the extent, elementwise (wrapped_apply). For a word whose signed value lies in [-N, N) the wrapped word's signed
  value lies in [0, N): a position on the axis (wrapWord_range; N below 2^31).

  The wrapped words then travel as a column [n, 1] (a gather's or a scatter's start indices: column_apply) or, two
  columns side by side, as the [n, 2] array of index pairs of a pair scatter (pair_fst, pair_snd). A vector laid along
  the second axis of a [B, n] rectangle through a [1, n] row (v[None, :] against a [B, n] array) reads, at (p, e), the
  vector at e (row_bcast_apply).

  Last, a set bit of a signed compare against a constant, decoded to the signed values (sge_decode, slt_decode): what an
  index-range conjunct of a precondition gives at one entry.
-/
import Idealize.ShloMosaic.PureOps.Ideal
import Idealize.ShloMosaic.Lib.ValueIdx
import Idealize.ShloMosaic.Lib.Pipeline.Value
import Idealize.ShloMosaic.Lib.StableHlo.Predicate

noncomputable section

namespace Idealize.ShloMosaic.IndexWrap

open Idealize.ShloMosaic Idealize.ShloMosaic.ValueIdx

/-- An index word into an axis whose extent is the word N, negative indices counted from the end. -/
def wrapWord (N v : BitVec 32) : BitVec 32 := if v.slt 0#32 then v + N else v

/-- A word inside numpy's index range [-N, N) wraps to a position in [0, N). -/
theorem wrapWord_range (N v : BitVec 32) (hN : N.toNat < 2 ^ 31)
    (h : -(N.toNat : ℤ) ≤ v.toInt ∧ v.toInt < (N.toNat : ℤ)) :
    0 ≤ (wrapWord N v).toInt ∧ (wrapWord N v).toInt < (N.toNat : ℤ) := by
  unfold wrapWord
  by_cases hn : v.slt 0#32
  · rw [if_pos hn]
    have hneg : v.toInt < 0 := by simpa [BitVec.slt] using hn
    have e1 := BitVec.toInt_eq_toNat_cond v
    have e2 := BitVec.toInt_eq_toNat_cond (v + N)
    have e3 : (v + N).toNat = (v.toNat + N.toNat) % 2 ^ 32 := by simp [BitVec.toNat_add]
    have hv := v.isLt
    split_ifs at e1 e2 <;> omega
  · rw [if_neg hn]
    have hneg : ¬ v.toInt < 0 := by simpa [BitVec.slt] using hn
    omega

/-- The printed wrap, read at a position: the select of the add of the extent where the word is below 0. -/
theorem wrapped_apply {S : Shape} (h : (⟨0, ![]⟩ : Shape).BroadcastsInDim S ![]) (N : BitVec 32) (v : IVec S 32)
    (i : S.Idx) :
    select (cmpi .slt v (broadcastInDim S ![] h (constantI ⟨0, ![]⟩ 32 0#32)))
      (addi v (broadcastInDim S ![] h (constantI ⟨0, ![]⟩ 32 N))) v i = wrapWord N (v i) := by
  show Scalar.select (IntOp.cmpi .slt (v i) 0#32) (IntOp.addi (v i) N) (v i) = _
  unfold Scalar.select IntOp.cmpi IntOp.addi wrapWord
  cases hs : (v i).slt 0#32 <;> simp

/-- A vector kept as an [n, 1] column reads, at row e, the vector at e. -/
theorem column_apply {α : Type} {n : Nat} (hb : (⟨1, ![n]⟩ : Shape).BroadcastsInDim ⟨2, ![n, 1]⟩ ![0])
    (v : (⟨1, ![n]⟩ : Shape).Idx → α) (e : Fin n) :
    broadcastInDim ⟨2, ![n, 1]⟩ ![0] hb v (ix2 e (0 : Fin 1)) = v (ix1 e) := by
  refine broadcastInDim_apply _ hb v _ (ix1 e) fun a => ?_
  match a with
  | ⟨0, _⟩ =>
    show e.val = if n = 1 then 0 else e.val
    have := e.isLt
    split_ifs <;> omega

/-- A vector laid along the second axis of a [B, n] rectangle (through a [1, n] row) reads, at (p, e), the vector at e. -/
theorem row_bcast_apply {α : Type} {B n : Nat} (h₁ : (⟨1, ![n]⟩ : Shape).BroadcastsInDim ⟨2, ![1, n]⟩ ![1])
    (h₂ : (⟨2, ![1, n]⟩ : Shape).BroadcastsInDim ⟨2, ![B, n]⟩ ![0, 1]) (v : (⟨1, ![n]⟩ : Shape).Idx → α)
    (p : Fin B) (e : Fin n) :
    broadcastInDim ⟨2, ![B, n]⟩ ![0, 1] h₂ (broadcastInDim ⟨2, ![1, n]⟩ ![1] h₁ v) (ix2 p e) = v (ix1 e) := by
  refine (broadcastInDim_apply _ h₂ _ _ (ix2 (0 : Fin 1) e) fun a => ?_).trans
    (broadcastInDim_apply _ h₁ v _ (ix1 e) fun a => ?_)
  · match a with
    | ⟨0, _⟩ => rfl
    | ⟨1, _⟩ =>
      show e.val = if n = 1 then 0 else e.val
      have := e.isLt
      split_ifs <;> omega
  · match a with
    | ⟨0, _⟩ =>
      show e.val = if n = 1 then 0 else e.val
      have := e.isLt
      split_ifs <;> omega

/-- Two [n, 1] columns side by side: position (e, 0) of the [n, 2] array is the first column's row e. -/
theorem pair_fst {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (0 : Fin 2)) = x₁ (ix2 e (0 : Fin 1)) := by
  refine concatenate_pair_apply_left 1 x₁ x₂ h _ rfl _ fun b => ?_
  match b with
  | ⟨0, _⟩ => rfl
  | ⟨1, _⟩ => rfl

/-- Position (e, 1) of the [n, 2] array is the second column's row e. -/
theorem pair_snd {α : Type} {n : Nat} (x₁ x₂ : (⟨2, ![n, 1]⟩ : Shape).Idx → α)
    (h : Shape.Concatenates [(⟨2, ![n, 1]⟩ : Shape), ⟨2, ![n, 1]⟩] ⟨2, ![n, 2]⟩ 1) (e : Fin n) :
    concatenate ⟨2, ![n, 2]⟩ 1 [⟨⟨2, ![n, 1]⟩, x₁⟩, ⟨⟨2, ![n, 1]⟩, x₂⟩] h (ix2 e (1 : Fin 2)) = x₂ (ix2 e (0 : Fin 1)) := by
  refine concatenate_pair_apply_right 1 x₁ x₂ h _ rfl rfl _ (fun b hb => ?_) rfl
  match b with
  | ⟨0, _⟩ => rfl
  | ⟨1, _⟩ => exact absurd rfl hb

/-- A set bit of the signed compare "v >= k". -/
theorem sge_decode (v k : BitVec 32) (h : IntOp.cmpi .sge v k = 1#1) : k.toInt ≤ v.toInt := by
  unfold IntOp.cmpi at h
  have h' := (StableHlo.Predicate.ofBool_eq_one_iff _).mp h
  simpa [BitVec.sle] using h'

/-- A set bit of the signed compare "v < k". -/
theorem slt_decode (v k : BitVec 32) (h : IntOp.cmpi .slt v k = 1#1) : v.toInt < k.toInt := by
  unfold IntOp.cmpi at h
  have h' := (StableHlo.Predicate.ofBool_eq_one_iff _).mp h
  simpa [BitVec.slt] using h'

end Idealize.ShloMosaic.IndexWrap

end
-- ==== Proof.Words.lean ====
/-
  The index ranges, decoded from the precondition.

  The precondition is a conjunction of nine "all entries satisfy p" tests, each an and-reduction of a one-bit array to a
  scalar. Its last four conjuncts say, of the two index vectors a0 and a1 (16384 signed 32-bit words each), that every
  word v satisfies 0 <= v and v < 1000000 as SIGNED values. A signed value in [0, 1000000) is its own unsigned value,
  so every word's unsigned value is below 1000000: a row number of the 1000000-row tables.

  The five leading conjuncts (the float tests) are carried as opaque scalars and never opened.
-/
import proofs.«411927_j1331439862348_2_alg».proof.Pre_finite_inputs
import proofs.«411927_j1331439862348_2_alg».proof.Proof.Gen.Pre_finite_inputs
import proofs.«411927_j1331439862348_2_alg».proof.Proof.LibIndexWrap
import Idealize.ShloMosaic.Lib.ReduceAll
import Idealize.ShloMosaic.Lib.ValueIdx
import Idealize.ShloMosaic.Lib.StableHlo.Predicate

namespace Cert.MF

open Idealize.ShloMosaic Cert.Pre_finite_inputs Cert.Pre_finite_inputs.Gen

/-- The scalar shape has one index. -/
instance subsingleton_scalar_idx : Subsingleton S_.Idx := ⟨fun a b => funext fun d => d.elim0⟩

/-- A 32-bit word whose signed value lies in [0, 1000000) has unsigned value below 1000000. -/
theorem word_range (v : BitVec 32) (h0 : (0#32 : BitVec 32).toInt ≤ v.toInt)
    (h1 : v.toInt < (1000000#32 : BitVec 32).toInt) : v.toNat < 1000000 := by
  have e0 : (0#32 : BitVec 32).toInt = 0 := by decide
  have e1 : (1000000#32 : BitVec 32).toInt = 1000000 := by decide
  rw [e0] at h0
  rw [e1] at h1
  rw [BitVec.toInt_eq_toNat_cond] at h0 h1
  have hv := v.isLt
  split at h0 <;> omega

/-- One entry of "v >= 0 and v < 1000000" over a vector compared against broadcast scalar constants. -/
theorem entry_range (a : IVec S16384 32) (j : S16384.Idx)
    (hge : cmpi .sge a (broadcastInDim S16384 ![] Facts.bcast_S_S16384 (constantI S_ 32 0#32)) j = 1#1)
    (hlt : cmpi .slt a (broadcastInDim S16384 ![] Facts.bcast_S_S16384 (constantI S_ 32 1000000#32)) j = 1#1) :
    (a j).toNat < 1000000 := by
  have hge' : IntOp.cmpi .sge (a j) 0#32 = 1#1 := by
    have := hge
    simp only [cmpi, StableHlo.Predicate.bcast_scalar Facts.bcast_S_S16384 Facts.h_S_, constantI] at this
    exact this
  have hlt' : IntOp.cmpi .slt (a j) 1000000#32 = 1#1 := by
    have := hlt
    simp only [cmpi, StableHlo.Predicate.bcast_scalar Facts.bcast_S_S16384 Facts.h_S_, constantI] at this
    exact this
  exact word_range (a j) (IndexWrap.sge_decode _ _ hge') (IndexWrap.slt_decode _ _ hlt')

/-- The tail of the conjunction (its last two tests, over a1): from the tail being 1, the head scalar is 1 and both
    tests hold at every entry. -/
theorem part2_decode {F : FTy → Type} [FloatOps F] (a1 : IVec S16384 32) (v31 : IVec S_ 1) (v32 : IVec S16384 32)
    (h : fn_part2 (F := F) a1 v31 v32 ValueIdx.ix0 = 1#1) :
    v31 ValueIdx.ix0 = 1#1 ∧ (∀ j, cmpi .sge a1 v32 j = 1#1)
      ∧ (∀ j, cmpi .slt a1 (broadcastInDim S16384 ![] Facts.bcast_S_S16384 (constantI S_ 32 1000000#32)) j = 1#1) := by
  dsimp only [fn_part2, andi] at h
  obtain ⟨h35, h38⟩ := IntOp.andi_eq_one.1 h
  obtain ⟨h31, h34⟩ := IntOp.andi_eq_one.1 h35
  exact ⟨h31, fun j => Host.reduce_andi_all _ _ _ _ _ h34 j, fun j => Host.reduce_andi_all _ _ _ _ _ h38 j⟩

/-- The middle of the conjunction: from it being 1, both tests on a0 and both tests on a1 hold at every entry. -/
theorem part1_decode {F : FTy → Type} [FloatOps F] (a0 a1 : IVec S16384 32) (a6 : FVec F S1 .f32) (v13 : IVec S_ 1)
    (v16 : IVec S1000000x1 1) (h : fn_part1 (F := F) a0 a1 a6 v13 v16 ValueIdx.ix0 = 1#1) :
    (∀ j, (a0 j).toNat < 1000000) ∧ (∀ j, (a1 j).toNat < 1000000) := by
  dsimp only [fn_part1] at h
  obtain ⟨h31, hge1, hlt1⟩ := part2_decode (F := F) _ _ _ h
  dsimp only [andi] at h31
  obtain ⟨h27, h30⟩ := IntOp.andi_eq_one.1 h31
  obtain ⟨_, h26⟩ := IntOp.andi_eq_one.1 h27
  have hge0 := fun j => Host.reduce_andi_all _ _ _ _ _ h26 j
  have hlt0 := fun j => Host.reduce_andi_all _ _ _ _ _ h30 j
  exact ⟨fun j => entry_range a0 j (hge0 j) (hlt0 j), fun j => entry_range a1 j (hge1 j) (hlt1 j)⟩

/-- Under the precondition, every index word of both index vectors is a row number below 1000000. -/
theorem index_ranges {F : FTy → Type} [FloatOps F] (a0 a1 : IVec Cert.Pre_finite_inputs.S16384 32)
    (a2 a3 : FVec F Cert.Pre_finite_inputs.S1000000x64 .f32) (a4 a5 : FVec F Cert.Pre_finite_inputs.S1000000x1 .f32)
    (a6 : FVec F Cert.Pre_finite_inputs.S1 .f32)
    (h : Cert.Pre_finite_inputs.fn (F := F) a0 a1 a2 a3 a4 a5 a6 = fun _ => 1#1) :
    (∀ j, (a0 j).toNat < 1000000) ∧ (∀ j, (a1 j).toNat < 1000000) := by
  have h0 := congrFun h ValueIdx.ix0
  unfold Cert.Pre_finite_inputs.fn at h0
  exact part1_decode (F := F) a0 a1 a6 _ _ h0

end Cert.MF
-- ==== Proof.Spec.lean ====
/-
  The matrix-factorisation score, entry by entry.

  For batch entry j, with u = users j and v = items j read as row numbers of the two embedding tables:
    score j = min 5 (max 1 (((user_bias u + item_bias v) + bias) + Σ_{q < 64} user_emb (u, q) * item_emb (v, q))).
  Both programs compute exactly this association of the three additions, and the same order of the clip's two bounds.
  A word names the row of its unsigned value; a word past the table's end names the last row (no entry of an
  admitted input is there: the precondition keeps every index inside the table).
-/
import Idealize.ShloMosaic.PureOps.Ideal
import Idealize.ShloMosaic.Lib.ValueIdx

noncomputable section

namespace Cert.MF

open Idealize.ShloMosaic Idealize.ShloMosaic.ValueIdx

/-- The shapes of the statement: the batch, an embedding table, a bias column, the global bias. -/
abbrev SB : Shape := ⟨1, ![16384]⟩
abbrev SE : Shape := ⟨2, ![1000000, 64]⟩
abbrev SC : Shape := ⟨2, ![1000000, 1]⟩
abbrev SG : Shape := ⟨1, ![1]⟩

/-- The row a word names. -/
def row (v : BitVec 32) : Fin 1000000 := ⟨min v.toNat 999999, by omega⟩

theorem row_val_of_lt {v : BitVec 32} (h : v.toNat < 1000000) : (row v).val = v.toNat := by
  show min v.toNat 999999 = v.toNat; omega

/-- The two bounds of the clip, as the programs spell them. -/
abbrev lo : Ideal .f32 := Ideal.ofBits .f32 0x3F800000#32
abbrev hi : Ideal .f32 := Ideal.ofBits .f32 0x40A00000#32

/-- The prediction before the clip, from the two gathered rows' numbers. -/
def pred (ue ie : SE.Idx → Ideal .f32) (ub ib : SC.Idx → Ideal .f32) (b : SG.Idx → Ideal .f32) (u v : Fin 1000000) : Ideal .f32 :=
  ((ub (ix2 u (0 : Fin 1)) + ib (ix2 v (0 : Fin 1))) + b (ix1 (0 : Fin 1))) + ∑ q : Fin 64, ue (ix2 u q) * ie (ix2 v q)

/-- The score of every batch entry. -/
def score (users items : SB.Idx → BitVec 32) (ue ie : SE.Idx → Ideal .f32) (ub ib : SC.Idx → Ideal .f32)
    (b : SG.Idx → Ideal .f32) : SB.Idx → Ideal .f32 :=
  fun j => min hi (max lo (pred ue ie ub ib b (row (users j)) (row (items j))))

end Cert.MF

end
-- ==== Proof.LibRowGather.lean ====
/-
  THE ROW GATHER READ AT AN INDEX. What `table[idx]` of a rank-2 table `table : [N, C]` at a vector of row indices
  lowers to: a `stablehlo.gather` with offset_dims `[1]`, collapsed_slice_dims `[0]`, start_index_map `[0]`,
  index_vector_dim `1` and slice_sizes `[1, C]`, over the indices kept as an `[n, 1]` column. Its result is `[n, C]`,
  and the element at `(p, q)` is the table's at `(row, q)`, where `row` is the start index `idx[p, 0]` read as a SIGNED
  integer and CLAMPED into `[0, N − 1]` (StableHLO clamps every start index so that the slice fits; here the slice is
  one row, so the clamp is to the last row): a negative index reads row `0`, one past the end reads row `N − 1`.

  `rowDims` is the record of those dimension numbers, written as a literal structure so that every list lookup in the
  gather's operand index computes; `rowGather_apply` is the read. The lemma is general in `N`, `C`, `n`, the index
  width `w` and the element type; the conditions `wf` on the dimension numbers are decided on a program's literal
  shapes. This is the rank-2 companion of `ValueIdx.gather_take_apply` (a rank-1 table).
-/
import Idealize.ShloMosaic.PureOps.Ideal
import Idealize.ShloMosaic.Lib.ValueIdx
noncomputable section
namespace Idealize.ShloMosaic.RowGather
open Idealize.ShloMosaic Idealize.ShloMosaic.ValueIdx

/-- The dimension numbers of a row gather out of an [N, C] table at an [n, 1] column of row indices. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The row gather read at (p, q): the table at the clamped signed start index of row p, column q. -/
theorem rowGather_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (p : Fin n) (q : Fin C) :
    Host.gather (rowDims N C n wf) x idx (ix2 p q)
      = x (ix2 (⟨min (idx (ix2 p (0 : Fin 1))).toInt.toNat (N - 1), by omega⟩ : Fin N) q) := by
  -- the gather reads the operand at its operand index: compare the two indices axis by axis, as naturals
  unfold Host.gather
  congr 1
  funext a
  refine Fin.ext ?_
  match a with
  | ⟨0, _⟩ =>
    -- AXIS 0, collapsed and start-indexed: no batching coordinate (no batching axes), no offset coordinate (a collapsed
    -- axis is not a kept one), so the operand coordinate is the clamped start alone
    show (rowDims N C n wf).start (ix2 p q) idx 0 + (rowDims N C n wf).batchCoord (ix2 p q) 0
        + (rowDims N C n wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C n wf).startIndexMap from List.mem_singleton.mpr rfl)]
    -- the start index's one component is read at (p, 0): the result's batch coordinate p on the start indices' axis 0,
    -- the component's number 0 on the index vector's axis 1
    have hsi : (rowDims N C n wf).siIdx (ix2 p q) ⟨List.idxOf (0 : Fin 2) (rowDims N C n wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    -- the clamp's upper end: the axis's extent N less the slice size 1
    rfl
  | ⟨1, _⟩ =>
    -- AXIS 1, an offset axis: the start index map does not name it, so the start is 0; there is no batching
    -- coordinate; it is the operand's one kept axis, read by the result's one offset axis, whose coordinate is q
    show (rowDims N C n wf).start (ix2 p q) idx 1 + (rowDims N C n wf).batchCoord (ix2 p q) 1
        + (rowDims N C n wf).offCoord (ix2 p q) 1 = q.val
    have hk : (1 : Fin 2) ∈ (rowDims N C n wf).sKept :=
      (GatherDims.mem_sKept _ _).mpr ⟨by show (1 : Fin 2) ∉ [(0 : Fin 2)]; decide, List.not_mem_nil⟩
    rw [GatherDims.batchCoord_eq_zero _ _ _ List.not_mem_nil]
    unfold GatherDims.start GatherDims.offCoord
    rw [dif_neg (show (1 : Fin 2) ∉ (rowDims N C n wf).startIndexMap by
      show (1 : Fin 2) ∉ [(0 : Fin 2)]; decide), dif_pos hk]
    simp only [Nat.zero_add]
    rfl
end Idealize.ShloMosaic.RowGather
end
-- ==== Proof.RefValue.lean ====
import proofs.«411927_j1331439862348_2_alg».proof.Proof.Gen.ReferenceIdeal.Run
import proofs.«411927_j1331439862348_2_alg».proof.Proof.Gen.ReferenceIdeal.Read
import proofs.«411927_j1331439862348_2_alg».proof.Proof.Spec
import proofs.«411927_j1331439862348_2_alg».proof.Proof.LibRowGather
import proofs.«411927_j1331439862348_2_alg».proof.Proof.LibIndexWrap

/-!
  The reference's result, index by index, is the specification's score.

  At batch entry p the reference gathers row users[p] of the user table and row items[p] of the item table, multiplies
  them entry by entry and sums the 64 products from 0; it gathers the two bias columns at the pairs (users[p], 0) and
  (items[p], 0), adds them, adds the global bias, adds the sum of products, and clips to [1, 5]. Every index word is
  first wrapped the way array indexing reads a negative index (a negative word counts from the end) and every gather clamps its start index into the
  table; for a word whose unsigned value is below the table's extent neither changes anything: the word is
  non-negative as a signed number, so the wrap keeps it, and it names a row of the table, so the clamp keeps it.
-/

noncomputable section

namespace Cert.ReferenceIdeal.RefValue

open Cert.ReferenceIdeal Cert.ReferenceIdeal.Gen Cert.ReferenceIdeal.Read Idealize.ShloMosaic Idealize.ShloMosaic.ValueIdx
open Idealize.ShloMosaic.RowGather Idealize.ShloMosaic.IndexWrap

/-! ## Index words inside the table -/

/-- A word whose unsigned value is below 1000000 is non-negative as a signed number: the wrap keeps it. -/
theorem wrapWord_of_lt (v : BitVec 32) (h : v.toNat < 1000000) : wrapWord 1000000#32 v = v := by
  unfold wrapWord
  have hs : v.slt 0#32 = false := by
    have e := BitVec.toInt_eq_toNat_cond v
    have : ¬ v.toInt < 0 := by split_ifs at e <;> omega
    simpa [BitVec.slt] using this
  rw [hs]; rfl

/-- Its signed value, as a natural, is its unsigned value. -/
theorem toInt_toNat_of_lt (v : BitVec 32) (h : v.toNat < 1000000) : v.toInt.toNat = v.toNat := by
  have e := BitVec.toInt_eq_toNat_cond v
  split_ifs at e <;> omega

/-- The clamped signed start index of a wrapped word inside the table is the row the word names. -/
theorem clampRow_eq (v : BitVec 32) (h : v.toNat < 1000000)
    (hlt : min (wrapWord 1000000#32 v).toInt.toNat (1000000 - 1) < 1000000) :
    (⟨min (wrapWord 1000000#32 v).toInt.toNat (1000000 - 1), hlt⟩ : Fin 1000000) = Cert.MF.row v := by
  refine Fin.ext ?_
  show min (wrapWord 1000000#32 v).toInt.toNat (1000000 - 1) = min v.toNat 999999
  rw [wrapWord_of_lt v h, toInt_toNat_of_lt v h]

/-- The same, for a word known to be that wrapped word. -/
theorem clampRow_eq' (w v : BitVec 32) (hw : w = wrapWord 1000000#32 v) (h : v.toNat < 1000000)
    (hlt : min w.toInt.toNat (1000000 - 1) < 1000000) :
    (⟨min w.toInt.toNat (1000000 - 1), hlt⟩ : Fin 1000000) = Cert.MF.row v := by
  subst hw
  exact clampRow_eq v h hlt

/-! ## The pair gather out of a one-column table -/

/-- The dimension numbers of a gather out of an [N, 1] column at an [n, 2] array of (row, column) pairs: both operand
    axes collapsed and start-indexed, no offset axis, the result one element per pair. -/
abbrev pairDims (N n : Nat)
    (wf : GatherDims.WF ⟨2, ![N, 1]⟩ ⟨2, ![n, 2]⟩ ⟨1, ![n]⟩ [] [0, 1] [] [0, 1] [] 1 ![1, 1]) :
    GatherDims ⟨2, ![N, 1]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

/-- The pair gather read at p: the column at the clamped signed first component of pair p (the second axis has one
    position). -/
theorem pairGather_apply {α : Type} {N n w : Nat} (hN : 0 < N)
    (wf : GatherDims.WF ⟨2, ![N, 1]⟩ ⟨2, ![n, 2]⟩ ⟨1, ![n]⟩ [] [0, 1] [] [0, 1] [] 1 ![1, 1])
    (x : (⟨2, ![N, 1]⟩ : Shape).Idx → α) (idx : IVec ⟨2, ![n, 2]⟩ w) (p : Fin n) :
    Host.gather (pairDims N n wf) x idx (ix1 p)
      = x (ix2 (⟨min (idx (ix2 p (0 : Fin 2))).toInt.toNat (N - 1), by omega⟩ : Fin N) (0 : Fin 1)) := by
  unfold Host.gather
  congr 1
  funext a
  refine Fin.ext ?_
  match a with
  | ⟨0, _⟩ =>
    -- axis 0, collapsed and start-indexed: the operand coordinate is the clamped start alone
    show (pairDims N n wf).start (ix1 p) idx 0 + (pairDims N n wf).batchCoord (ix1 p) 0
        + (pairDims N n wf).offCoord (ix1 p) 0 = _
    rw [GatherDims.batchCoord_eq_zero _ _ _ List.not_mem_nil,
      GatherDims.offCoord_eq_zero _ _ _ (fun h => ((GatherDims.mem_sKept _ _).mp h).1 (by
        show (0 : Fin 2) ∈ [(0 : Fin 2), 1]; decide))]
    simp only [Nat.add_zero]
    unfold GatherDims.start
    rw [dif_pos (show (0 : Fin 2) ∈ (pairDims N n wf).startIndexMap by
      show (0 : Fin 2) ∈ [(0 : Fin 2), 1]; decide)]
    have hsi : (pairDims N n wf).siIdx (ix1 p) ⟨List.idxOf (0 : Fin 2) (pairDims N n wf).startIndexMap,
        List.idxOf_lt_length_iff.2 (by show (0 : Fin 2) ∈ [(0 : Fin 2), 1]; decide)⟩ = ix2 p (0 : Fin 2) := by
      funext b; refine Fin.ext ?_
      match b with
      | ⟨0, _⟩ => rfl
      | ⟨1, _⟩ => rfl
    rw [hsi]
    rfl
  | ⟨1, _⟩ =>
    -- axis 1 has one position: every coordinate on it is 0
    have hlt := (pairDims N n wf).lt (ix1 p) idx 1
    have h1 : (⟨2, ![N, 1]⟩ : Shape).size 1 = 1 := rfl
    rw [h1] at hlt
    show (pairDims N n wf).start (ix1 p) idx 1 + (pairDims N n wf).batchCoord (ix1 p) 1
        + (pairDims N n wf).offCoord (ix1 p) 1 = 0
    omega

/-! ## The wrapped words, the four gathers and the scalar reshape, read at an index -/

variable (x0 x1 : (⟨S16384, .i32⟩ : BufTy).Contents (Elt Ideal))
  (x2 x3 : (⟨S1000000x64, .f32⟩ : BufTy).Contents (Elt Ideal))
  (x4 x5 : (⟨S1000000x1, .f32⟩ : BufTy).Contents (Elt Ideal))
  (x6 : (⟨S1, .f32⟩ : BufTy).Contents (Elt Ideal))

/-- The wrapped user words, at an entry. -/
theorem v4_apply (i : S16384.Idx) : val_main_v4 (F := Ideal) x0 i = wrapWord 1000000#32 (x0 i) :=
  wrapped_apply bcast_S_S16384 1000000#32 x0 i

theorem v11_apply (i : S16384.Idx) : val_main_v11 (F := Ideal) x1 i = wrapWord 1000000#32 (x1 i) :=
  wrapped_apply bcast_S_S16384 1000000#32 x1 i

theorem v20_apply (i : S16384.Idx) : val_main_v20 (F := Ideal) x0 i = wrapWord 1000000#32 (x0 i) :=
  wrapped_apply bcast_S_S16384 1000000#32 x0 i

theorem v31_apply (i : S16384.Idx) : val_main_v31 (F := Ideal) x1 i = wrapWord 1000000#32 (x1 i) :=
  wrapped_apply bcast_S_S16384 1000000#32 x1 i

/-- The user-table row gather at (p, q): the table at the row the word names, column q. -/
theorem v6_apply (h0 : ∀ j, (x0 j).toNat < 1000000) (p : Fin 16384) (q : Fin 64) :
    val_main_v6 (F := Ideal) x0 x2 (ix2 p q) = x2 (ix2 (Cert.MF.row (x0 (ix1 p))) q) := by
  have hd : gather_S1000000x64_S16384x1_S16384x64_1_0_n_n_0_1_164
      = rowDims 1000000 64 16384 Facts₀.gather_S1000000x64_S16384x1_S16384x64_1_0_n_n_0_1_164_wf := rfl
  unfold val_main_v6
  rw [hd, rowGather_apply (by decide)]
  have hc : val_main_v5 (F := Ideal) x0 (ix2 p (0 : Fin 1)) = wrapWord 1000000#32 (x0 (ix1 p)) := by
    unfold val_main_v5
    rw [column_apply, v4_apply]
  exact congrArg (fun r => x2 (ix2 r q)) (clampRow_eq' _ _ hc (h0 _) _)

/-- The item-table row gather at (p, q). -/
theorem v13_apply (h1 : ∀ j, (x1 j).toNat < 1000000) (p : Fin 16384) (q : Fin 64) :
    val_main_v13 (F := Ideal) x1 x3 (ix2 p q) = x3 (ix2 (Cert.MF.row (x1 (ix1 p))) q) := by
  have hd : gather_S1000000x64_S16384x1_S16384x64_1_0_n_n_0_1_164
      = rowDims 1000000 64 16384 Facts₀.gather_S1000000x64_S16384x1_S16384x64_1_0_n_n_0_1_164_wf := rfl
  unfold val_main_v13
  rw [hd, rowGather_apply (by decide)]
  have hc : val_main_v12 (F := Ideal) x1 (ix2 p (0 : Fin 1)) = wrapWord 1000000#32 (x1 (ix1 p)) := by
    unfold val_main_v12
    rw [column_apply, v11_apply]
  exact congrArg (fun r => x3 (ix2 r q)) (clampRow_eq' _ _ hc (h1 _) _)

/-- The user-bias gather at p: the column at the row the word names. -/
theorem v26_apply (h0 : ∀ j, (x0 j).toNat < 1000000) (p : Fin 16384) :
    val_main_v26 (F := Ideal) x0 x4 (ix1 p) = x4 (ix2 (Cert.MF.row (x0 (ix1 p))) (0 : Fin 1)) := by
  have hd : gather_S1000000x1_S16384x2_S16384_n_01_n_n_01_1_11
      = pairDims 1000000 16384 Facts₀.gather_S1000000x1_S16384x2_S16384_n_01_n_n_01_1_11_wf := rfl
  unfold val_main_v26
  rw [hd, pairGather_apply (by decide)]
  have hc : val_main_v25 (F := Ideal) x0 (ix2 p (0 : Fin 2)) = wrapWord 1000000#32 (x0 (ix1 p)) := by
    unfold val_main_v25
    rw [pair_fst]
    unfold val_main_v23
    rw [column_apply, v20_apply]
  exact congrArg (fun r => x4 (ix2 r (0 : Fin 1))) (clampRow_eq' _ _ hc (h0 _) _)

/-- The item-bias gather at p. -/
theorem v37_apply (h1 : ∀ j, (x1 j).toNat < 1000000) (p : Fin 16384) :
    val_main_v37 (F := Ideal) x1 x5 (ix1 p) = x5 (ix2 (Cert.MF.row (x1 (ix1 p))) (0 : Fin 1)) := by
  have hd : gather_S1000000x1_S16384x2_S16384_n_01_n_n_01_1_11
      = pairDims 1000000 16384 Facts₀.gather_S1000000x1_S16384x2_S16384_n_01_n_n_01_1_11_wf := rfl
  unfold val_main_v37
  rw [hd, pairGather_apply (by decide)]
  have hc : val_main_v36 (F := Ideal) x1 (ix2 p (0 : Fin 2)) = wrapWord 1000000#32 (x1 (ix1 p)) := by
    unfold val_main_v36
    rw [pair_fst]
    unfold val_main_v34
    rw [column_apply, v31_apply]
  exact congrArg (fun r => x5 (ix2 r (0 : Fin 1))) (clampRow_eq' _ _ hc (h1 _) _)

/-- The one-element bias vector reshaped to a scalar reads its one element. -/
theorem v39_apply (i : S_.Idx) : val_main_v39 (F := Ideal) x6 i = x6 (ix1 (0 : Fin 1)) := by
  unfold val_main_v39
  -- both shapes hold one element: the two row-major positions are 0
  have a : ∀ c : Fin S1.numel, c.val = 0 := fun c => Nat.lt_one_iff.mp (Nat.lt_of_lt_of_eq c.isLt (by decide))
  have b : ∀ c : Fin S_.numel, c.val = 0 := fun c => Nat.lt_one_iff.mp (Nat.lt_of_lt_of_eq c.isLt (by decide))
  exact shapeCast_apply x6 shapeCasts_S1_S_ i (ix1 (0 : Fin 1)) ((a _).trans (b _).symm)

/-- The summation index of the row sum is the pair (entry, column). -/
theorem idx15_eq (p : Fin 16384) (k : Fin 64) : idx_main_v15 (ix1 p) k = ix2 p k := by
  funext a
  match a with
  | ⟨0, _⟩ => rfl
  | ⟨1, _⟩ => rfl

/-! ## The result -/

/-- The reference's result is the score, entry by entry, for index words inside the two tables. -/
theorem val_is_score (x0 x1 : (⟨S16384, .i32⟩ : BufTy).Contents (Elt Ideal))
    (x2 x3 : (⟨S1000000x64, .f32⟩ : BufTy).Contents (Elt Ideal))
    (x4 x5 : (⟨S1000000x1, .f32⟩ : BufTy).Contents (Elt Ideal))
    (x6 : (⟨S1, .f32⟩ : BufTy).Contents (Elt Ideal))
    (h0 : ∀ j, (x0 j).toNat < 1000000) (h1 : ∀ j, (x1 j).toNat < 1000000) :
    Cert.ReferenceIdeal.Read.val_main_v43 (F := Ideal) x0 x1 x2 x3 x4 x5 x6 = Cert.MF.score x0 x1 x2 x3 x4 x5 x6 := by
  funext j
  obtain ⟨p, rfl⟩ : ∃ p, j = ix1 p := ⟨j 0, eq_ix1 j⟩
  rw [val_main_v43_apply, val_main_call0_v4_apply, val_main_call0_v3_apply, val_main_cst_10_apply,
    val_main_call0_v2_apply, val_main_call0_v1_apply, val_main_call0_v0_apply, val_main_cst_9_apply,
    val_main_v42_apply, val_main_v41_apply, val_main_v38_apply, val_main_v40_apply, v39_apply,
    v26_apply x0 x4 h0, v37_apply x1 x5 h1, val_main_v15_apply, val_main_cst_apply]
  simp only [val_main_v14_apply, idx15_eq, v6_apply x0 x2 h0, v13_apply x1 x3 h1, Ideal.ofBits_def, Ideal.addf_def,
    Ideal.mulf_def, Ideal.minimumf_def, Ideal.maximumf_def, Ideal.ofBits_zero_f32, zero_add]
  rfl

end Cert.ReferenceIdeal.RefValue

end
-- ==== Proof.K.Canon.lean ====
/-
  The pieces of one trip of the gather loop, named.

  Trip `k` of the loop at grid point `i` reads, for j = 0 … 7, the words of the two index tables at batch position
  512·i + 8·k + j, and copies row (user word) of the packed user table into row 8·k + j of the first scratch buffer
  and row (item word) of the packed item table into row 8·k + j of the second. `word` is a table word as a load
  through the table's whole buffer reads it; `land` is a scratch buffer's contents after one such row has landed:
  the 128 words of the destination row replaced by the 128 words of the source row, every other word kept.
-/
import proofs.«411927_j1331439862348_2_alg».proof.Proof.Gen.Kernel
import Idealize.ShloMosaic.Lib.Tactic

noncomputable section

namespace Cert.Kernel.Hand

open Cert.Kernel Cert.Kernel.Gen
open Idealize.ShloMosaic Idealize.ShloMosaic.TcCoe

variable {F : FTy → Type} [FloatOps F]

/-- The word of an index table at the batch position `o`. -/
def word (M : Memref sig .tc .smem S16384 .i32) (T : BufTy.Contents (Elt F) M.view.ty) (o : Fin 1 → Nat)
    (h : ∀ a, o a + S1.size a ≤ S16384.size a) : Elt F .i32 :=
  View.readAt (Elt F) M.view (Rect.unit (s := S16384) o S1.size h).toLoadRect T (Shape.Idx.first (numel1_S1.symm ▸ Nat.one_pos))

/-- A word below the table's extent names a row inside the table. -/
theorem chk_of_lt (v : BitVec 32) (h : v.toNat < 1000000) :
    ∀ a, (![v.toNat, 0, 0] : Fin 3 → Nat) a + S1x1x128.size a ≤ S1000000x1x128.size a := by
  intro a; fin_cases a
  · show v.toNat + 1 ≤ 1000000; omega
  · show 0 + 1 ≤ 1; omega
  · show 0 + 128 ≤ 128; omega

/-- Row `od` of a scratch buffer, and row `os` of a packed table, as the body slices and squeezes them. -/
abbrev dstRow (D : Memref sig .tc .vmem S512x1x128 .f32) (od : Fin 3 → Nat) (hd : ∀ a, od a + S1x1x128.size a ≤ S512x1x128.size a) :
    Memref sig .tc .vmem S1x128 .f32 :=
  (D.slice (Rect.unit (s := S512x1x128) od S1x1x128.size hd) (fun _ => rfl)).squeeze S1x128 squeezes_S1x1x128_S1x128
abbrev srcRow (S : Memref sig .tc .hbm S1000000x1x128 .f32) (os : Fin 3 → Nat) (hs : ∀ a, os a + S1x1x128.size a ≤ S1000000x1x128.size a) :
    Memref sig .tc .hbm S1x128 .f32 :=
  (S.slice (Rect.unit (s := S1000000x1x128) os S1x1x128.size hs) (fun _ => rfl)).squeeze S1x128 squeezes_S1x1x128_S1x128

/-- The scratch buffer `D` at contents `f`, after row `os` of the table `S` (at contents `X`) has landed in its row `od`. -/
def land (D : Memref sig .tc .vmem S512x1x128 .f32) (od : Fin 3 → Nat) (hd : ∀ a, od a + S1x1x128.size a ≤ S512x1x128.size a)
    (S : Memref sig .tc .hbm S1000000x1x128 .f32) (os : Fin 3 → Nat) (hs : ∀ a, os a + S1x1x128.size a ≤ S1000000x1x128.size a)
    (X : BufTy.Contents (Elt F) S.view.ty) (f : BufTy.Contents (Elt F) D.view.ty) : BufTy.Contents (Elt F) D.view.ty :=
  View.write (Elt F) (dstRow D od hd).view f (ReadAs.same.apply (View.read (Elt F) (srcRow S os hs).view X)) Finset.univ

end Cert.Kernel.Hand

end
-- ==== Proof.K.Trip.lean ====
/-
  One trip of the gather loop, run once at a symbolic trip.

  The trip holds: the two index tables (read only, at half their share), the two packed tables each as one read token
  per transfer that may be in flight at once (eight) beside the remainder of the share — two of the eight rows a trip
  copies out of a table may be the SAME row, so the rows cannot be lent apart; a token lends the row and takes it
  back at the wait —, the sixteen semaphore cells at zero, and the two scratch buffers. Every table word read names a
  row inside its table (`hU`, `hI`: the certificate's precondition), which is what each copy's source slice needs.
  After the trip everything is as before except the scratch buffers, in each of which rows 8k … 8k + 7 have landed
  (`G7`, `G8`: eight `land`s in the order of the waits' completions).
-/
import proofs.«411927_j1331439862348_2_alg».proof.Proof.K.Canon
import proofs.«411927_j1331439862348_2_alg».proof.Proof.Gen.Kernel.Loops
import Idealize.ShloMosaic.Lib.Pipeline.Frame
import Idealize.ShloMosaic.Lib.Tactic
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄D" => MT nD τ sig Unit (Elt F) ℕ (UR sig nD τ × Counters) ℕ

/-- Each side condition the trip assumes of a word it has read: the word names a row inside the table. -/
theorem hc1 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk1 (M.view.readAt (Elt F) R T j) := fun R j => chk_of_lt _ (hT R j)
theorem hc2 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk2 (M.view.readAt (Elt F) R T j) := fun R j => chk_of_lt _ (hT R j)
theorem hc3 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk3 (M.view.readAt (Elt F) R T j) := fun R j => chk_of_lt _ (hT R j)
theorem hc4 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk4 (M.view.readAt (Elt F) R T j) := fun R j => chk_of_lt _ (hT R j)
theorem hc5 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk5 (M.view.readAt (Elt F) R T j) := fun R j => chk_of_lt _ (hT R j)
theorem hc6 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk6 (M.view.readAt (Elt F) R T j) := fun R j => chk_of_lt _ (hT R j)
theorem hc7 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk7 (M.view.readAt (Elt F) R T j) := fun R j => chk_of_lt _ (hT R j)
theorem hc8 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk8 (M.view.readAt (Elt F) R T j) := fun R j => chk_of_lt _ (hT R j)
theorem hc9 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk9 (M.view.readAt (Elt F) R T j) := fun R j => chk_of_lt _ (hT R j)
theorem hc10 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk10 (M.view.readAt (Elt F) R T j) := fun R j => chk_of_lt _ (hT R j)
theorem hc11 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk11 (M.view.readAt (Elt F) R T j) := fun R j => chk_of_lt _ (hT R j)
theorem hc12 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk12 (M.view.readAt (Elt F) R T j) := fun R j => chk_of_lt _ (hT R j)
theorem hc13 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk13 (M.view.readAt (Elt F) R T j) := fun R j => chk_of_lt _ (hT R j)
theorem hc14 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk14 (M.view.readAt (Elt F) R T j) := fun R j => chk_of_lt _ (hT R j)
theorem hc15 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk15 (M.view.readAt (Elt F) R T j) := fun R j => chk_of_lt _ (hT R j)
theorem hc16 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk16 (M.view.readAt (Elt F) R T j) := fun R j => chk_of_lt _ (hT R j)

section Trip
variable (c : Dev nD) (i : grid0.Coords) (arg1 : Memref sig .tc .smem S16384 .i32) (harg1 : arg1.IsWhole) (arg2 : Memref sig .tc .smem S16384 .i32) (harg2 : arg2.IsWhole)
  (arg3 : Memref sig .tc .hbm S1000000x1x128 .f32) (harg3 : arg3.IsWhole) (arg4 : Memref sig .tc .hbm S1000000x1x128 .f32) (harg4 : arg4.IsWhole)
  (arg5 : Memref sig .tc .vmem S1 .f32) (harg5 : arg5.IsWhole) (arg6 : Memref sig .tc .vmem S512 .f32) (harg6 : arg6.IsWhole)
  (arg7 : Memref sig .tc .vmem S512x1x128 .f32) (harg7 : arg7.IsWhole) (arg8 : Memref sig .tc .vmem S512x1x128 .f32) (harg8 : arg8.IsWhole)
  (arg9 : DmaSems sig S8) (arg10 : DmaSems sig S8) (v0 : BitVec 32)
  (T1 : BufTy.Contents (Elt F) arg1.view.ty) (T2 : BufTy.Contents (Elt F) arg2.view.ty)
  (X3 : BufTy.Contents (Elt F) arg3.view.ty) (X4 : BufTy.Contents (Elt F) arg4.view.ty)
  (hU : ∀ (R : LoadRect S16384) (j : R.shape.Idx), BitVec.toNat (arg1.view.readAt (Elt F) R T1 j) < 1000000)
  (hI : ∀ (R : LoadRect S16384) (j : R.shape.Idx), BitVec.toNat (arg2.view.readAt (Elt F) R T2 j) < 1000000)

/-- What a trip takes and hands back unchanged. -/
abbrev TripRes : sProp 𝕄D :=
  iprop((arg1.view.loc (c : Thread nD τ) ↦{fullShare.right} T1)
    ∗ (arg2.view.loc (c : Thread nD τ) ↦{fullShare.right} T2)
    ∗ (arg3.view.loc (c : Thread nD τ) ↦{Transfers.shareDrop fullShare 8} X3)
    ∗ (arg3.view.loc (c : Thread nD τ) ↦{Transfers.shareTok fullShare 8 0} X3)
    ∗ (arg3.view.loc (c : Thread nD τ) ↦{Transfers.shareTok fullShare 8 1} X3)
    ∗ (arg3.view.loc (c : Thread nD τ) ↦{Transfers.shareTok fullShare 8 2} X3)
    ∗ (arg3.view.loc (c : Thread nD τ) ↦{Transfers.shareTok fullShare 8 3} X3)
    ∗ (arg3.view.loc (c : Thread nD τ) ↦{Transfers.shareTok fullShare 8 4} X3)
    ∗ (arg3.view.loc (c : Thread nD τ) ↦{Transfers.shareTok fullShare 8 5} X3)
    ∗ (arg3.view.loc (c : Thread nD τ) ↦{Transfers.shareTok fullShare 8 6} X3)
    ∗ (arg3.view.loc (c : Thread nD τ) ↦{Transfers.shareTok fullShare 8 7} X3)
    ∗ (arg4.view.loc (c : Thread nD τ) ↦{Transfers.shareDrop fullShare 8} X4)
    ∗ (arg4.view.loc (c : Thread nD τ) ↦{Transfers.shareTok fullShare 8 0} X4)
    ∗ (arg4.view.loc (c : Thread nD τ) ↦{Transfers.shareTok fullShare 8 1} X4)
    ∗ (arg4.view.loc (c : Thread nD τ) ↦{Transfers.shareTok fullShare 8 2} X4)
    ∗ (arg4.view.loc (c : Thread nD τ) ↦{Transfers.shareTok fullShare 8 3} X4)
    ∗ (arg4.view.loc (c : Thread nD τ) ↦{Transfers.shareTok fullShare 8 4} X4)
    ∗ (arg4.view.loc (c : Thread nD τ) ↦{Transfers.shareTok fullShare 8 5} X4)
    ∗ (arg4.view.loc (c : Thread nD τ) ↦{Transfers.shareTok fullShare 8 6} X4)
    ∗ (arg4.view.loc (c : Thread nD τ) ↦{Transfers.shareTok fullShare 8 7} X4)
    ∗ (semVal ((c : Thread nD τ), SemLoc.dma ((arg9.slice (Rect.unit (s := S8) ![0] S1.size inb_S8_S1_0)).squeeze S_ squeezes_S1_S_).sem) 0)
    ∗ (semVal ((c : Thread nD τ), SemLoc.dma ((arg9.slice (Rect.unit (s := S8) ![1] S1.size inb_S8_S1_1)).squeeze S_ squeezes_S1_S_).sem) 0)
    ∗ (semVal ((c : Thread nD τ), SemLoc.dma ((arg9.slice (Rect.unit (s := S8) ![2] S1.size inb_S8_S1_2)).squeeze S_ squeezes_S1_S_).sem) 0)
    ∗ (semVal ((c : Thread nD τ), SemLoc.dma ((arg9.slice (Rect.unit (s := S8) ![3] S1.size inb_S8_S1_3)).squeeze S_ squeezes_S1_S_).sem) 0)
    ∗ (semVal ((c : Thread nD τ), SemLoc.dma ((arg9.slice (Rect.unit (s := S8) ![4] S1.size inb_S8_S1_4)).squeeze S_ squeezes_S1_S_).sem) 0)
    ∗ (semVal ((c : Thread nD τ), SemLoc.dma ((arg9.slice (Rect.unit (s := S8) ![5] S1.size inb_S8_S1_5)).squeeze S_ squeezes_S1_S_).sem) 0)
    ∗ (semVal ((c : Thread nD τ), SemLoc.dma ((arg9.slice (Rect.unit (s := S8) ![6] S1.size inb_S8_S1_6)).squeeze S_ squeezes_S1_S_).sem) 0)
    ∗ (semVal ((c : Thread nD τ), SemLoc.dma ((arg9.slice (Rect.unit (s := S8) ![7] S1.size inb_S8_S1_7)).squeeze S_ squeezes_S1_S_).sem) 0)
    ∗ (semVal ((c : Thread nD τ), SemLoc.dma ((arg10.slice (Rect.unit (s := S8) ![0] S1.size inb_S8_S1_0)).squeeze S_ squeezes_S1_S_).sem) 0)
    ∗ (semVal ((c : Thread nD τ), SemLoc.dma ((arg10.slice (Rect.unit (s := S8) ![1] S1.size inb_S8_S1_1)).squeeze S_ squeezes_S1_S_).sem) 0)
    ∗ (semVal ((c : Thread nD τ), SemLoc.dma ((arg10.slice (Rect.unit (s := S8) ![2] S1.size inb_S8_S1_2)).squeeze S_ squeezes_S1_S_).sem) 0)
    ∗ (semVal ((c : Thread nD τ), SemLoc.dma ((arg10.slice (Rect.unit (s := S8) ![3] S1.size inb_S8_S1_3)).squeeze S_ squeezes_S1_S_).sem) 0)
    ∗ (semVal ((c : Thread nD τ), SemLoc.dma ((arg10.slice (Rect.unit (s := S8) ![4] S1.size inb_S8_S1_4)).squeeze S_ squeezes_S1_S_).sem) 0)
    ∗ (semVal ((c : Thread nD τ), SemLoc.dma ((arg10.slice (Rect.unit (s := S8) ![5] S1.size inb_S8_S1_5)).squeeze S_ squeezes_S1_S_).sem) 0)
    ∗ (semVal ((c : Thread nD τ), SemLoc.dma ((arg10.slice (Rect.unit (s := S8) ![6] S1.size inb_S8_S1_6)).squeeze S_ squeezes_S1_S_).sem) 0)
    ∗ (semVal ((c : Thread nD τ), SemLoc.dma ((arg10.slice (Rect.unit (s := S8) ![7] S1.size inb_S8_S1_7)).squeeze S_ squeezes_S1_S_).sem) 0))

/-- The first scratch buffer after trip `k`, over its contents `f` before it. -/
def G7 (k : Fin k0_t1_loop.trips) (f : BufTy.Contents (Elt F) arg7.view.ty) : BufTy.Contents (Elt F) arg7.view.ty :=
  land arg7 (k0_off37 k) (Gen.k0_off37_inb k) arg3 (k0_off38 (word arg1 T1 (k0_off36 i k) (Gen.k0_off36_inb i k))) (k0_off38_inb _ (hc15 arg1 T1 hU _ _)) X3
      (land arg7 (k0_off32 k) (Gen.k0_off32_inb k) arg3 (k0_off33 (word arg1 T1 (k0_off31 i k) (Gen.k0_off31_inb i k))) (k0_off33_inb _ (hc13 arg1 T1 hU _ _)) X3
      (land arg7 (k0_off27 k) (Gen.k0_off27_inb k) arg3 (k0_off28 (word arg1 T1 (k0_off26 i k) (Gen.k0_off26_inb i k))) (k0_off28_inb _ (hc11 arg1 T1 hU _ _)) X3
      (land arg7 (k0_off22 k) (Gen.k0_off22_inb k) arg3 (k0_off23 (word arg1 T1 (k0_off21 i k) (Gen.k0_off21_inb i k))) (k0_off23_inb _ (hc9 arg1 T1 hU _ _)) X3
      (land arg7 (k0_off17 k) (Gen.k0_off17_inb k) arg3 (k0_off18 (word arg1 T1 (k0_off16 i k) (Gen.k0_off16_inb i k))) (k0_off18_inb _ (hc7 arg1 T1 hU _ _)) X3
      (land arg7 (k0_off12 k) (Gen.k0_off12_inb k) arg3 (k0_off13 (word arg1 T1 (k0_off11 i k) (Gen.k0_off11_inb i k))) (k0_off13_inb _ (hc5 arg1 T1 hU _ _)) X3
      (land arg7 (k0_off7 k) (Gen.k0_off7_inb k) arg3 (k0_off8 (word arg1 T1 (k0_off6 i k) (Gen.k0_off6_inb i k))) (k0_off8_inb _ (hc3 arg1 T1 hU _ _)) X3
      (land arg7 (k0_off2 k) (Gen.k0_off2_inb k) arg3 (k0_off3 (word arg1 T1 (k0_off1 i k) (Gen.k0_off1_inb i k))) (k0_off3_inb _ (hc1 arg1 T1 hU _ _)) X3
      (f))))))))

/-- The second scratch buffer after trip `k`, over its contents `f` before it. -/
def G8 (k : Fin k0_t1_loop.trips) (f : BufTy.Contents (Elt F) arg8.view.ty) : BufTy.Contents (Elt F) arg8.view.ty :=
  land arg8 (k0_off39 k) (Gen.k0_off39_inb k) arg4 (k0_off40 (word arg2 T2 (k0_off36 i k) (Gen.k0_off36_inb i k))) (k0_off40_inb _ (hc16 arg2 T2 hI _ _)) X4
      (land arg8 (k0_off34 k) (Gen.k0_off34_inb k) arg4 (k0_off35 (word arg2 T2 (k0_off31 i k) (Gen.k0_off31_inb i k))) (k0_off35_inb _ (hc14 arg2 T2 hI _ _)) X4
      (land arg8 (k0_off29 k) (Gen.k0_off29_inb k) arg4 (k0_off30 (word arg2 T2 (k0_off26 i k) (Gen.k0_off26_inb i k))) (k0_off30_inb _ (hc12 arg2 T2 hI _ _)) X4
      (land arg8 (k0_off24 k) (Gen.k0_off24_inb k) arg4 (k0_off25 (word arg2 T2 (k0_off21 i k) (Gen.k0_off21_inb i k))) (k0_off25_inb _ (hc10 arg2 T2 hI _ _)) X4
      (land arg8 (k0_off19 k) (Gen.k0_off19_inb k) arg4 (k0_off20 (word arg2 T2 (k0_off16 i k) (Gen.k0_off16_inb i k))) (k0_off20_inb _ (hc8 arg2 T2 hI _ _)) X4
      (land arg8 (k0_off14 k) (Gen.k0_off14_inb k) arg4 (k0_off15 (word arg2 T2 (k0_off11 i k) (Gen.k0_off11_inb i k))) (k0_off15_inb _ (hc6 arg2 T2 hI _ _)) X4
      (land arg8 (k0_off9 k) (Gen.k0_off9_inb k) arg4 (k0_off10 (word arg2 T2 (k0_off6 i k) (Gen.k0_off6_inb i k))) (k0_off10_inb _ (hc4 arg2 T2 hI _ _)) X4
      (land arg8 (k0_off4 k) (Gen.k0_off4_inb k) arg4 (k0_off5 (word arg2 T2 (k0_off1 i k) (Gen.k0_off1_inb i k))) (k0_off5_inb _ (hc2 arg2 T2 hI _ _)) X4
      (f))))))))

set_option maxHeartbeats 4000000 in
/-- THE TRIP. -/
theorem trip (k : Fin k0_t1_loop.trips) (f7 : BufTy.Contents (Elt F) arg7.view.ty) (f8 : BufTy.Contents (Elt F) arg8.view.ty) (W : Waits sig Unit) :
    iprop(TripRes (F := F) c arg1 arg2 arg3 arg4 arg9 arg10 T1 T2 X3 X4
        ∗ (arg7.view.loc (c : Thread nD τ) ↦[arg7.view.set]{fullShare} f7) ∗ (arg8.view.loc (c : Thread nD τ) ↦[arg8.view.set]{fullShare} f8)
        ∗ owes (c : Thread nD τ) 0 W)
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 arg10 v0 k ())
          (fun _ => iprop(TripRes (F := F) c arg1 arg2 arg3 arg4 arg9 arg10 T1 T2 X3 X4
            ∗ (arg7.view.loc (c : Thread nD τ) ↦[arg7.view.set]{fullShare} G7 (F := F) i arg1 arg3 arg7 T1 X3 hU k f7)
            ∗ (arg8.view.loc (c : Thread nD τ) ↦[arg8.view.set]{fullShare} G8 (F := F) i arg2 arg4 arg8 T2 X4 hI k f8)
            ∗ ∃ W', owes (c : Thread nD τ) 0 W')) := by
  unfold k0_t1_body
  iintro ⟨⟨H1, H2, H3d, H3t0, H3t1, H3t2, H3t3, H3t4, H3t5, H3t6, H3t7, H4d, H4t0, H4t1, H4t2, H4t3, H4t4, H4t5, H4t6, H4t7, HQ0, HQ1, HQ2, HQ3, HQ4, HQ5, HQ6, HQ7, HR0, HR1, HR2, HR3, HR4, HR5, HR6, HR7⟩, H7, H8, HO⟩
  have hc1 := hc1 (F := F) arg1 T1 hU
  have hc2 := hc2 (F := F) arg2 T2 hI
  have hc3 := hc3 (F := F) arg1 T1 hU
  have hc4 := hc4 (F := F) arg2 T2 hI
  have hc5 := hc5 (F := F) arg1 T1 hU
  have hc6 := hc6 (F := F) arg2 T2 hI
  have hc7 := hc7 (F := F) arg1 T1 hU
  have hc8 := hc8 (F := F) arg2 T2 hI
  have hc9 := hc9 (F := F) arg1 T1 hU
  have hc10 := hc10 (F := F) arg2 T2 hI
  have hc11 := hc11 (F := F) arg1 T1 hU
  have hc12 := hc12 (F := F) arg2 T2 hI
  have hc13 := hc13 (F := F) arg1 T1 hU
  have hc14 := hc14 (F := F) arg2 T2 hI
  have hc15 := hc15 (F := F) arg1 T1 hU
  have hc16 := hc16 (F := F) arg2 T2 hI
  sl_exec (disch := first | sl_exact (hc1 _ _) | sl_exact (hc2 _ _) | sl_exact (hc3 _ _) | sl_exact (hc4 _ _) | sl_exact (hc5 _ _) | sl_exact (hc6 _ _) | sl_exact (hc7 _ _) | sl_exact (hc8 _ _) | sl_exact (hc9 _ _) | sl_exact (hc10 _ _) | sl_exact (hc11 _ _) | sl_exact (hc12 _ _) | sl_exact (hc13 _ _) | sl_exact (hc14 _ _) | sl_exact (hc15 _ _) | sl_exact (hc16 _ _))
  sl_step
  isplitl [H1 H2 H3d H3t0 H3t1 H3t2 H3t3 H3t4 H3t5 H3t6 H3t7 H4d H4t0 H4t1 H4t2 H4t3 H4t4 H4t5 H4t6 H4t7 HQ0 HQ1 HQ2 HQ3 HQ4 HQ5 HQ6 HQ7 HR0 HR1 HR2 HR3 HR4 HR5 HR6 HR7]
  ·
    isplitl [H1]; · iexact H1
    isplitl [H2]; · iexact H2
    isplitl [H3d]; · iexact H3d
    isplitl [H3t0]; · iexact H3t0
    isplitl [H3t1]; · iexact H3t1
    isplitl [H3t2]; · iexact H3t2
    isplitl [H3t3]; · iexact H3t3
    isplitl [H3t4]; · iexact H3t4
    isplitl [H3t5]; · iexact H3t5
    isplitl [H3t6]; · iexact H3t6
    isplitl [H3t7]; · iexact H3t7
    isplitl [H4d]; · iexact H4d
    isplitl [H4t0]; · iexact H4t0
    isplitl [H4t1]; · iexact H4t1
    isplitl [H4t2]; · iexact H4t2
    isplitl [H4t3]; · iexact H4t3
    isplitl [H4t4]; · iexact H4t4
    isplitl [H4t5]; · iexact H4t5
    isplitl [H4t6]; · iexact H4t6
    isplitl [H4t7]; · iexact H4t7
    isplitl [HQ0]; · iexact HQ0
    isplitl [HQ1]; · iexact HQ1
    isplitl [HQ2]; · iexact HQ2
    isplitl [HQ3]; · iexact HQ3
    isplitl [HQ4]; · iexact HQ4
    isplitl [HQ5]; · iexact HQ5
    isplitl [HQ6]; · iexact HQ6
    isplitl [HQ7]; · iexact HQ7
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  isplitl [H7]; · iexact H7
  isplitl [H8]; · iexact H8
  iexists _; iexact HO

/-! ## The scratch buffers after `n` trips, and the rows the loop gathers -/

/-- The first scratch buffer after `n` trips from its contents `f₀` at the loop's entry (constant past the last trip). -/
def ACC7 (f₀ : BufTy.Contents (Elt F) arg7.view.ty) : ℕ → BufTy.Contents (Elt F) arg7.view.ty
  | 0 => f₀
  | n + 1 => if h : n < k0_t1_loop.trips then G7 (F := F) i arg1 arg3 arg7 T1 X3 hU ⟨n, h⟩ (ACC7 f₀ n) else ACC7 f₀ n

/-- The second scratch buffer after `n` trips. -/
def ACC8 (f₀ : BufTy.Contents (Elt F) arg8.view.ty) : ℕ → BufTy.Contents (Elt F) arg8.view.ty
  | 0 => f₀
  | n + 1 => if h : n < k0_t1_loop.trips then G8 (F := F) i arg2 arg4 arg8 T2 X4 hI ⟨n, h⟩ (ACC8 f₀ n) else ACC8 f₀ n

theorem ACC7_succ (f₀ : BufTy.Contents (Elt F) arg7.view.ty) (k : Fin k0_t1_loop.trips) :
    ACC7 (F := F) i arg1 arg3 arg7 T1 X3 hU f₀ (k.val + 1)
      = G7 (F := F) i arg1 arg3 arg7 T1 X3 hU k (ACC7 (F := F) i arg1 arg3 arg7 T1 X3 hU f₀ k.val) := by
  rw [ACC7.eq_2]; exact dif_pos k.isLt

theorem ACC8_succ (f₀ : BufTy.Contents (Elt F) arg8.view.ty) (k : Fin k0_t1_loop.trips) :
    ACC8 (F := F) i arg2 arg4 arg8 T2 X4 hI f₀ (k.val + 1)
      = G8 (F := F) i arg2 arg4 arg8 T2 X4 hI k (ACC8 (F := F) i arg2 arg4 arg8 T2 X4 hI f₀ k.val) := by
  rw [ACC8.eq_2]; exact dif_pos k.isLt

/-- The loop has 64 trips. -/
theorem trips_eq : k0_t1_loop.trips = 64 := by decide

/-- Batch position 512·i + r lies inside the index tables. -/
theorem pos_inb (i : grid0.Coords) (r : Fin 512) :
    ∀ a, (![512 * (i 0).val + r.val] : Fin 1 → Nat) a + S1.size a ≤ S16384.size a := by
  have h32 : (i 0).val < 32 := (i 0).isLt
  have hr := r.isLt
  intro a; fin_cases a
  show 512 * (i 0).val + r.val + 1 ≤ 16384; omega

end Trip

/-- The rows the loop gathers at grid point `i` out of the packed table `S` (at contents `X`) by the index table `M`
    (at contents `T`): row r is the table's row named by the word at batch position 512·i + r. -/
def gathered (S : Memref sig .tc .hbm S1000000x1x128 .f32) (X : BufTy.Contents (Elt F) S.view.ty)
    (M : Memref sig .tc .smem S16384 .i32) (T : BufTy.Contents (Elt F) M.view.ty)
    (hT : ∀ (R : LoadRect S16384) (j : R.shape.Idx), BitVec.toNat (M.view.readAt (Elt F) R T j) < 1000000)
    (i : grid0.Coords) : S512x1x128.Idx → Elt F .f32 :=
  fun y => S.view.read (Elt F) X
    (ValueIdx.ix3 (⟨BitVec.toNat (word M T ![512 * (i 0).val + (y 0 : Fin 512).val] (pos_inb i (y 0 : Fin 512))), hT _ _⟩ : Fin 1000000)
      (0 : Fin 1) (y 2 : Fin 128))

end Cert.Kernel.Hand

end
-- ==== Proof.K.Body.lean ====
/-
  The kernel's body at one grid point, run once at a symbolic point.

  The body is the gather loop, then: both scratch buffers loaded whole, the bias block loaded, the output block stored
  whole at the payload of those three loads. The loop is gone through by its invariant — before trip n the scratch
  buffers hold what n trips leave (`ACC7`, `ACC8`), everything else a trip touches is as at the loop's entry —, each
  packed table held for the loop's duration as eight read tokens and the remainder of its share, split off the whole
  table before the loop and joined back after it. After 64 trips every row of a scratch buffer has been gathered,
  whatever the buffer held before (`hR7`, `hR8`), so the loads read `gathered` and the output block ends at `outVal`.
-/
import proofs.«411927_j1331439862348_2_alg».proof.Proof.K.Trip
import proofs.«411927_j1331439862348_2_alg».proof.Proof.Gen.Kernel.Launch
import Idealize.ShloMosaic.Lib.Pipeline.Frame
import Idealize.ShloMosaic.Lib.Pipeline.FrameBody
import Idealize.ShloMosaic.Lib.Ring
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄D" => MT nD τ sig Unit (Elt F) ℕ (UR sig nD τ × Counters) ℕ

/-- Eight conjuncts, one by one. -/
theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  Idealize.SL.BI.bigSep_univ_eq_bigSepL [(0 : Fin 8), 1, 2, 3, 4, 5, 6, 7] (by decide) (by decide) Φ

section Body
variable (c : Dev nD) (i : grid0.Coords) (arg1 : Memref sig .tc .smem S16384 .i32) (harg1 : arg1.IsWhole) (arg2 : Memref sig .tc .smem S16384 .i32) (harg2 : arg2.IsWhole)
  (arg3 : Memref sig .tc .hbm S1000000x1x128 .f32) (harg3 : arg3.IsWhole) (arg4 : Memref sig .tc .hbm S1000000x1x128 .f32) (harg4 : arg4.IsWhole)
  (arg5 : Memref sig .tc .vmem S1 .f32) (harg5 : arg5.IsWhole) (arg6 : Memref sig .tc .vmem S512 .f32) (harg6 : arg6.IsWhole)
  (arg7 : Memref sig .tc .vmem S512x1x128 .f32) (harg7 : arg7.IsWhole) (arg8 : Memref sig .tc .vmem S512x1x128 .f32) (harg8 : arg8.IsWhole)
  (arg9 : DmaSems sig S8) (arg10 : DmaSems sig S8)
  (T1 : BufTy.Contents (Elt F) arg1.view.ty) (T2 : BufTy.Contents (Elt F) arg2.view.ty)
  (X3 : BufTy.Contents (Elt F) arg3.view.ty) (X4 : BufTy.Contents (Elt F) arg4.view.ty)
  (hU : ∀ (R : LoadRect S16384) (j : R.shape.Idx), BitVec.toNat (arg1.view.readAt (Elt F) R T1 j) < 1000000)
  (hI : ∀ (R : LoadRect S16384) (j : R.shape.Idx), BitVec.toNat (arg2.view.readAt (Elt F) R T2 j) < 1000000)

/-- A packed table whole is its eight read tokens beside the remainder of the share, -/
theorem toks_split (M : Memref sig .tc .hbm S1000000x1x128 .f32) (X : BufTy.Contents (Elt F) M.view.ty) :
    (M.view.loc (c : Thread nD τ) ↦{fullShare} X : sProp 𝕄D)
      ⊢ iprop((M.view.loc (c : Thread nD τ) ↦{Transfers.shareDrop fullShare 8} X)
        ∗ (M.view.loc (c : Thread nD τ) ↦{Transfers.shareTok fullShare 8 0} X)
        ∗ (M.view.loc (c : Thread nD τ) ↦{Transfers.shareTok fullShare 8 1} X)
        ∗ (M.view.loc (c : Thread nD τ) ↦{Transfers.shareTok fullShare 8 2} X)
        ∗ (M.view.loc (c : Thread nD τ) ↦{Transfers.shareTok fullShare 8 3} X)
        ∗ (M.view.loc (c : Thread nD τ) ↦{Transfers.shareTok fullShare 8 4} X)
        ∗ (M.view.loc (c : Thread nD τ) ↦{Transfers.shareTok fullShare 8 5} X)
        ∗ (M.view.loc (c : Thread nD τ) ↦{Transfers.shareTok fullShare 8 6} X)
        ∗ (M.view.loc (c : Thread nD τ) ↦{Transfers.shareTok fullShare 8 7} X)) :=
  (Transfers.pointsTo_toks_split (Ix := Unit) (Name := ℕ) (U := UR sig nD τ × Counters) (Lvl := ℕ) fullShare 8).trans
    (Entails.of_eq (by rw [bigSep_fin8]))

/-- and back. -/
theorem toks_join (M : Memref sig .tc .hbm S1000000x1x128 .f32) (X : BufTy.Contents (Elt F) M.view.ty) :
    iprop((M.view.loc (c : Thread nD τ) ↦{Transfers.shareDrop fullShare 8} X)
        ∗ (M.view.loc (c : Thread nD τ) ↦{Transfers.shareTok fullShare 8 0} X)
        ∗ (M.view.loc (c : Thread nD τ) ↦{Transfers.shareTok fullShare 8 1} X)
        ∗ (M.view.loc (c : Thread nD τ) ↦{Transfers.shareTok fullShare 8 2} X)
        ∗ (M.view.loc (c : Thread nD τ) ↦{Transfers.shareTok fullShare 8 3} X)
        ∗ (M.view.loc (c : Thread nD τ) ↦{Transfers.shareTok fullShare 8 4} X)
        ∗ (M.view.loc (c : Thread nD τ) ↦{Transfers.shareTok fullShare 8 5} X)
        ∗ (M.view.loc (c : Thread nD τ) ↦{Transfers.shareTok fullShare 8 6} X)
        ∗ (M.view.loc (c : Thread nD τ) ↦{Transfers.shareTok fullShare 8 7} X))
      ⊢ (M.view.loc (c : Thread nD τ) ↦{fullShare} X : sProp 𝕄D) :=
  (Entails.of_eq (by rw [bigSep_fin8])).trans
    (Transfers.pointsTo_toks_join (Ix := Unit) (Name := ℕ) (U := UR sig nD τ × Counters) (Lvl := ℕ) fullShare 8)

/-- THE LOOP'S INVARIANT before trip `n`, from the scratch buffers' contents `f7₀`, `f8₀` at the loop's entry. -/
def loopI (f7₀ : BufTy.Contents (Elt F) arg7.view.ty) (f8₀ : BufTy.Contents (Elt F) arg8.view.ty) (n : ℕ) (_ : Unit) : sProp 𝕄D :=
  iprop(TripRes (F := F) c arg1 arg2 arg3 arg4 arg9 arg10 T1 T2 X3 X4
    ∗ (arg7.view.loc (c : Thread nD τ) ↦[arg7.view.set]{fullShare} ACC7 (F := F) i arg1 arg3 arg7 T1 X3 hU f7₀ n)
    ∗ (arg8.view.loc (c : Thread nD τ) ↦[arg8.view.set]{fullShare} ACC8 (F := F) i arg2 arg4 arg8 T2 X4 hI f8₀ n)
    ∗ ∃ W, owes (c : Thread nD τ) 0 W)

/-- What the body stores into the output block: the payload of the two gathered buffers and the bias block. -/
def outVal (x5 : Vec F S1 .f32) : FVec F S512 .f32 :=
  k0_pay1 (gathered arg3 X3 arg1 T1 hU i) (gathered arg4 X4 arg2 T2 hI i)
    (View.readAt (Elt F) arg5.view (Rect.unit (s := S1) ![0] S1.size inb_S1_S1_0).toLoadRect (harg5.unread x5))

set_option maxHeartbeats 4000000 in
/-- THE BODY. -/
theorem sound_kernel
    (hR7 : ∀ f₀, arg7.view.readAt (Elt F) (Rect.unit (s := S512x1x128) ![0, 0, 0] S512x1x128.size inb_S512x1x128_S512x1x128_0_0_0).toLoadRect
        (ACC7 (F := F) i arg1 arg3 arg7 T1 X3 hU f₀ 64) = gathered arg3 X3 arg1 T1 hU i)
    (hR8 : ∀ f₀, arg8.view.readAt (Elt F) (Rect.unit (s := S512x1x128) ![0, 0, 0] S512x1x128.size inb_S512x1x128_S512x1x128_0_0_0).toLoadRect
        (ACC8 (F := F) i arg2 arg4 arg8 T2 X4 hI f₀ 64) = gathered arg4 X4 arg2 T2 hI i)
    (x5 : Vec F S1 .f32) (W : Waits sig Unit) (K : PUnit → sProp 𝕄D) :
    iprop(owns (c : Thread nD τ) arg5 fullShare x5 ∗ (∃ d, owns (c : Thread nD τ) arg6 fullShare d)
        ∗ (∃ d, owns (c : Thread nD τ) arg7 fullShare d) ∗ (∃ d, owns (c : Thread nD τ) arg8 fullShare d)
        ∗ (semVal ((c : Thread nD τ), SemLoc.dma ((arg9.slice (Rect.unit (s := S8) ![0] S1.size inb_S8_S1_0)).squeeze S_ squeezes_S1_S_).sem) 0)
        ∗ (semVal ((c : Thread nD τ), SemLoc.dma ((arg9.slice (Rect.unit (s := S8) ![1] S1.size inb_S8_S1_1)).squeeze S_ squeezes_S1_S_).sem) 0)
        ∗ (semVal ((c : Thread nD τ), SemLoc.dma ((arg9.slice (Rect.unit (s := S8) ![2] S1.size inb_S8_S1_2)).squeeze S_ squeezes_S1_S_).sem) 0)
        ∗ (semVal ((c : Thread nD τ), SemLoc.dma ((arg9.slice (Rect.unit (s := S8) ![3] S1.size inb_S8_S1_3)).squeeze S_ squeezes_S1_S_).sem) 0)
        ∗ (semVal ((c : Thread nD τ), SemLoc.dma ((arg9.slice (Rect.unit (s := S8) ![4] S1.size inb_S8_S1_4)).squeeze S_ squeezes_S1_S_).sem) 0)
        ∗ (semVal ((c : Thread nD τ), SemLoc.dma ((arg9.slice (Rect.unit (s := S8) ![5] S1.size inb_S8_S1_5)).squeeze S_ squeezes_S1_S_).sem) 0)
        ∗ (semVal ((c : Thread nD τ), SemLoc.dma ((arg9.slice (Rect.unit (s := S8) ![6] S1.size inb_S8_S1_6)).squeeze S_ squeezes_S1_S_).sem) 0)
        ∗ (semVal ((c : Thread nD τ), SemLoc.dma ((arg9.slice (Rect.unit (s := S8) ![7] S1.size inb_S8_S1_7)).squeeze S_ squeezes_S1_S_).sem) 0)
        ∗ (semVal ((c : Thread nD τ), SemLoc.dma ((arg10.slice (Rect.unit (s := S8) ![0] S1.size inb_S8_S1_0)).squeeze S_ squeezes_S1_S_).sem) 0)
        ∗ (semVal ((c : Thread nD τ), SemLoc.dma ((arg10.slice (Rect.unit (s := S8) ![1] S1.size inb_S8_S1_1)).squeeze S_ squeezes_S1_S_).sem) 0)
        ∗ (semVal ((c : Thread nD τ), SemLoc.dma ((arg10.slice (Rect.unit (s := S8) ![2] S1.size inb_S8_S1_2)).squeeze S_ squeezes_S1_S_).sem) 0)
        ∗ (semVal ((c : Thread nD τ), SemLoc.dma ((arg10.slice (Rect.unit (s := S8) ![3] S1.size inb_S8_S1_3)).squeeze S_ squeezes_S1_S_).sem) 0)
        ∗ (semVal ((c : Thread nD τ), SemLoc.dma ((arg10.slice (Rect.unit (s := S8) ![4] S1.size inb_S8_S1_4)).squeeze S_ squeezes_S1_S_).sem) 0)
        ∗ (semVal ((c : Thread nD τ), SemLoc.dma ((arg10.slice (Rect.unit (s := S8) ![5] S1.size inb_S8_S1_5)).squeeze S_ squeezes_S1_S_).sem) 0)
        ∗ (semVal ((c : Thread nD τ), SemLoc.dma ((arg10.slice (Rect.unit (s := S8) ![6] S1.size inb_S8_S1_6)).squeeze S_ squeezes_S1_S_).sem) 0)
        ∗ (semVal ((c : Thread nD τ), SemLoc.dma ((arg10.slice (Rect.unit (s := S8) ![7] S1.size inb_S8_S1_7)).squeeze S_ squeezes_S1_S_).sem) 0)
        ∗ (arg3.view.loc (c : Thread nD τ) ↦{fullShare} X3) ∗ (arg4.view.loc (c : Thread nD τ) ↦{fullShare} X4)
        ∗ (arg1.view.loc (c : Thread nD τ) ↦{fullShare.right} T1) ∗ (arg2.view.loc (c : Thread nD τ) ↦{fullShare.right} T2)
        ∗ owes (c : Thread nD τ) 0 W
        ∗ (iprop(owns (c : Thread nD τ) arg5 fullShare x5
              ∗ owns (c : Thread nD τ) arg6 fullShare (outVal (F := F) i arg1 arg2 arg3 arg4 arg5 harg5 T1 T2 X3 X4 hU hI x5)
              ∗ (∃ d, owns (c : Thread nD τ) arg7 fullShare d) ∗ (∃ d, owns (c : Thread nD τ) arg8 fullShare d)
              ∗ (semVal ((c : Thread nD τ), SemLoc.dma ((arg9.slice (Rect.unit (s := S8) ![0] S1.size inb_S8_S1_0)).squeeze S_ squeezes_S1_S_).sem) 0)
              ∗ (semVal ((c : Thread nD τ), SemLoc.dma ((arg9.slice (Rect.unit (s := S8) ![1] S1.size inb_S8_S1_1)).squeeze S_ squeezes_S1_S_).sem) 0)
              ∗ (semVal ((c : Thread nD τ), SemLoc.dma ((arg9.slice (Rect.unit (s := S8) ![2] S1.size inb_S8_S1_2)).squeeze S_ squeezes_S1_S_).sem) 0)
              ∗ (semVal ((c : Thread nD τ), SemLoc.dma ((arg9.slice (Rect.unit (s := S8) ![3] S1.size inb_S8_S1_3)).squeeze S_ squeezes_S1_S_).sem) 0)
              ∗ (semVal ((c : Thread nD τ), SemLoc.dma ((arg9.slice (Rect.unit (s := S8) ![4] S1.size inb_S8_S1_4)).squeeze S_ squeezes_S1_S_).sem) 0)
              ∗ (semVal ((c : Thread nD τ), SemLoc.dma ((arg9.slice (Rect.unit (s := S8) ![5] S1.size inb_S8_S1_5)).squeeze S_ squeezes_S1_S_).sem) 0)
              ∗ (semVal ((c : Thread nD τ), SemLoc.dma ((arg9.slice (Rect.unit (s := S8) ![6] S1.size inb_S8_S1_6)).squeeze S_ squeezes_S1_S_).sem) 0)
              ∗ (semVal ((c : Thread nD τ), SemLoc.dma ((arg9.slice (Rect.unit (s := S8) ![7] S1.size inb_S8_S1_7)).squeeze S_ squeezes_S1_S_).sem) 0)
              ∗ (semVal ((c : Thread nD τ), SemLoc.dma ((arg10.slice (Rect.unit (s := S8) ![0] S1.size inb_S8_S1_0)).squeeze S_ squeezes_S1_S_).sem) 0)
              ∗ (semVal ((c : Thread nD τ), SemLoc.dma ((arg10.slice (Rect.unit (s := S8) ![1] S1.size inb_S8_S1_1)).squeeze S_ squeezes_S1_S_).sem) 0)
              ∗ (semVal ((c : Thread nD τ), SemLoc.dma ((arg10.slice (Rect.unit (s := S8) ![2] S1.size inb_S8_S1_2)).squeeze S_ squeezes_S1_S_).sem) 0)
              ∗ (semVal ((c : Thread nD τ), SemLoc.dma ((arg10.slice (Rect.unit (s := S8) ![3] S1.size inb_S8_S1_3)).squeeze S_ squeezes_S1_S_).sem) 0)
              ∗ (semVal ((c : Thread nD τ), SemLoc.dma ((arg10.slice (Rect.unit (s := S8) ![4] S1.size inb_S8_S1_4)).squeeze S_ squeezes_S1_S_).sem) 0)
              ∗ (semVal ((c : Thread nD τ), SemLoc.dma ((arg10.slice (Rect.unit (s := S8) ![5] S1.size inb_S8_S1_5)).squeeze S_ squeezes_S1_S_).sem) 0)
              ∗ (semVal ((c : Thread nD τ), SemLoc.dma ((arg10.slice (Rect.unit (s := S8) ![6] S1.size inb_S8_S1_6)).squeeze S_ squeezes_S1_S_).sem) 0)
              ∗ (semVal ((c : Thread nD τ), SemLoc.dma ((arg10.slice (Rect.unit (s := S8) ![7] S1.size inb_S8_S1_7)).squeeze S_ squeezes_S1_S_).sem) 0)
              ∗ (arg3.view.loc (c : Thread nD τ) ↦{fullShare} X3) ∗ (arg4.view.loc (c : Thread nD τ) ↦{fullShare} X4)
              ∗ (arg1.view.loc (c : Thread nD τ) ↦{fullShare.right} T1) ∗ (arg2.view.loc (c : Thread nD τ) ↦{fullShare.right} T2)
              ∗ (∃ W', owes (c : Thread nD τ) 0 W')) -∗ K ⟨⟩))
      ⊢ wp frame (wpE (defs₀ (F := F)) Variants.none (c : Thread nD τ) none) Set.univ
          (cc0__mf_kernel (F := F) i arg1 harg1 arg2 harg2 arg3 harg3 arg4 harg4 arg5 harg5 arg6 harg6 arg7 harg7 arg8 harg8 arg9 arg10) K := by
  simp only [cc0__mf_kernel_eq_skeleton]; unfold cc0__mf_kernel_skel
  unfold owns
  iintro ⟨⟨%f5, %hf5, H5⟩, ⟨%d6, %f6, -, H6⟩, ⟨%d7, %f7, -, H7⟩, ⟨%d8, %f8, -, H8⟩, HQ0, HQ1, HQ2, HQ3, HQ4, HQ5, HQ6, HQ7, HR0, HR1, HR2, HR3, HR4, HR5, HR6, HR7, H3, H4, H1, H2, HO, Hk⟩
  obtain rfl := harg5.eq_unread hf5
  -- the packed tables as read tokens for the loop
  ihave H3' := (toks_split (F := F) c arg3 X3) $$ H3
  icases H3' with ⟨H3d, H3t0, H3t1, H3t2, H3t3, H3t4, H3t5, H3t6, H3t7⟩
  ihave H4' := (toks_split (F := F) c arg4 X4) $$ H4
  icases H4' with ⟨H4d, H4t0, H4t1, H4t2, H4t3, H4t4, H4t5, H4t6, H4t7⟩
  sl_exec
  sl_for (loopI (F := F) c i arg1 arg2 arg3 arg4 arg7 arg8 arg9 arg10 T1 T2 X3 X4 hU hI f7 f8) $$ [H1 H2 H3d H3t0 H3t1 H3t2 H3t3 H3t4 H3t5 H3t6 H3t7 H4d H4t0 H4t1 H4t2 H4t3 H4t4 H4t5 H4t6 H4t7 HQ0 HQ1 HQ2 HQ3 HQ4 HQ5 HQ6 HQ7 HR0 HR1 HR2 HR3 HR4 HR5 HR6 HR7 H7 H8 HO]
  case region =>
    intro k acc
    unfold loopI
    rw [ACC7_succ, ACC8_succ]
    iintro ⟨HR, H7, H8, ⟨%W0, HO⟩⟩
    iapply (trip (F := F) c i arg1 harg1 arg2 harg2 arg3 harg3 arg4 harg4 arg5 harg5 arg6 harg6 arg7 harg7 arg8 harg8 arg9 arg10 _ T1 T2 X3 X4 hU hI k _ _ W0)
    isplitl [HR]; · iexact HR
    isplitl [H7]; · iexact H7
    isplitl [H8]; · iexact H8
    iexact HO
  · unfold loopI
    isplitl [H1 H2 H3d H3t0 H3t1 H3t2 H3t3 H3t4 H3t5 H3t6 H3t7 H4d H4t0 H4t1 H4t2 H4t3 H4t4 H4t5 H4t6 H4t7 HQ0 HQ1 HQ2 HQ3 HQ4 HQ5 HQ6 HQ7 HR0 HR1 HR2 HR3 HR4 HR5 HR6 HR7]
    ·
      isplitl [H1]; · iexact H1
      isplitl [H2]; · iexact H2
      isplitl [H3d]; · iexact H3d
      isplitl [H3t0]; · iexact H3t0
      isplitl [H3t1]; · iexact H3t1
      isplitl [H3t2]; · iexact H3t2
      isplitl [H3t3]; · iexact H3t3
      isplitl [H3t4]; · iexact H3t4
      isplitl [H3t5]; · iexact H3t5
      isplitl [H3t6]; · iexact H3t6
      isplitl [H3t7]; · iexact H3t7
      isplitl [H4d]; · iexact H4d
      isplitl [H4t0]; · iexact H4t0
      isplitl [H4t1]; · iexact H4t1
      isplitl [H4t2]; · iexact H4t2
      isplitl [H4t3]; · iexact H4t3
      isplitl [H4t4]; · iexact H4t4
      isplitl [H4t5]; · iexact H4t5
      isplitl [H4t6]; · iexact H4t6
      isplitl [H4t7]; · iexact H4t7
      isplitl [HQ0]; · iexact HQ0
      isplitl [HQ1]; · iexact HQ1
      isplitl [HQ2]; · iexact HQ2
      isplitl [HQ3]; · iexact HQ3
      isplitl [HQ4]; · iexact HQ4
      isplitl [HQ5]; · iexact HQ5
      isplitl [HQ6]; · iexact HQ6
      isplitl [HQ7]; · iexact HQ7
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      iexact HR7
    isplitl [H7]; · iexact H7
    isplitl [H8]; · iexact H8
    iexists _; iexact HO
  iintro %a HI
  unfold loopI
  icases HI with ⟨⟨H1, H2, H3d, H3t0, H3t1, H3t2, H3t3, H3t4, H3t5, H3t6, H3t7, H4d, H4t0, H4t1, H4t2, H4t3, H4t4, H4t5, H4t6, H4t7, HQ0, HQ1, HQ2, HQ3, HQ4, HQ5, HQ6, HQ7, HR0, HR1, HR2, HR3, HR4, HR5, HR6, HR7⟩, H7, H8, ⟨%W1, HO⟩⟩
  sl_exec
  sl_step
  iapply Hk
  isplitl [H5]
  · iexists _; isplitr; · ipureintro; exact harg5.read_unread _
    iexact H5
  isplitl [H6]
  · iexists _; isplitr; swap; · iexact H6
    ipureintro
    have hz : (![0] : Fin 1 → Nat) = fun _ => 0 := funext fun a => by fin_cases a; rfl
    rw [View.read_writes_eq_canon _ _ _ (View.cover_of_tiledL _ S512.size (by sl_kernel_rfl)), View.canon_unit_zero hz]
    rfl
  isplitl [H7]
  · iexists _, _; isplitr; swap; · iexact H7
    ipureintro; rfl
  isplitl [H8]
  · iexists _, _; isplitr; swap; · iexact H8
    ipureintro; rfl
  isplitl [HQ0]; · iexact HQ0
  isplitl [HQ1]; · iexact HQ1
  isplitl [HQ2]; · iexact HQ2
  isplitl [HQ3]; · iexact HQ3
  isplitl [HQ4]; · iexact HQ4
  isplitl [HQ5]; · iexact HQ5
  isplitl [HQ6]; · iexact HQ6
  isplitl [HQ7]; · iexact HQ7
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [H3d H3t0 H3t1 H3t2 H3t3 H3t4 H3t5 H3t6 H3t7]
  · iapply (toks_join (F := F) c arg3 X3)
    isplitl [H3d]; · iexact H3d
    isplitl [H3t0]; · iexact H3t0
    isplitl [H3t1]; · iexact H3t1
    isplitl [H3t2]; · iexact H3t2
    isplitl [H3t3]; · iexact H3t3
    isplitl [H3t4]; · iexact H3t4
    isplitl [H3t5]; · iexact H3t5
    isplitl [H3t6]; · iexact H3t6
    iexact H3t7
  isplitl [H4d H4t0 H4t1 H4t2 H4t3 H4t4 H4t5 H4t6 H4t7]
  · iapply (toks_join (F := F) c arg4 X4)
    isplitl [H4d]; · iexact H4d
    isplitl [H4t0]; · iexact H4t0
    isplitl [H4t1]; · iexact H4t1
    isplitl [H4t2]; · iexact H4t2
    isplitl [H4t3]; · iexact H4t3
    isplitl [H4t4]; · iexact H4t4
    isplitl [H4t5]; · iexact H4t5
    isplitl [H4t6]; · iexact H4t6
    iexact H4t7
  isplitl [H1]; · iexact H1
  isplitl [H2]; · iexact H2
  iexists _; iexact HO

end Body

end Cert.Kernel.Hand

end
-- ==== Proof.K.Rows.lean ====
/-
  What the two scratch buffers hold, row by row, after the gather loop.

  One landing replaces the 128 words of one row of a scratch buffer by the 128 words of one row of a packed table and
  keeps every other row. A trip is eight landings, into rows 8k … 8k + 7, so after it those rows hold the table rows
  named by the words at batch positions 512·i + 8k … 512·i + 8k + 7, and every other row is as before. After the 64
  trips every row r of the buffer holds the table row named by the word at batch position 512·i + r.
-/
import proofs.«411927_j1331439862348_2_alg».proof.Proof.K.Trip
import Idealize.ShloMosaic.Lib.ValueIdx

noncomputable section

namespace Cert.Kernel.Hand

open Cert.Kernel Cert.Kernel.Gen
open Idealize.ShloMosaic Idealize.ShloMosaic.TcCoe
open Idealize.ShloMosaic.ValueIdx

variable {F : FTy → Type} [FloatOps F]

/-- The view of one row of a buffer of n rows of 128 words (sliced out, the unit axis squeezed away) reads the buffer
    at the slice's image of the row's index behind the coordinate 0. -/
theorem read_rowview {sp : Space} {n : Nat} (M : Memref sig .tc sp ⟨3, ![n, 1, 128]⟩ .f32) (o : Fin 3 → Nat)
    (ho : ∀ a, o a + S1x1x128.size a ≤ (⟨3, ![n, 1, 128]⟩ : Shape).size a) (g : BufTy.Contents (Elt F) M.view.ty) (x : S1x128.Idx) :
    ((M.slice (Rect.unit (s := ⟨3, ![n, 1, 128]⟩) o S1x1x128.size ho) (fun _ => rfl)).squeeze S1x128 squeezes_S1x1x128_S1x128).view.read (Elt F) g x
      = M.view.read (Elt F) g ((Rect.unit (s := ⟨3, ![n, 1, 128]⟩) o S1x1x128.size ho).emb (Fin.cons ⟨0, Nat.one_pos⟩ x)) := by
  have h1 : ((M.slice (Rect.unit (s := ⟨3, ![n, 1, 128]⟩) o S1x1x128.size ho) (fun _ => rfl)).squeeze S1x128 squeezes_S1x1x128_S1x128).view.read (Elt F) g x
      = M.view.read (Elt F) g ((Rect.unit (s := ⟨3, ![n, 1, 128]⟩) o S1x1x128.size ho).emb
          (Shape.reshapeEquiv squeezes_S1x1x128_S1x128.numel_eq x)) := rfl
  rw [h1, Shape.reshapeEquiv_cons_one]

/-- The slice at row a places the row's word q at (a, 0, q). -/
theorem rowview_emb {n : Nat} (a : Nat) (ho : ∀ c, (![a, 0, 0] : Fin 3 → Nat) c + S1x1x128.size c ≤ (⟨3, ![n, 1, 128]⟩ : Shape).size c)
    (ha : a < n) (z : Fin 1) (q : Fin 128) :
    (Rect.unit (s := ⟨3, ![n, 1, 128]⟩) ![a, 0, 0] S1x1x128.size ho).emb (Fin.cons ⟨0, Nat.one_pos⟩ (ix2 z q))
      = ix3 (⟨a, ha⟩ : Fin n) (0 : Fin 1) q := by
  funext c
  apply Fin.ext
  rw [Rect.emb_apply]
  match c with
  | ⟨0, _⟩ => show a + 1 * 0 = a; omega
  | ⟨1, _⟩ => show 0 + 1 * z.val = 0; omega
  | ⟨2, _⟩ => show 0 + 1 * q.val = q.val; omega

/-- A scratch buffer after one landing, read at row r: at the destination row the source row's words, at any
    other row what was there before. -/
theorem read_land (D : Memref sig .tc .vmem S512x1x128 .f32) (od : Fin 3 → Nat) (hd : ∀ a, od a + S1x1x128.size a ≤ S512x1x128.size a)
    (S : Memref sig .tc .hbm S1000000x1x128 .f32) (os : Fin 3 → Nat) (hs : ∀ a, os a + S1x1x128.size a ≤ S1000000x1x128.size a)
    (X : BufTy.Contents (Elt F) S.view.ty) (f : BufTy.Contents (Elt F) D.view.ty) (a b : Nat)
    (hod : od = ![a, 0, 0]) (hos : os = ![b, 0, 0]) (hb : b < 1000000) (r : Fin 512) (q : Fin 128) :
    D.view.read (Elt F) (land D od hd S os hs X f) (ix3 r (0 : Fin 1) q)
      = if r.val = a then S.view.read (Elt F) X (ix3 (⟨b, hb⟩ : Fin 1000000) (0 : Fin 1) q)
        else D.view.read (Elt F) f (ix3 r (0 : Fin 1) q) := by
  subst hod hos
  unfold land
  by_cases h : r.val = a
  · rw [if_pos h]
    have ha : a < 512 := h ▸ r.isLt
    have er : r = (⟨a, ha⟩ : Fin 512) := Fin.ext h
    rw [er, ← rowview_emb a hd ha (0 : Fin 1) q, ← read_rowview D ![a, 0, 0] hd]
    rw [View.read_write_of_mem _ _ (Finset.mem_univ _)]
    show (srcRow S ![b, 0, 0] hs).view.read (Elt F) X (ix2 (0 : Fin 1) q) = _
    rw [read_rowview S ![b, 0, 0] hs, rowview_emb b hs hb]
  · rw [if_neg h]
    apply View.read_congr_at
    apply View.write_of_not_mem
    intro hm
    obtain ⟨x, _, hx⟩ := Finset.mem_map.mp hm
    have e : (dstRow D ![a, 0, 0] hd).view.emb x
        = D.view.emb ((Rect.unit (s := S512x1x128) ![a, 0, 0] S1x1x128.size hd).emb
            (Shape.reshapeEquiv squeezes_S1x1x128_S1x128.numel_eq x)) := rfl
    rw [e, Shape.reshapeEquiv_cons_one] at hx
    have h' := D.view.emb.injective hx
    have h0 := congrArg (fun i : S512x1x128.Idx => (i 0 : ℕ)) h'
    simp only [Rect.emb_apply] at h0
    have h4 : a + 1 * 0 = r.val := h0
    exact h (by omega)

/-- Table words at equal batch positions are the same word. -/
theorem word_congr (M : Memref sig .tc .smem S16384 .i32) (T : BufTy.Contents (Elt F) M.view.ty) (o o' : Fin 1 → Nat)
    (h : ∀ a, o a + S1.size a ≤ S16384.size a) (h' : ∀ a, o' a + S1.size a ≤ S16384.size a) (e : o = o') :
    word M T o h = word M T o' h' := by
  subst e; rfl

/-- One landing of the gather loop: into row m of the scratch buffer goes the table row named by the word at batch
    position 512·i + m, which is row m of the gathered rows; every other row is kept. -/
theorem read_land_word (D : Memref sig .tc .vmem S512x1x128 .f32) (od : Fin 3 → Nat) (hd : ∀ a, od a + S1x1x128.size a ≤ S512x1x128.size a)
    (S : Memref sig .tc .hbm S1000000x1x128 .f32) (os : Fin 3 → Nat) (hs : ∀ a, os a + S1x1x128.size a ≤ S1000000x1x128.size a)
    (X : BufTy.Contents (Elt F) S.view.ty) (f : BufTy.Contents (Elt F) D.view.ty)
    (M : Memref sig .tc .smem S16384 .i32) (T : BufTy.Contents (Elt F) M.view.ty)
    (hT : ∀ (R : LoadRect S16384) (j : R.shape.Idx), BitVec.toNat (M.view.readAt (Elt F) R T j) < 1000000)
    (i : grid0.Coords) (o : Fin 1 → Nat) (ho : ∀ a, o a + S1.size a ≤ S16384.size a) (m : Nat)
    (hod : od = ![m, 0, 0]) (hos : os = ![BitVec.toNat (word M T o ho), 0, 0]) (ho' : o = ![512 * (i 0).val + m])
    (r : Fin 512) (q : Fin 128) :
    D.view.read (Elt F) (land D od hd S os hs X f) (ix3 r (0 : Fin 1) q)
      = if r.val = m then gathered S X M T hT i (ix3 r (0 : Fin 1) q) else D.view.read (Elt F) f (ix3 r (0 : Fin 1) q) := by
  rw [read_land D od hd S os hs X f m (BitVec.toNat (word M T o ho)) hod hos (hT _ _) r q]
  by_cases h : r.val = m
  · rw [if_pos h, if_pos h]
    subst ho'
    subst h
    rfl
  · rw [if_neg h, if_neg h]

section Trip
variable (i : grid0.Coords) (arg1 : Memref sig .tc .smem S16384 .i32) (arg2 : Memref sig .tc .smem S16384 .i32)
  (arg3 : Memref sig .tc .hbm S1000000x1x128 .f32) (arg4 : Memref sig .tc .hbm S1000000x1x128 .f32)
  (arg7 : Memref sig .tc .vmem S512x1x128 .f32) (arg8 : Memref sig .tc .vmem S512x1x128 .f32)
  (T1 : BufTy.Contents (Elt F) arg1.view.ty) (T2 : BufTy.Contents (Elt F) arg2.view.ty)
  (X3 : BufTy.Contents (Elt F) arg3.view.ty) (X4 : BufTy.Contents (Elt F) arg4.view.ty)
  (hU : ∀ (R : LoadRect S16384) (j : R.shape.Idx), BitVec.toNat (arg1.view.readAt (Elt F) R T1 j) < 1000000)
  (hI : ∀ (R : LoadRect S16384) (j : R.shape.Idx), BitVec.toNat (arg2.view.readAt (Elt F) R T2 j) < 1000000)

/-- The first scratch buffer after trip k: rows 8k … 8k + 7 hold the gathered rows, every other row is kept. -/
theorem read_G7 (k : Fin k0_t1_loop.trips) (f : BufTy.Contents (Elt F) arg7.view.ty) (r : Fin 512) (q : Fin 128) :
    arg7.view.read (Elt F) (G7 (F := F) i arg1 arg3 arg7 T1 X3 hU k f) (ix3 r (0 : Fin 1) q)
      = if 8 * k.val ≤ r.val ∧ r.val < 8 * k.val + 8 then gathered arg3 X3 arg1 T1 hU i (ix3 r (0 : Fin 1) q)
        else arg7.view.read (Elt F) f (ix3 r (0 : Fin 1) q) := by
  have e1 : k0_off1 i k = ![512 * (i 0).val + 8 * k.val] := k0_off1_eq i k
  have e6 : k0_off6 i k = ![512 * (i 0).val + (8 * k.val + 1)] := by rw [k0_off6_eq, Nat.add_assoc]
  have e11 : k0_off11 i k = ![512 * (i 0).val + (8 * k.val + 2)] := by rw [k0_off11_eq, Nat.add_assoc]
  have e16 : k0_off16 i k = ![512 * (i 0).val + (8 * k.val + 3)] := by rw [k0_off16_eq, Nat.add_assoc]
  have e21 : k0_off21 i k = ![512 * (i 0).val + (8 * k.val + 4)] := by rw [k0_off21_eq, Nat.add_assoc]
  have e26 : k0_off26 i k = ![512 * (i 0).val + (8 * k.val + 5)] := by rw [k0_off26_eq, Nat.add_assoc]
  have e31 : k0_off31 i k = ![512 * (i 0).val + (8 * k.val + 6)] := by rw [k0_off31_eq, Nat.add_assoc]
  have e36 : k0_off36 i k = ![512 * (i 0).val + (8 * k.val + 7)] := by rw [k0_off36_eq, Nat.add_assoc]
  unfold G7
  rw [read_land_word arg7 _ _ arg3 (k0_off38 _) _ X3 _ arg1 T1 hU i _ _ _ (k0_off37_eq k) rfl e36,
    read_land_word arg7 _ _ arg3 (k0_off33 _) _ X3 _ arg1 T1 hU i _ _ _ (k0_off32_eq k) rfl e31,
    read_land_word arg7 _ _ arg3 (k0_off28 _) _ X3 _ arg1 T1 hU i _ _ _ (k0_off27_eq k) rfl e26,
    read_land_word arg7 _ _ arg3 (k0_off23 _) _ X3 _ arg1 T1 hU i _ _ _ (k0_off22_eq k) rfl e21,
    read_land_word arg7 _ _ arg3 (k0_off18 _) _ X3 _ arg1 T1 hU i _ _ _ (k0_off17_eq k) rfl e16,
    read_land_word arg7 _ _ arg3 (k0_off13 _) _ X3 _ arg1 T1 hU i _ _ _ (k0_off12_eq k) rfl e11,
    read_land_word arg7 _ _ arg3 (k0_off8 _) _ X3 _ arg1 T1 hU i _ _ _ (k0_off7_eq k) rfl e6,
    read_land_word arg7 _ _ arg3 (k0_off3 _) _ X3 _ arg1 T1 hU i _ _ _ (k0_off2_eq k) rfl e1]
  split_ifs <;> first | rfl | (exfalso; omega)

/-- The second scratch buffer after trip k: rows 8k … 8k + 7 hold the gathered rows, every other row is kept. -/
theorem read_G8 (k : Fin k0_t1_loop.trips) (f : BufTy.Contents (Elt F) arg8.view.ty) (r : Fin 512) (q : Fin 128) :
    arg8.view.read (Elt F) (G8 (F := F) i arg2 arg4 arg8 T2 X4 hI k f) (ix3 r (0 : Fin 1) q)
      = if 8 * k.val ≤ r.val ∧ r.val < 8 * k.val + 8 then gathered arg4 X4 arg2 T2 hI i (ix3 r (0 : Fin 1) q)
        else arg8.view.read (Elt F) f (ix3 r (0 : Fin 1) q) := by
  have e1 : k0_off1 i k = ![512 * (i 0).val + 8 * k.val] := k0_off1_eq i k
  have e6 : k0_off6 i k = ![512 * (i 0).val + (8 * k.val + 1)] := by rw [k0_off6_eq, Nat.add_assoc]
  have e11 : k0_off11 i k = ![512 * (i 0).val + (8 * k.val + 2)] := by rw [k0_off11_eq, Nat.add_assoc]
  have e16 : k0_off16 i k = ![512 * (i 0).val + (8 * k.val + 3)] := by rw [k0_off16_eq, Nat.add_assoc]
  have e21 : k0_off21 i k = ![512 * (i 0).val + (8 * k.val + 4)] := by rw [k0_off21_eq, Nat.add_assoc]
  have e26 : k0_off26 i k = ![512 * (i 0).val + (8 * k.val + 5)] := by rw [k0_off26_eq, Nat.add_assoc]
  have e31 : k0_off31 i k = ![512 * (i 0).val + (8 * k.val + 6)] := by rw [k0_off31_eq, Nat.add_assoc]
  have e36 : k0_off36 i k = ![512 * (i 0).val + (8 * k.val + 7)] := by rw [k0_off36_eq, Nat.add_assoc]
  unfold G8
  rw [read_land_word arg8 _ _ arg4 (k0_off40 _) _ X4 _ arg2 T2 hI i _ _ _ (k0_off39_eq k) rfl e36,
    read_land_word arg8 _ _ arg4 (k0_off35 _) _ X4 _ arg2 T2 hI i _ _ _ (k0_off34_eq k) rfl e31,
    read_land_word arg8 _ _ arg4 (k0_off30 _) _ X4 _ arg2 T2 hI i _ _ _ (k0_off29_eq k) rfl e26,
    read_land_word arg8 _ _ arg4 (k0_off25 _) _ X4 _ arg2 T2 hI i _ _ _ (k0_off24_eq k) rfl e21,
    read_land_word arg8 _ _ arg4 (k0_off20 _) _ X4 _ arg2 T2 hI i _ _ _ (k0_off19_eq k) rfl e16,
    read_land_word arg8 _ _ arg4 (k0_off15 _) _ X4 _ arg2 T2 hI i _ _ _ (k0_off14_eq k) rfl e11,
    read_land_word arg8 _ _ arg4 (k0_off10 _) _ X4 _ arg2 T2 hI i _ _ _ (k0_off9_eq k) rfl e6,
    read_land_word arg8 _ _ arg4 (k0_off5 _) _ X4 _ arg2 T2 hI i _ _ _ (k0_off4_eq k) rfl e1]
  split_ifs <;> first | rfl | (exfalso; omega)

/-- The load rectangle that is the whole scratch buffer at offset zero places every index at itself. -/
theorem idx_whole512 (y : S512x1x128.Idx) :
    (Rect.unit (s := S512x1x128) ![0, 0, 0] S512x1x128.size inb_S512x1x128_S512x1x128_0_0_0).toLoadRect.idx y = y := by
  funext a
  apply Fin.ext
  rw [LoadRect.idx_apply]
  match a with
  | ⟨0, _⟩ => show 0 + 1 * _ = _; rw [Nat.zero_add, Nat.one_mul]
  | ⟨1, _⟩ => show 0 + 1 * _ = _; rw [Nat.zero_add, Nat.one_mul]
  | ⟨2, _⟩ => show 0 + 1 * _ = _; rw [Nat.zero_add, Nat.one_mul]

/-- After n trips the first 8·n rows of the first scratch buffer hold the gathered rows. -/
theorem ACC7_rows (f₀ : BufTy.Contents (Elt F) arg7.view.ty) (n : Nat) (hn : n ≤ 64) (r : Fin 512) (q : Fin 128)
    (hr : r.val < 8 * n) :
    arg7.view.read (Elt F) (ACC7 (F := F) i arg1 arg3 arg7 T1 X3 hU f₀ n) (ix3 r (0 : Fin 1) q)
      = gathered arg3 X3 arg1 T1 hU i (ix3 r (0 : Fin 1) q) := by
  induction n with
  | zero => exact absurd hr (by omega)
  | succ n ih =>
    have hk : n < k0_t1_loop.trips := by rw [trips_eq]; omega
    have e := ACC7_succ (F := F) i arg1 arg3 arg7 T1 X3 hU f₀ ⟨n, hk⟩
    have e' : ACC7 (F := F) i arg1 arg3 arg7 T1 X3 hU f₀ (n + 1)
        = G7 (F := F) i arg1 arg3 arg7 T1 X3 hU ⟨n, hk⟩ (ACC7 (F := F) i arg1 arg3 arg7 T1 X3 hU f₀ n) := e
    rw [e', read_G7]
    by_cases h : 8 * n ≤ r.val ∧ r.val < 8 * n + 8
    · exact if_pos h
    · rw [if_neg h]
      exact ih (by omega) (by omega)

/-- After n trips the first 8·n rows of the second scratch buffer hold the gathered rows. -/
theorem ACC8_rows (f₀ : BufTy.Contents (Elt F) arg8.view.ty) (n : Nat) (hn : n ≤ 64) (r : Fin 512) (q : Fin 128)
    (hr : r.val < 8 * n) :
    arg8.view.read (Elt F) (ACC8 (F := F) i arg2 arg4 arg8 T2 X4 hI f₀ n) (ix3 r (0 : Fin 1) q)
      = gathered arg4 X4 arg2 T2 hI i (ix3 r (0 : Fin 1) q) := by
  induction n with
  | zero => exact absurd hr (by omega)
  | succ n ih =>
    have hk : n < k0_t1_loop.trips := by rw [trips_eq]; omega
    have e := ACC8_succ (F := F) i arg2 arg4 arg8 T2 X4 hI f₀ ⟨n, hk⟩
    have e' : ACC8 (F := F) i arg2 arg4 arg8 T2 X4 hI f₀ (n + 1)
        = G8 (F := F) i arg2 arg4 arg8 T2 X4 hI ⟨n, hk⟩ (ACC8 (F := F) i arg2 arg4 arg8 T2 X4 hI f₀ n) := e
    rw [e', read_G8]
    by_cases h : 8 * n ≤ r.val ∧ r.val < 8 * n + 8
    · exact if_pos h
    · rw [if_neg h]
      exact ih (by omega) (by omega)

/-- After the 64 trips, a load of the whole first scratch buffer reads the gathered rows, whatever the buffer
    held at the loop's entry. -/
theorem readAt_ACC7 (f₀ : BufTy.Contents (Elt F) arg7.view.ty) :
    arg7.view.readAt (Elt F) (Rect.unit (s := S512x1x128) ![0, 0, 0] S512x1x128.size inb_S512x1x128_S512x1x128_0_0_0).toLoadRect
        (ACC7 (F := F) i arg1 arg3 arg7 T1 X3 hU f₀ 64)
      = gathered arg3 X3 arg1 T1 hU i := by
  funext y
  rw [View.readAt_apply, idx_whole512 y]
  obtain ⟨a, b, c, rfl⟩ : ∃ a b c, (y : S512x1x128.Idx) = ix3 a b c := ⟨_, _, _, eq_ix3 y⟩
  have hb : b = 0 := Subsingleton.elim _ _
  subst hb
  exact ACC7_rows (F := F) i arg1 arg3 arg7 T1 X3 hU f₀ 64 (Nat.le_refl _) a c (by have := a.isLt; omega)

/-- After the 64 trips, a load of the whole second scratch buffer reads the gathered rows. -/
theorem readAt_ACC8 (f₀ : BufTy.Contents (Elt F) arg8.view.ty) :
    arg8.view.readAt (Elt F) (Rect.unit (s := S512x1x128) ![0, 0, 0] S512x1x128.size inb_S512x1x128_S512x1x128_0_0_0).toLoadRect
        (ACC8 (F := F) i arg2 arg4 arg8 T2 X4 hI f₀ 64)
      = gathered arg4 X4 arg2 T2 hI i := by
  funext y
  rw [View.readAt_apply, idx_whole512 y]
  obtain ⟨a, b, c, rfl⟩ : ∃ a b c, (y : S512x1x128.Idx) = ix3 a b c := ⟨_, _, _, eq_ix3 y⟩
  have hb : b = 0 := Subsingleton.elim _ _
  subst hb
  exact ACC8_rows (F := F) i arg2 arg4 arg8 T2 X4 hI f₀ 64 (Nat.le_refl _) a c (by have := a.isLt; omega)

end Trip

end Cert.Kernel.Hand

end
-- ==== Proof.K.Main.lean ====
/-
  The program up to its one region. Before the region @main packs each embedding table with its bias column into
  a table of 128-lane rows (pad, then the bias written into column 64, then a reshape to [1000000, 1, 128]); these
  five stretches of host operations run from the launch memory `m`, and the region is entered at the contents `V m`
  they leave. The two index vectors are the region's prefetched tables; no host operation writes an argument.
-/
import proofs.«411927_j1331439862348_2_alg».proof.Proof.Gen.Kernel.Launch
import Idealize.ShloMosaic.Lib.Pipeline.Frame

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the region is entered. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five stretches, then the region: holding the unscoped buffers at the launch contents it reaches the
    region holding them at `V m`. -/
theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-- No host operation writes buffer `b` when `b` is none of the buffers the prefix writes: the region finds it as
    launched. -/
theorem V_of_not_written (c : Dev nD) (b : Ref sig .tc)
    (hb : b ≠ main_c ∧ b ≠ main_call0_v0 ∧ b ≠ main_v0 ∧ b ≠ main_v1 ∧ b ≠ main_c_0 ∧ b ≠ main_v2 ∧ b ≠ main_v3 ∧ b ≠ main_v4
      ∧ b ≠ main_c_1 ∧ b ≠ main_call1_v0 ∧ b ≠ main_v5 ∧ b ≠ main_v6 ∧ b ≠ main_c_2 ∧ b ≠ main_v7 ∧ b ≠ main_v8 ∧ b ≠ main_v9) :
    V m c b = m ((c : Thread nD τ).loc b) := by
  obtain ⟨h1, h2, h3, h4, h5, h6, h7, h8, h9, h10, h11, h12, h13, h14, h15, h16⟩ := hb
  refine StableHlo.after_of_forall_not_mem (b := Proc.devRef .tc b) _ _ (List.forall_iff_forall_mem.mp ?_)
  simp only [hostOps0, hostOps0_1, hostOps0_2, hostOps0_3, hostOps0_4, List.flatten_cons, List.flatten_nil, List.append_nil,
    List.cons_append, List.nil_append, List.Forall, StableHlo.nullary_writes, StableHlo.unary_writes, StableHlo.binary_writes,
    StableHlo.ternary_writes, StableHlo.reshape_writes, StableHlo.TRef.unary, StableHlo.TRef.binary, StableHlo.TRef.of, Finset.mem_singleton]
  repeat' apply And.intro
  all_goals first
    | exact StableHlo.devRef_ne_of_ne h1 | exact StableHlo.devRef_ne_of_ne h2 | exact StableHlo.devRef_ne_of_ne h3
    | exact StableHlo.devRef_ne_of_ne h4 | exact StableHlo.devRef_ne_of_ne h5 | exact StableHlo.devRef_ne_of_ne h6
    | exact StableHlo.devRef_ne_of_ne h7 | exact StableHlo.devRef_ne_of_ne h8 | exact StableHlo.devRef_ne_of_ne h9
    | exact StableHlo.devRef_ne_of_ne h10 | exact StableHlo.devRef_ne_of_ne h11 | exact StableHlo.devRef_ne_of_ne h12
    | exact StableHlo.devRef_ne_of_ne h13 | exact StableHlo.devRef_ne_of_ne h14 | exact StableHlo.devRef_ne_of_ne h15
    | exact StableHlo.devRef_ne_of_ne h16

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)

/-- The prefetched tables' contents at the region's entry: the two index vectors, on the one device. -/
def tbl : pre0.Contents (Elt F) := fun j => V m (0 : Dev nD) (pre0.ref j)

/-- The pipeline is admissible at any contents of the tables: no window's index map reads them. -/
abbrev adm : (pcfg0 (F := F)).Adm := ⟨tbl m, trivial⟩
abbrev cfgM : Pipeline.Cfg sig Λ₀ := cfg0 (adm m)

end Cert.Kernel.Hand

end
-- ==== Proof.K.Frame.lean ====
/-
  The frame of the program: every weakly fair execution of @main terminates, nothing faults, and the argument arrays
  end as they were.

  The one region runs 32 grid points. At each point the pipeline hands the body the bias block (window 0) and one of the
  output window's two staging buffers (window 1); the region's invariant is the kernel's own: its two scratch buffers at
  some contents, its sixteen DMA semaphore cells at zero, the two packed tables (which bypass the pipeline) whole at
  their region-entry contents, and half of each prefetched index table. The body gives all of it back as it found it,
  so the invariant is the same at every point. Every word of the two index tables names a row inside the packed
  tables (`InRange`): that is what each of the body's sixteen copies per trip needs of the word it has read.
-/
import proofs.«411927_j1331439862348_2_alg».proof.Proof.K.Body
import proofs.«411927_j1331439862348_2_alg».proof.Proof.K.Rows
import proofs.«411927_j1331439862348_2_alg».proof.Proof.K.Main
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- On every device the tables hold the region-entry contents (there is one device). -/
theorem V_pre (c : Dev nD) (j : Fin 2) : V m c (pre0.ref j) = tbl m j := by
  obtain rfl : c = 0 := Subsingleton.elim _ _; rfl

/-! ## The operands the pipeline does not stage -/

/-- The two index tables, the two packed tables and the two scratch buffers, each its whole buffer as a memref. -/
abbrev tbM0 : Memref sig .tc .smem S16384 .i32 := Memref.whole main_arg0
abbrev tbM1 : Memref sig .tc .smem S16384 .i32 := Memref.whole main_arg1
abbrev hbM0 : Memref sig .tc .hbm S1000000x1x128 .f32 := Memref.whole main_v4
abbrev hbM1 : Memref sig .tc .hbm S1000000x1x128 .f32 := Memref.whole main_v9
abbrev scM0 : Memref sig .tc .vmem S512x1x128 .f32 := Memref.whole cc0_scratch0
abbrev scM1 : Memref sig .tc .vmem S512x1x128 .f32 := Memref.whole cc0_scratch1

/-- Every word of the two index tables names a row inside the packed tables. -/
def InRange : Prop :=
  (∀ (R : LoadRect S16384) (j : R.shape.Idx), BitVec.toNat (tbM0.view.readAt (Elt F) R (tbl m 0) j) < 1000000)
  ∧ (∀ (R : LoadRect S16384) (j : R.shape.Idx), BitVec.toNat (tbM1.view.readAt (Elt F) R (tbl m 1) j) < 1000000)

/-- The kernel's own DMA semaphore cells: the two arrays of eight. -/
abbrev osem0 : Fin 16 → SemLoc sig := fun j =>
  (![SemLoc.dma 3, SemLoc.dma 4, SemLoc.dma 5, SemLoc.dma 6, SemLoc.dma 7, SemLoc.dma 8, SemLoc.dma 9, SemLoc.dma 10,
     SemLoc.dma 11, SemLoc.dma 12, SemLoc.dma 13, SemLoc.dma 14, SemLoc.dma 15, SemLoc.dma 16, SemLoc.dma 17, SemLoc.dma 18] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13, 14, 15] (by decide) (by decide)]; rfl

/-- The packed tables: unscoped, no window's array, no prefetched table. -/
def H0 : Finset (Ref sig .tc) := {main_v4, main_v9}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((hbM0.view.loc (c : Thread nD τ) ↦{fullShare} V m c main_v4) ∗ (hbM1.view.loc (c : Thread nD τ) ↦{fullShare} V m c main_v9)) := by
  rw [BI.bigSep_eq_bigSepL_of_eq [main_v4, main_v9] (by decide) (by decide)]; rfl

/-- The region's invariant conjunct by conjunct. -/
theorem PhiD0_eq (c : Dev nD) :
    (Pipeline.ΦD osem0 spec0 H0 (V m) c : sProp 𝕄)
      = iprop(iprop((∃ d, owns (c : Thread nD τ) scM0 fullShare d) ∗ (∃ d, owns (c : Thread nD τ) scM1 fullShare d)) ∗ (∃ r, prngReg c r)
          ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop((hbM0.view.loc (c : Thread nD τ) ↦{fullShare} V m c main_v4) ∗ (hbM1.view.loc (c : Thread nD τ) ↦{fullShare} V m c main_v9))) := by
  rw [Pipeline.ΦD_eq, scopedRest0_eq, ownSems00_eq, hbmPts0_eq]; simp only [scM0, scM1, owns_whole]; try rfl

/-- The tables' halves the region hands the body, table by table. -/
theorem PhiT0_eq (c : Dev nD) :
    (Pipeline.ΦT pre0 (tbl m) c : sProp 𝕄)
      = iprop((tbM0.view.loc (c : Thread nD τ) ↦{fullShare.right} tbl m 0) ∗ (tbM1.view.loc (c : Thread nD τ) ↦{fullShare.right} tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The bias window's staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms0_0 (t : Fin (cfgM m).N) : Memref sig .tc .vmem S1 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S512 .f32 := spec0_1.stage ((cfgM m).slots t 1)
abbrev hs0_1 (t : Fin (cfgM m).N) : (ms0_1 m t).IsWhole := hstage0_1 (((cfgM m).slots t 1).cast nbuf0_1)

/-- The kernel body at point `t`, on what the pipeline calls it with. -/
abbrev bodyAt0 (t : Fin (cfgM m).N) : Prog (TpuEff nD τ sig (Elt F) Λ₀ .tc) PUnit :=
  cc0__mf_kernel (grid0.coords t) (Memref.whole main_arg0) (Memref.isWhole_whole _) (Memref.whole main_arg1) (Memref.isWhole_whole _)
    (Memref.whole main_v4) (Memref.isWhole_whole _) (Memref.whole main_v9) (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (Memref.whole cc0_scratch0) (Memref.isWhole_whole _) (Memref.whole cc0_scratch1) (Memref.isWhole_whole _) cc0_scratch2 cc0_scratch3

/-! ## What the output block holds after each point, and the proof data -/

/-- What the body leaves in the output window's staging buffer at point `t`. -/
def outsAt (hR : InRange m) (c : Dev nD) (t : Fin (cfgM m).N) : Vec F S512 .f32 :=
  outVal (F := F) (grid0.coords t) tbM0 tbM1 hbM0 hbM1 (ms0_0 m t) (hs0_0 m t) (tbl m 0) (tbl m 1) (V m c main_v4) (V m c main_v9) hR.1 hR.2 (iblk m c 0 t)

/-- The proof data of the one pipeline on core `c`. -/
def dats (hR : InRange m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outsAt m hR c t
  Φ _ := iprop(Pipeline.ΦD osem0 spec0 H0 (V m) c ∗ Pipeline.ΦT pre0 (tbl m) c)
  q _ := fullShare
  owed _ := 0

theorem A_eq (hR : InRange m) (c : Dev nD) (w : Fin (cfgM m).W) : (dats m hR 0 c).A w = V m c (Pipeline.arrRef spec0 w) := by
  dsimp only [dats]

theorem after0_0 (hR : InRange m) (c : Dev nD) (t : Fin (cfgM m).N) : (dats m hR 0 c).after 0 t = iblk m c 0 t := by dsimp only [dats]; try rfl
theorem after0_1 (hR : InRange m) (c : Dev nD) (t : Fin (cfgM m).N) : (dats m hR 0 c).after 1 t = outsAt m hR c t := by dsimp only [dats]; try rfl

theorem before0_0 (hR : InRange m) (c : Dev nD) (t : Fin (cfgM m).N) (d) : (dats m hR 0 c).before 0 t d = iblk m c 0 t :=
  before0_0_of m (dats m hR 0 c) (A_eq m hR c 0) (after0_0 m hR c) t d

/-! ## The body obligation -/

def bodyPre (hR : InRange m) (c : Dev nD) (t : Fin (cfgM m).N) : sProp 𝕄 :=
  iprop((dats m hR 0 c).Φ t.castSucc ∗ (dats m hR 0 c).owesAt () t.castSucc
    ∗ (∃ d, owns (c : Thread nD τ) (ms0_0 m t) fullShare ((dats m hR 0 c).before 0 t d))
    ∗ (∃ d, owns (c : Thread nD τ) (ms0_1 m t) fullShare ((dats m hR 0 c).before 1 t d)))

def bodyPost (hR : InRange m) (c : Dev nD) (t : Fin (cfgM m).N) : sProp 𝕄 :=
  iprop((dats m hR 0 c).Φ t.succ ∗ (dats m hR 0 c).owesAt () t.succ
    ∗ owns (c : Thread nD τ) (ms0_0 m t) fullShare ((dats m hR 0 c).after 0 t)
    ∗ owns (c : Thread nD τ) (ms0_1 m t) fullShare ((dats m hR 0 c).after 1 t))

/-- The body at any point: the invariant hands the run its scratch buffers, its cells at zero, the packed tables and the
    index tables' halves, and takes them back as they were; the core's recorded waits go in at whatever the points
    before left and come back with this point's. -/
theorem sound_body (hR : InRange m) (c : Dev nD) (t : Fin (cfgM m).N) :
    bodyPre m hR c t ⊢ wp frame (wpE (defs₀ (F := F)) Variants.none c none) Set.univ (bodyAt0 m t) (fun _ => bodyPost m hR c t) := by
  unfold bodyPre bodyPost bodyAt0
  simp only [before0_0]
  rw [show (dats m hR 0 c).Φ t.succ = (dats m hR 0 c).Φ t.castSucc from rfl, after0_0, after0_1]
  rw [show (dats m hR 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hR 0 c).owed t.castSucc = 0 from rfl, show (dats m hR 0 c).owed t.succ = 0 from rfl]
  unfold outsAt
  iintro ⟨⟨⟨⟨HS0, HS1⟩, Hg, ⟨Hq0, Hq1, Hq2, Hq3, Hq4, Hq5, Hq6, Hq7, Hq8, Hq9, Hq10, Hq11, Hq12, Hq13, Hq14, Hq15⟩, ⟨Hh0, Hh1⟩⟩, ⟨HT0, HT1⟩⟩, ⟨%W, -, HW⟩, ⟨%d0, H0⟩, ⟨%d1, H1⟩⟩
  iapply (sound_kernel (F := F) c (grid0.coords t) tbM0 (Memref.isWhole_whole _) tbM1 (Memref.isWhole_whole _) hbM0 (Memref.isWhole_whole _) hbM1 (Memref.isWhole_whole _)
    (ms0_0 m t) (hs0_0 m t) (ms0_1 m t) (hs0_1 m t) scM0 (Memref.isWhole_whole _) scM1 (Memref.isWhole_whole _) cc0_scratch2 cc0_scratch3
    (tbl m 0) (tbl m 1) (V m c main_v4) (V m c main_v9) hR.1 hR.2
    (fun f₀ => readAt_ACC7 (F := F) _ _ _ _ _ _ _ f₀) (fun f₀ => readAt_ACC8 (F := F) _ _ _ _ _ _ _ f₀) (iblk m c 0 t) W _)
  isplitl [H0]; · iexact H0
  isplitl [H1]; · iexists _; iexact H1
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  isplitl [HT0]; · iexact HT0
  isplitl [HT1]; · iexact HT1
  isplitl [HW]; · iexact HW
  iintro ⟨H0, H1, HS0, HS1, Hq0, Hq1, Hq2, Hq3, Hq4, Hq5, Hq6, Hq7, Hq8, Hq9, Hq10, Hq11, Hq12, Hq13, Hq14, Hq15, Hh0, Hh1, HT0, HT1, ⟨%W', HW'⟩⟩
  isplitl [HS0 HS1 Hg Hq0 Hq1 Hq2 Hq3 Hq4 Hq5 Hq6 Hq7 Hq8 Hq9 Hq10 Hq11 Hq12 Hq13 Hq14 Hq15 Hh0 Hh1 HT0 HT1]
  · isplitl [HS0 HS1 Hg Hq0 Hq1 Hq2 Hq3 Hq4 Hq5 Hq6 Hq7 Hq8 Hq9 Hq10 Hq11 Hq12 Hq13 Hq14 Hq15 Hh0 Hh1]
    · isplitl [HS0 HS1]
      · isplitl [HS0]; · iexact HS0
        iexact HS1
      isplitl [Hg]; · iexact Hg
      isplitl [Hq0 Hq1 Hq2 Hq3 Hq4 Hq5 Hq6 Hq7 Hq8 Hq9 Hq10 Hq11 Hq12 Hq13 Hq14 Hq15]
      ·
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        iexact Hq15
      isplitl [Hh0]; · iexact Hh0
      iexact Hh1
    isplitl [HT0]; · iexact HT0
    iexact HT1
  isplitl [HW']
  · iexists W'; isplitr; · ipureintro; exact fun _ _ => Or.inl trivial
    iexact HW'
  isplitl [H0]; · iexact H0
  iexact H1

/-- The library's body obligation, at every point. -/
theorem body_obligation (hR : InRange m) (c : Dev nD) : BodyObligation (dats (F := F) m hR 0 c) (defs₀ (F := F)) Variants.none () Set.univ := fun t => by
  rw [bigSep_W0, bigSep_W0]
  exact sound_body m hR c t

/-! ## The run and the frame -/

set_option backward.isDefEq.respectTransparency.types false in
/-- From any memory with zero counters: every weakly fair execution of @main terminates, and every final state has each
    window's array at what the proof data computes and every other unscoped buffer as the region found it. -/
theorem run_main (hR : InRange m) :
    θ_run defs (onTc (τ := τ) (main (F := F))) (s₀ m ρ) (Pipeline.FramePost (Pipeline.pin pcfgs fun _ => adm m) (dats m hR) 0 (V m)) :=
  Pipeline.θ_run_frameP_dma pcfgs (fun _ => adm m) (dats m hR) (0 : Fin 1) launch0 osem0 defs₀ Variants.none ownSemFacts0 H0 H0_sub m ρ main
    (hbody := fun c => (body_obligation m hR c).loose) (hshare := fun c => (dats m hR 0 c).share_full fun _ => rfl)
    (howed := fun _ _ => rfl) (V := V m) (hmain := hmain m Variants.none) (hA := A_eq m hR) (hpf := V_pre m)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨H, -⟩; iexact H))

/-- The frame claim's post from the frame run's: a staged input by the library's read of its array, an array no
    window stages by the post's second clause, each then as launched (no host operation writes an argument). -/
theorem frame_of (hR : InRange m)
    (h : θ_run defs (onTc (τ := τ) (main (F := F))) (s₀ m ρ) (Pipeline.FramePost (Pipeline.pin pcfgs fun _ => adm m) (dats m hR) 0 (V m))) :
    θ_run defs (onTc (τ := τ) (main (F := F))) ⟨m, fun _ => 0, ρ⟩ (fun r => ∀ c : Dev nD,
      r.2.mem ((c.tc : Thread nD τ).loc main_v10) = (dats m hR 0 c).arrAt 1 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 1,
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).2 main_arg4 (Pipeline.mem_restRefs_of (win := spec0) main_arg4 (by decide) (by decide))).trans (V_main_arg4 m c),
      ((h c).2 main_arg5 (Pipeline.mem_restRefs_of (win := spec0) main_arg5 (by decide) (by decide))).trans (V_main_arg5 m c),
      ((h c).1 0).trans ((((dats m hR 0 c).arrAt_in 0 rfl _).trans ((A_eq m hR c 0).trans (V_main_arg6 m c))))⟩) h

end Cert.Kernel.Hand

end
-- ==== Proof.K.Reads.lean ====
/-
  Three facts about reading whole buffers.

  A load through the view of a WHOLE buffer reads the buffer's contents at the index the load's rectangle places
  each of its multi-indices at. Hence: (A) under the precondition every word a load reads off either index table is
  a row number below 1000000; (B) the word of an index table at batch position n is entry n of the index vector as
  launched; (C) a load of the whole one-word block of a whole one-word buffer reads what the buffer holds.
-/
import proofs.«411927_j1331439862348_2_alg».proof.Proof.K.Main
import proofs.«411927_j1331439862348_2_alg».proof.Proof.K.Canon
import proofs.«411927_j1331439862348_2_alg».proof.Proof.Words
import proofs.«411927_j1331439862348_2_alg».proof.Proof.Gen.Pre_finite_inputs
import Idealize.ShloMosaic.Lib.ValueIdx

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

/-- The first prefetched table is the first index vector as launched: no host operation writes it. -/
theorem tbl0 : tbl m 0 = m (((0 : Dev nD).tc : Thread nD τ).loc main_arg0) := V_main_arg0 m 0
/-- The second prefetched table is the second index vector as launched. -/
theorem tbl1 : tbl m 1 = m (((0 : Dev nD).tc : Thread nD τ).loc main_arg1) := V_main_arg1 m 0

/-- Under the precondition, whatever rectangle a load reads an index table through, every word read is below 1000000:
    the table is the index vector as launched, the load reads one of its entries, and every entry is in range. -/
theorem ranges_of_pre
    (h : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (fun _ => 1#1)) :
    (∀ (R : LoadRect S16384) (j : R.shape.Idx), BitVec.toNat ((Memref.whole main_arg0 : Memref sig .tc .smem S16384 .i32).view.readAt (Elt F) R (tbl m 0) j) < 1000000)
    ∧ (∀ (R : LoadRect S16384) (j : R.shape.Idx), BitVec.toNat ((Memref.whole main_arg1 : Memref sig .tc .smem S16384 .i32).view.readAt (Elt F) R (tbl m 1) j) < 1000000) := by
  obtain ⟨h0, h1⟩ := Cert.MF.index_ranges (F := F) _ _ _ _ _ _ _ (h 0)
  refine ⟨fun R j => ?_, fun R j => ?_⟩
  · rw [tbl0]; exact h0 (R.idx j)
  · rw [tbl1]; exact h1 (R.idx j)

/-- The unit rectangle at offset n of one element, read at its first index, is entry n: the user word at batch
    position n is entry n of the first index vector as launched. -/
theorem word_users (n : Nat) (hn : n < 16384) (h : ∀ a, (![n] : Fin 1 → Nat) a + S1.size a ≤ S16384.size a) :
    word (Memref.whole main_arg0) (tbl m 0) ![n] h = (m (((0 : Dev nD).tc : Thread nD τ).loc main_arg0) : S16384.Idx → BitVec 32) (ValueIdx.ix1 (⟨n, hn⟩ : Fin 16384)) := by
  have e : (Rect.unit (s := S16384) ![n] S1.size h).toLoadRect.idx (Shape.Idx.first (numel1_S1.symm ▸ Nat.one_pos))
      = ValueIdx.ix1 (⟨n, hn⟩ : Fin 16384) := by
    funext a
    apply Fin.ext
    rw [LoadRect.idx_apply]
    match a with
    | ⟨0, _⟩ => show n + 1 * 0 = n; omega
  rw [tbl0]
  unfold word
  rw [View.readAt_apply, e]
  rfl

/-- Likewise the item word at batch position n is entry n of the second index vector as launched. -/
theorem word_items (n : Nat) (hn : n < 16384) (h : ∀ a, (![n] : Fin 1 → Nat) a + S1.size a ≤ S16384.size a) :
    word (Memref.whole main_arg1) (tbl m 1) ![n] h = (m (((0 : Dev nD).tc : Thread nD τ).loc main_arg1) : S16384.Idx → BitVec 32) (ValueIdx.ix1 (⟨n, hn⟩ : Fin 16384)) := by
  have e : (Rect.unit (s := S16384) ![n] S1.size h).toLoadRect.idx (Shape.Idx.first (numel1_S1.symm ▸ Nat.one_pos))
      = ValueIdx.ix1 (⟨n, hn⟩ : Fin 16384) := by
    funext a
    apply Fin.ext
    rw [LoadRect.idx_apply]
    match a with
    | ⟨0, _⟩ => show n + 1 * 0 = n; omega
  rw [tbl1]
  unfold word
  rw [View.readAt_apply, e]
  rfl

/-- The rectangle at offset zero of the full size places every index at itself, so a load of the whole one-word
    block of a whole buffer held at the contents that read x reads x. -/
theorem load_whole_S1 (M : Memref sig .tc .vmem S1 .f32) (hM : M.IsWhole) (x : Vec F S1 .f32) :
    M.view.readAt (Elt F) (Rect.unit (s := S1) ![0] S1.size inb_S1_S1_0).toLoadRect (hM.unread x) = x := by
  funext y
  have e : (Rect.unit (s := S1) ![0] S1.size inb_S1_S1_0).toLoadRect.idx y = y := by
    funext a
    apply Fin.ext
    rw [LoadRect.idx_apply]
    match a with
    | ⟨0, _⟩ => show 0 + 1 * _ = _; rw [Nat.zero_add, Nat.one_mul]
  rw [View.readAt_apply, e]
  exact congrFun (hM.read_unread x) y

end Cert.Kernel.Hand

end
-- ==== Proof.KI.Canon.lean ====
/-
  The pieces of one trip of the gather loop, named.

  Trip `k` of the loop at grid point `i` reads, for j = 0 … 7, the words of the two index tables at batch position
  512·i + 8·k + j, and copies row (user word) of the packed user table into row 8·k + j of the first scratch buffer
  and row (item word) of the packed item table into row 8·k + j of the second. `word` is a table word as a load
  through the table's whole buffer reads it; `land` is a scratch buffer's contents after one such row has landed:
  the 128 words of the destination row replaced by the 128 words of the source row, every other word kept.
-/
import proofs.«411927_j1331439862348_2_alg».proof.Proof.Gen.KernelIdeal
import Idealize.ShloMosaic.Lib.Tactic

noncomputable section

namespace Cert.KernelIdeal.Hand

open Cert.KernelIdeal Cert.KernelIdeal.Gen
open Idealize.ShloMosaic Idealize.ShloMosaic.TcCoe

variable {F : FTy → Type} [FloatOps F]

/-- The word of an index table at the batch position `o`. -/
def word (M : Memref sig .tc .smem S16384 .i32) (T : BufTy.Contents (Elt F) M.view.ty) (o : Fin 1 → Nat)
    (h : ∀ a, o a + S1.size a ≤ S16384.size a) : Elt F .i32 :=
  View.readAt (Elt F) M.view (Rect.unit (s := S16384) o S1.size h).toLoadRect T (Shape.Idx.first (numel1_S1.symm ▸ Nat.one_pos))

/-- A word below the table's extent names a row inside the table. -/
theorem chk_of_lt (v : BitVec 32) (h : v.toNat < 1000000) :
    ∀ a, (![v.toNat, 0, 0] : Fin 3 → Nat) a + S1x1x128.size a ≤ S1000000x1x128.size a := by
  intro a; fin_cases a
  · show v.toNat + 1 ≤ 1000000; omega
  · show 0 + 1 ≤ 1; omega
  · show 0 + 128 ≤ 128; omega

/-- Row `od` of a scratch buffer, and row `os` of a packed table, as the body slices and squeezes them. -/
abbrev dstRow (D : Memref sig .tc .vmem S512x1x128 .f32) (od : Fin 3 → Nat) (hd : ∀ a, od a + S1x1x128.size a ≤ S512x1x128.size a) :
    Memref sig .tc .vmem S1x128 .f32 :=
  (D.slice (Rect.unit (s := S512x1x128) od S1x1x128.size hd) (fun _ => rfl)).squeeze S1x128 squeezes_S1x1x128_S1x128
abbrev srcRow (S : Memref sig .tc .hbm S1000000x1x128 .f32) (os : Fin 3 → Nat) (hs : ∀ a, os a + S1x1x128.size a ≤ S1000000x1x128.size a) :
    Memref sig .tc .hbm S1x128 .f32 :=
  (S.slice (Rect.unit (s := S1000000x1x128) os S1x1x128.size hs) (fun _ => rfl)).squeeze S1x128 squeezes_S1x1x128_S1x128

/-- The scratch buffer `D` at contents `f`, after row `os` of the table `S` (at contents `X`) has landed in its row `od`. -/
def land (D : Memref sig .tc .vmem S512x1x128 .f32) (od : Fin 3 → Nat) (hd : ∀ a, od a + S1x1x128.size a ≤ S512x1x128.size a)
    (S : Memref sig .tc .hbm S1000000x1x128 .f32) (os : Fin 3 → Nat) (hs : ∀ a, os a + S1x1x128.size a ≤ S1000000x1x128.size a)
    (X : BufTy.Contents (Elt F) S.view.ty) (f : BufTy.Contents (Elt F) D.view.ty) : BufTy.Contents (Elt F) D.view.ty :=
  View.write (Elt F) (dstRow D od hd).view f (ReadAs.same.apply (View.read (Elt F) (srcRow S os hs).view X)) Finset.univ

end Cert.KernelIdeal.Hand

end
-- ==== Proof.KI.Trip.lean ====
/-
  One trip of the gather loop, run once at a symbolic trip.

  The trip holds: the two index tables (read only, at half their share), the two packed tables each as one read token
  per transfer that may be in flight at once (eight) beside the remainder of the share — two of the eight rows a trip
  copies out of a table may be the SAME row, so the rows cannot be lent apart; a token lends the row and takes it
  back at the wait —, the sixteen semaphore cells at zero, and the two scratch buffers. Every table word read names a
  row inside its table (`hU`, `hI`: the certificate's precondition), which is what each copy's source slice needs.
  After the trip everything is as before except the scratch buffers, in each of which rows 8k … 8k + 7 have landed
  (`G7`, `G8`: eight `land`s in the order of the waits' completions).
-/
import proofs.«411927_j1331439862348_2_alg».proof.Proof.KI.Canon
import proofs.«411927_j1331439862348_2_alg».proof.Proof.Gen.KernelIdeal.Loops
import Idealize.ShloMosaic.Lib.Pipeline.Frame
import Idealize.ShloMosaic.Lib.Tactic
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄D" => MT nD τ sig Unit (Elt F) ℕ (UR sig nD τ × Counters) ℕ

/-- Each side condition the trip assumes of a word it has read: the word names a row inside the table. -/
theorem hc1 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk1 (M.view.readAt (Elt F) R T j) := fun R j => chk_of_lt _ (hT R j)
theorem hc2 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk2 (M.view.readAt (Elt F) R T j) := fun R j => chk_of_lt _ (hT R j)
theorem hc3 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk3 (M.view.readAt (Elt F) R T j) := fun R j => chk_of_lt _ (hT R j)
theorem hc4 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk4 (M.view.readAt (Elt F) R T j) := fun R j => chk_of_lt _ (hT R j)
theorem hc5 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk5 (M.view.readAt (Elt F) R T j) := fun R j => chk_of_lt _ (hT R j)
theorem hc6 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk6 (M.view.readAt (Elt F) R T j) := fun R j => chk_of_lt _ (hT R j)
theorem hc7 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk7 (M.view.readAt (Elt F) R T j) := fun R j => chk_of_lt _ (hT R j)
theorem hc8 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk8 (M.view.readAt (Elt F) R T j) := fun R j => chk_of_lt _ (hT R j)
theorem hc9 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk9 (M.view.readAt (Elt F) R T j) := fun R j => chk_of_lt _ (hT R j)
theorem hc10 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk10 (M.view.readAt (Elt F) R T j) := fun R j => chk_of_lt _ (hT R j)
theorem hc11 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk11 (M.view.readAt (Elt F) R T j) := fun R j => chk_of_lt _ (hT R j)
theorem hc12 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk12 (M.view.readAt (Elt F) R T j) := fun R j => chk_of_lt _ (hT R j)
theorem hc13 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk13 (M.view.readAt (Elt F) R T j) := fun R j => chk_of_lt _ (hT R j)
theorem hc14 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk14 (M.view.readAt (Elt F) R T j) := fun R j => chk_of_lt _ (hT R j)
theorem hc15 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk15 (M.view.readAt (Elt F) R T j) := fun R j => chk_of_lt _ (hT R j)
theorem hc16 (M : Memref sig .tc .smem S16384 .i32) (T : BufTy.Contents (Elt F) M.view.ty)
    (hT : ∀ (R : LoadRect S16384) (j : R.shape.Idx), BitVec.toNat (M.view.readAt (Elt F) R T j) < 1000000) :
    ∀ (R : LoadRect S16384) (j : R.shape.Idx), k0_chk16 (M.view.readAt (Elt F) R T j) := fun R j => chk_of_lt _ (hT R j)

section Trip
variable (c : Dev nD) (i : grid0.Coords) (arg1 : Memref sig .tc .smem S16384 .i32) (harg1 : arg1.IsWhole) (arg2 : Memref sig .tc .smem S16384 .i32) (harg2 : arg2.IsWhole)
  (arg3 : Memref sig .tc .hbm S1000000x1x128 .f32) (harg3 : arg3.IsWhole) (arg4 : Memref sig .tc .hbm S1000000x1x128 .f32) (harg4 : arg4.IsWhole)
  (arg5 : Memref sig .tc .vmem S1 .f32) (harg5 : arg5.IsWhole) (arg6 : Memref sig .tc .vmem S512 .f32) (harg6 : arg6.IsWhole)
  (arg7 : Memref sig .tc .vmem S512x1x128 .f32) (harg7 : arg7.IsWhole) (arg8 : Memref sig .tc .vmem S512x1x128 .f32) (harg8 : arg8.IsWhole)
  (arg9 : DmaSems sig S8) (arg10 : DmaSems sig S8) (v0 : BitVec 32)
  (T1 : BufTy.Contents (Elt F) arg1.view.ty) (T2 : BufTy.Contents (Elt F) arg2.view.ty)
  (X3 : BufTy.Contents (Elt F) arg3.view.ty) (X4 : BufTy.Contents (Elt F) arg4.view.ty)
  (hU : ∀ (R : LoadRect S16384) (j : R.shape.Idx), BitVec.toNat (arg1.view.readAt (Elt F) R T1 j) < 1000000)
  (hI : ∀ (R : LoadRect S16384) (j : R.shape.Idx), BitVec.toNat (arg2.view.readAt (Elt F) R T2 j) < 1000000)

/-- What a trip takes and hands back unchanged. -/
abbrev TripRes : sProp 𝕄D :=
  iprop((arg1.view.loc (c : Thread nD τ) ↦{fullShare.right} T1)
    ∗ (arg2.view.loc (c : Thread nD τ) ↦{fullShare.right} T2)
    ∗ (arg3.view.loc (c : Thread nD τ) ↦{Transfers.shareDrop fullShare 8} X3)
    ∗ (arg3.view.loc (c : Thread nD τ) ↦{Transfers.shareTok fullShare 8 0} X3)
    ∗ (arg3.view.loc (c : Thread nD τ) ↦{Transfers.shareTok fullShare 8 1} X3)
    ∗ (arg3.view.loc (c : Thread nD τ) ↦{Transfers.shareTok fullShare 8 2} X3)
    ∗ (arg3.view.loc (c : Thread nD τ) ↦{Transfers.shareTok fullShare 8 3} X3)
    ∗ (arg3.view.loc (c : Thread nD τ) ↦{Transfers.shareTok fullShare 8 4} X3)
    ∗ (arg3.view.loc (c : Thread nD τ) ↦{Transfers.shareTok fullShare 8 5} X3)
    ∗ (arg3.view.loc (c : Thread nD τ) ↦{Transfers.shareTok fullShare 8 6} X3)
    ∗ (arg3.view.loc (c : Thread nD τ) ↦{Transfers.shareTok fullShare 8 7} X3)
    ∗ (arg4.view.loc (c : Thread nD τ) ↦{Transfers.shareDrop fullShare 8} X4)
    ∗ (arg4.view.loc (c : Thread nD τ) ↦{Transfers.shareTok fullShare 8 0} X4)
    ∗ (arg4.view.loc (c : Thread nD τ) ↦{Transfers.shareTok fullShare 8 1} X4)
    ∗ (arg4.view.loc (c : Thread nD τ) ↦{Transfers.shareTok fullShare 8 2} X4)
    ∗ (arg4.view.loc (c : Thread nD τ) ↦{Transfers.shareTok fullShare 8 3} X4)
    ∗ (arg4.view.loc (c : Thread nD τ) ↦{Transfers.shareTok fullShare 8 4} X4)
    ∗ (arg4.view.loc (c : Thread nD τ) ↦{Transfers.shareTok fullShare 8 5} X4)
    ∗ (arg4.view.loc (c : Thread nD τ) ↦{Transfers.shareTok fullShare 8 6} X4)
    ∗ (arg4.view.loc (c : Thread nD τ) ↦{Transfers.shareTok fullShare 8 7} X4)
    ∗ (semVal ((c : Thread nD τ), SemLoc.dma ((arg9.slice (Rect.unit (s := S8) ![0] S1.size inb_S8_S1_0)).squeeze S_ squeezes_S1_S_).sem) 0)
    ∗ (semVal ((c : Thread nD τ), SemLoc.dma ((arg9.slice (Rect.unit (s := S8) ![1] S1.size inb_S8_S1_1)).squeeze S_ squeezes_S1_S_).sem) 0)
    ∗ (semVal ((c : Thread nD τ), SemLoc.dma ((arg9.slice (Rect.unit (s := S8) ![2] S1.size inb_S8_S1_2)).squeeze S_ squeezes_S1_S_).sem) 0)
    ∗ (semVal ((c : Thread nD τ), SemLoc.dma ((arg9.slice (Rect.unit (s := S8) ![3] S1.size inb_S8_S1_3)).squeeze S_ squeezes_S1_S_).sem) 0)
    ∗ (semVal ((c : Thread nD τ), SemLoc.dma ((arg9.slice (Rect.unit (s := S8) ![4] S1.size inb_S8_S1_4)).squeeze S_ squeezes_S1_S_).sem) 0)
    ∗ (semVal ((c : Thread nD τ), SemLoc.dma ((arg9.slice (Rect.unit (s := S8) ![5] S1.size inb_S8_S1_5)).squeeze S_ squeezes_S1_S_).sem) 0)
    ∗ (semVal ((c : Thread nD τ), SemLoc.dma ((arg9.slice (Rect.unit (s := S8) ![6] S1.size inb_S8_S1_6)).squeeze S_ squeezes_S1_S_).sem) 0)
    ∗ (semVal ((c : Thread nD τ), SemLoc.dma ((arg9.slice (Rect.unit (s := S8) ![7] S1.size inb_S8_S1_7)).squeeze S_ squeezes_S1_S_).sem) 0)
    ∗ (semVal ((c : Thread nD τ), SemLoc.dma ((arg10.slice (Rect.unit (s := S8) ![0] S1.size inb_S8_S1_0)).squeeze S_ squeezes_S1_S_).sem) 0)
    ∗ (semVal ((c : Thread nD τ), SemLoc.dma ((arg10.slice (Rect.unit (s := S8) ![1] S1.size inb_S8_S1_1)).squeeze S_ squeezes_S1_S_).sem) 0)
    ∗ (semVal ((c : Thread nD τ), SemLoc.dma ((arg10.slice (Rect.unit (s := S8) ![2] S1.size inb_S8_S1_2)).squeeze S_ squeezes_S1_S_).sem) 0)
    ∗ (semVal ((c : Thread nD τ), SemLoc.dma ((arg10.slice (Rect.unit (s := S8) ![3] S1.size inb_S8_S1_3)).squeeze S_ squeezes_S1_S_).sem) 0)
    ∗ (semVal ((c : Thread nD τ), SemLoc.dma ((arg10.slice (Rect.unit (s := S8) ![4] S1.size inb_S8_S1_4)).squeeze S_ squeezes_S1_S_).sem) 0)
    ∗ (semVal ((c : Thread nD τ), SemLoc.dma ((arg10.slice (Rect.unit (s := S8) ![5] S1.size inb_S8_S1_5)).squeeze S_ squeezes_S1_S_).sem) 0)
    ∗ (semVal ((c : Thread nD τ), SemLoc.dma ((arg10.slice (Rect.unit (s := S8) ![6] S1.size inb_S8_S1_6)).squeeze S_ squeezes_S1_S_).sem) 0)
    ∗ (semVal ((c : Thread nD τ), SemLoc.dma ((arg10.slice (Rect.unit (s := S8) ![7] S1.size inb_S8_S1_7)).squeeze S_ squeezes_S1_S_).sem) 0))

/-- The first scratch buffer after trip `k`, over its contents `f` before it. -/
def G7 (k : Fin k0_t1_loop.trips) (f : BufTy.Contents (Elt F) arg7.view.ty) : BufTy.Contents (Elt F) arg7.view.ty :=
  land arg7 (k0_off37 k) (Gen.k0_off37_inb k) arg3 (k0_off38 (word arg1 T1 (k0_off36 i k) (Gen.k0_off36_inb i k))) (k0_off38_inb _ (hc15 arg1 T1 hU _ _)) X3
      (land arg7 (k0_off32 k) (Gen.k0_off32_inb k) arg3 (k0_off33 (word arg1 T1 (k0_off31 i k) (Gen.k0_off31_inb i k))) (k0_off33_inb _ (hc13 arg1 T1 hU _ _)) X3
      (land arg7 (k0_off27 k) (Gen.k0_off27_inb k) arg3 (k0_off28 (word arg1 T1 (k0_off26 i k) (Gen.k0_off26_inb i k))) (k0_off28_inb _ (hc11 arg1 T1 hU _ _)) X3
      (land arg7 (k0_off22 k) (Gen.k0_off22_inb k) arg3 (k0_off23 (word arg1 T1 (k0_off21 i k) (Gen.k0_off21_inb i k))) (k0_off23_inb _ (hc9 arg1 T1 hU _ _)) X3
      (land arg7 (k0_off17 k) (Gen.k0_off17_inb k) arg3 (k0_off18 (word arg1 T1 (k0_off16 i k) (Gen.k0_off16_inb i k))) (k0_off18_inb _ (hc7 arg1 T1 hU _ _)) X3
      (land arg7 (k0_off12 k) (Gen.k0_off12_inb k) arg3 (k0_off13 (word arg1 T1 (k0_off11 i k) (Gen.k0_off11_inb i k))) (k0_off13_inb _ (hc5 arg1 T1 hU _ _)) X3
      (land arg7 (k0_off7 k) (Gen.k0_off7_inb k) arg3 (k0_off8 (word arg1 T1 (k0_off6 i k) (Gen.k0_off6_inb i k))) (k0_off8_inb _ (hc3 arg1 T1 hU _ _)) X3
      (land arg7 (k0_off2 k) (Gen.k0_off2_inb k) arg3 (k0_off3 (word arg1 T1 (k0_off1 i k) (Gen.k0_off1_inb i k))) (k0_off3_inb _ (hc1 arg1 T1 hU _ _)) X3
      (f))))))))

/-- The second scratch buffer after trip `k`, over its contents `f` before it. -/
def G8 (k : Fin k0_t1_loop.trips) (f : BufTy.Contents (Elt F) arg8.view.ty) : BufTy.Contents (Elt F) arg8.view.ty :=
  land arg8 (k0_off39 k) (Gen.k0_off39_inb k) arg4 (k0_off40 (word arg2 T2 (k0_off36 i k) (Gen.k0_off36_inb i k))) (k0_off40_inb _ (hc16 arg2 T2 hI _ _)) X4
      (land arg8 (k0_off34 k) (Gen.k0_off34_inb k) arg4 (k0_off35 (word arg2 T2 (k0_off31 i k) (Gen.k0_off31_inb i k))) (k0_off35_inb _ (hc14 arg2 T2 hI _ _)) X4
      (land arg8 (k0_off29 k) (Gen.k0_off29_inb k) arg4 (k0_off30 (word arg2 T2 (k0_off26 i k) (Gen.k0_off26_inb i k))) (k0_off30_inb _ (hc12 arg2 T2 hI _ _)) X4
      (land arg8 (k0_off24 k) (Gen.k0_off24_inb k) arg4 (k0_off25 (word arg2 T2 (k0_off21 i k) (Gen.k0_off21_inb i k))) (k0_off25_inb _ (hc10 arg2 T2 hI _ _)) X4
      (land arg8 (k0_off19 k) (Gen.k0_off19_inb k) arg4 (k0_off20 (word arg2 T2 (k0_off16 i k) (Gen.k0_off16_inb i k))) (k0_off20_inb _ (hc8 arg2 T2 hI _ _)) X4
      (land arg8 (k0_off14 k) (Gen.k0_off14_inb k) arg4 (k0_off15 (word arg2 T2 (k0_off11 i k) (Gen.k0_off11_inb i k))) (k0_off15_inb _ (hc6 arg2 T2 hI _ _)) X4
      (land arg8 (k0_off9 k) (Gen.k0_off9_inb k) arg4 (k0_off10 (word arg2 T2 (k0_off6 i k) (Gen.k0_off6_inb i k))) (k0_off10_inb _ (hc4 arg2 T2 hI _ _)) X4
      (land arg8 (k0_off4 k) (Gen.k0_off4_inb k) arg4 (k0_off5 (word arg2 T2 (k0_off1 i k) (Gen.k0_off1_inb i k))) (k0_off5_inb _ (hc2 arg2 T2 hI _ _)) X4
      (f))))))))

set_option maxHeartbeats 4000000 in
/-- THE TRIP. -/
theorem trip (k : Fin k0_t1_loop.trips) (f7 : BufTy.Contents (Elt F) arg7.view.ty) (f8 : BufTy.Contents (Elt F) arg8.view.ty) (W : Waits sig Unit) :
    iprop(TripRes (F := F) c arg1 arg2 arg3 arg4 arg9 arg10 T1 T2 X3 X4
        ∗ (arg7.view.loc (c : Thread nD τ) ↦[arg7.view.set]{fullShare} f7) ∗ (arg8.view.loc (c : Thread nD τ) ↦[arg8.view.set]{fullShare} f8)
        ∗ owes (c : Thread nD τ) 0 W)
      ⊢ wp frame (wpE (defs₀ (F := F)) Variants.none (c : Thread nD τ) none) Set.univ
          (k0_t1_body (F := F) i arg1 harg1 arg2 harg2 arg3 harg3 arg4 harg4 arg5 harg5 arg6 harg6 arg7 harg7 arg8 harg8 arg9 arg10 v0 k ())
          (fun _ => iprop(TripRes (F := F) c arg1 arg2 arg3 arg4 arg9 arg10 T1 T2 X3 X4
            ∗ (arg7.view.loc (c : Thread nD τ) ↦[arg7.view.set]{fullShare} G7 (F := F) i arg1 arg3 arg7 T1 X3 hU k f7)
            ∗ (arg8.view.loc (c : Thread nD τ) ↦[arg8.view.set]{fullShare} G8 (F := F) i arg2 arg4 arg8 T2 X4 hI k f8)
            ∗ ∃ W', owes (c : Thread nD τ) 0 W')) := by
  unfold k0_t1_body
  iintro ⟨⟨H1, H2, H3d, H3t0, H3t1, H3t2, H3t3, H3t4, H3t5, H3t6, H3t7, H4d, H4t0, H4t1, H4t2, H4t3, H4t4, H4t5, H4t6, H4t7, HQ0, HQ1, HQ2, HQ3, HQ4, HQ5, HQ6, HQ7, HR0, HR1, HR2, HR3, HR4, HR5, HR6, HR7⟩, H7, H8, HO⟩
  have hc1 := hc1 (F := F) arg1 T1 hU
  have hc2 := hc2 (F := F) arg2 T2 hI
  have hc3 := hc3 (F := F) arg1 T1 hU
  have hc4 := hc4 (F := F) arg2 T2 hI
  have hc5 := hc5 (F := F) arg1 T1 hU
  have hc6 := hc6 (F := F) arg2 T2 hI
  have hc7 := hc7 (F := F) arg1 T1 hU
  have hc8 := hc8 (F := F) arg2 T2 hI
  have hc9 := hc9 (F := F) arg1 T1 hU
  have hc10 := hc10 (F := F) arg2 T2 hI
  have hc11 := hc11 (F := F) arg1 T1 hU
  have hc12 := hc12 (F := F) arg2 T2 hI
  have hc13 := hc13 (F := F) arg1 T1 hU
  have hc14 := hc14 (F := F) arg2 T2 hI
  have hc15 := hc15 (F := F) arg1 T1 hU
  have hc16 := hc16 (F := F) arg2 T2 hI
  sl_exec (disch := first | sl_exact (hc1 _ _) | sl_exact (hc2 _ _) | sl_exact (hc3 _ _) | sl_exact (hc4 _ _) | sl_exact (hc5 _ _) | sl_exact (hc6 _ _) | sl_exact (hc7 _ _) | sl_exact (hc8 _ _) | sl_exact (hc9 _ _) | sl_exact (hc10 _ _) | sl_exact (hc11 _ _) | sl_exact (hc12 _ _) | sl_exact (hc13 _ _) | sl_exact (hc14 _ _) | sl_exact (hc15 _ _) | sl_exact (hc16 _ _))
  sl_step
  isplitl [H1 H2 H3d H3t0 H3t1 H3t2 H3t3 H3t4 H3t5 H3t6 H3t7 H4d H4t0 H4t1 H4t2 H4t3 H4t4 H4t5 H4t6 H4t7 HQ0 HQ1 HQ2 HQ3 HQ4 HQ5 HQ6 HQ7 HR0 HR1 HR2 HR3 HR4 HR5 HR6 HR7]
  ·
    isplitl [H1]; · iexact H1
    isplitl [H2]; · iexact H2
    isplitl [H3d]; · iexact H3d
    isplitl [H3t0]; · iexact H3t0
    isplitl [H3t1]; · iexact H3t1
    isplitl [H3t2]; · iexact H3t2
    isplitl [H3t3]; · iexact H3t3
    isplitl [H3t4]; · iexact H3t4
    isplitl [H3t5]; · iexact H3t5
    isplitl [H3t6]; · iexact H3t6
    isplitl [H3t7]; · iexact H3t7
    isplitl [H4d]; · iexact H4d
    isplitl [H4t0]; · iexact H4t0
    isplitl [H4t1]; · iexact H4t1
    isplitl [H4t2]; · iexact H4t2
    isplitl [H4t3]; · iexact H4t3
    isplitl [H4t4]; · iexact H4t4
    isplitl [H4t5]; · iexact H4t5
    isplitl [H4t6]; · iexact H4t6
    isplitl [H4t7]; · iexact H4t7
    isplitl [HQ0]; · iexact HQ0
    isplitl [HQ1]; · iexact HQ1
    isplitl [HQ2]; · iexact HQ2
    isplitl [HQ3]; · iexact HQ3
    isplitl [HQ4]; · iexact HQ4
    isplitl [HQ5]; · iexact HQ5
    isplitl [HQ6]; · iexact HQ6
    isplitl [HQ7]; · iexact HQ7
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  isplitl [H7]; · iexact H7
  isplitl [H8]; · iexact H8
  iexists _; iexact HO

/-! ## The scratch buffers after `n` trips, and the rows the loop gathers -/

/-- The first scratch buffer after `n` trips from its contents `f₀` at the loop's entry (constant past the last trip). -/
def ACC7 (f₀ : BufTy.Contents (Elt F) arg7.view.ty) : ℕ → BufTy.Contents (Elt F) arg7.view.ty
  | 0 => f₀
  | n + 1 => if h : n < k0_t1_loop.trips then G7 (F := F) i arg1 arg3 arg7 T1 X3 hU ⟨n, h⟩ (ACC7 f₀ n) else ACC7 f₀ n

/-- The second scratch buffer after `n` trips. -/
def ACC8 (f₀ : BufTy.Contents (Elt F) arg8.view.ty) : ℕ → BufTy.Contents (Elt F) arg8.view.ty
  | 0 => f₀
  | n + 1 => if h : n < k0_t1_loop.trips then G8 (F := F) i arg2 arg4 arg8 T2 X4 hI ⟨n, h⟩ (ACC8 f₀ n) else ACC8 f₀ n

theorem ACC7_succ (f₀ : BufTy.Contents (Elt F) arg7.view.ty) (k : Fin k0_t1_loop.trips) :
    ACC7 (F := F) i arg1 arg3 arg7 T1 X3 hU f₀ (k.val + 1)
      = G7 (F := F) i arg1 arg3 arg7 T1 X3 hU k (ACC7 (F := F) i arg1 arg3 arg7 T1 X3 hU f₀ k.val) := by
  rw [ACC7.eq_2]; exact dif_pos k.isLt

theorem ACC8_succ (f₀ : BufTy.Contents (Elt F) arg8.view.ty) (k : Fin k0_t1_loop.trips) :
    ACC8 (F := F) i arg2 arg4 arg8 T2 X4 hI f₀ (k.val + 1)
      = G8 (F := F) i arg2 arg4 arg8 T2 X4 hI k (ACC8 (F := F) i arg2 arg4 arg8 T2 X4 hI f₀ k.val) := by
  rw [ACC8.eq_2]; exact dif_pos k.isLt

/-- The loop has 64 trips. -/
theorem trips_eq : k0_t1_loop.trips = 64 := by decide

/-- Batch position 512·i + r lies inside the index tables. -/
theorem pos_inb (i : grid0.Coords) (r : Fin 512) :
    ∀ a, (![512 * (i 0).val + r.val] : Fin 1 → Nat) a + S1.size a ≤ S16384.size a := by
  have h32 : (i 0).val < 32 := (i 0).isLt
  have hr := r.isLt
  intro a; fin_cases a
  show 512 * (i 0).val + r.val + 1 ≤ 16384; omega

end Trip

/-- The rows the loop gathers at grid point `i` out of the packed table `S` (at contents `X`) by the index table `M`
    (at contents `T`): row r is the table's row named by the word at batch position 512·i + r. -/
def gathered (S : Memref sig .tc .hbm S1000000x1x128 .f32) (X : BufTy.Contents (Elt F) S.view.ty)
    (M : Memref sig .tc .smem S16384 .i32) (T : BufTy.Contents (Elt F) M.view.ty)
    (hT : ∀ (R : LoadRect S16384) (j : R.shape.Idx), BitVec.toNat (M.view.readAt (Elt F) R T j) < 1000000)
    (i : grid0.Coords) : S512x1x128.Idx → Elt F .f32 :=
  fun y => S.view.read (Elt F) X
    (ValueIdx.ix3 (⟨BitVec.toNat (word M T ![512 * (i 0).val + (y 0 : Fin 512).val] (pos_inb i (y 0 : Fin 512))), hT _ _⟩ : Fin 1000000)
      (0 : Fin 1) (y 2 : Fin 128))

end Cert.KernelIdeal.Hand

end
-- ==== Proof.KI.Body.lean ====
/-
  The kernel's body at one grid point, run once at a symbolic point.

  The body is the gather loop, then: both scratch buffers loaded whole, the bias block loaded, the output block stored
  whole at the payload of those three loads. The loop is gone through by its invariant — before trip n the scratch
  buffers hold what n trips leave (`ACC7`, `ACC8`), everything else a trip touches is as at the loop's entry —, each
  packed table held for the loop's duration as eight read tokens and the remainder of its share, split off the whole
  table before the loop and joined back after it. After 64 trips every row of a scratch buffer has been gathered,
  whatever the buffer held before (`hR7`, `hR8`), so the loads read `gathered` and the output block ends at `outVal`.
-/
import proofs.«411927_j1331439862348_2_alg».proof.Proof.KI.Trip
import proofs.«411927_j1331439862348_2_alg».proof.Proof.Gen.KernelIdeal.Launch
import Idealize.ShloMosaic.Lib.Pipeline.Frame
import Idealize.ShloMosaic.Lib.Pipeline.FrameBody
import Idealize.ShloMosaic.Lib.Ring
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄D" => MT nD τ sig Unit (Elt F) ℕ (UR sig nD τ × Counters) ℕ

/-- Eight conjuncts, one by one. -/
theorem bigSep_fin8 {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  Idealize.SL.BI.bigSep_univ_eq_bigSepL [(0 : Fin 8), 1, 2, 3, 4, 5, 6, 7] (by decide) (by decide) Φ

section Body
variable (c : Dev nD) (i : grid0.Coords) (arg1 : Memref sig .tc .smem S16384 .i32) (harg1 : arg1.IsWhole) (arg2 : Memref sig .tc .smem S16384 .i32) (harg2 : arg2.IsWhole)
  (arg3 : Memref sig .tc .hbm S1000000x1x128 .f32) (harg3 : arg3.IsWhole) (arg4 : Memref sig .tc .hbm S1000000x1x128 .f32) (harg4 : arg4.IsWhole)
  (arg5 : Memref sig .tc .vmem S1 .f32) (harg5 : arg5.IsWhole) (arg6 : Memref sig .tc .vmem S512 .f32) (harg6 : arg6.IsWhole)
  (arg7 : Memref sig .tc .vmem S512x1x128 .f32) (harg7 : arg7.IsWhole) (arg8 : Memref sig .tc .vmem S512x1x128 .f32) (harg8 : arg8.IsWhole)
  (arg9 : DmaSems sig S8) (arg10 : DmaSems sig S8)
  (T1 : BufTy.Contents (Elt F) arg1.view.ty) (T2 : BufTy.Contents (Elt F) arg2.view.ty)
  (X3 : BufTy.Contents (Elt F) arg3.view.ty) (X4 : BufTy.Contents (Elt F) arg4.view.ty)
  (hU : ∀ (R : LoadRect S16384) (j : R.shape.Idx), BitVec.toNat (arg1.view.readAt (Elt F) R T1 j) < 1000000)
  (hI : ∀ (R : LoadRect S16384) (j : R.shape.Idx), BitVec.toNat (arg2.view.readAt (Elt F) R T2 j) < 1000000)

/-- A packed table whole is its eight read tokens beside the remainder of the share, -/
theorem toks_split (M : Memref sig .tc .hbm S1000000x1x128 .f32) (X : BufTy.Contents (Elt F) M.view.ty) :
    (M.view.loc (c : Thread nD τ) ↦{fullShare} X : sProp 𝕄D)
      ⊢ iprop((M.view.loc (c : Thread nD τ) ↦{Transfers.shareDrop fullShare 8} X)
        ∗ (M.view.loc (c : Thread nD τ) ↦{Transfers.shareTok fullShare 8 0} X)
        ∗ (M.view.loc (c : Thread nD τ) ↦{Transfers.shareTok fullShare 8 1} X)
        ∗ (M.view.loc (c : Thread nD τ) ↦{Transfers.shareTok fullShare 8 2} X)
        ∗ (M.view.loc (c : Thread nD τ) ↦{Transfers.shareTok fullShare 8 3} X)
        ∗ (M.view.loc (c : Thread nD τ) ↦{Transfers.shareTok fullShare 8 4} X)
        ∗ (M.view.loc (c : Thread nD τ) ↦{Transfers.shareTok fullShare 8 5} X)
        ∗ (M.view.loc (c : Thread nD τ) ↦{Transfers.shareTok fullShare 8 6} X)
        ∗ (M.view.loc (c : Thread nD τ) ↦{Transfers.shareTok fullShare 8 7} X)) :=
  (Transfers.pointsTo_toks_split (Ix := Unit) (Name := ℕ) (U := UR sig nD τ × Counters) (Lvl := ℕ) fullShare 8).trans
    (Entails.of_eq (by rw [bigSep_fin8]))

/-- and back. -/
theorem toks_join (M : Memref sig .tc .hbm S1000000x1x128 .f32) (X : BufTy.Contents (Elt F) M.view.ty) :
    iprop((M.view.loc (c : Thread nD τ) ↦{Transfers.shareDrop fullShare 8} X)
        ∗ (M.view.loc (c : Thread nD τ) ↦{Transfers.shareTok fullShare 8 0} X)
        ∗ (M.view.loc (c : Thread nD τ) ↦{Transfers.shareTok fullShare 8 1} X)
        ∗ (M.view.loc (c : Thread nD τ) ↦{Transfers.shareTok fullShare 8 2} X)
        ∗ (M.view.loc (c : Thread nD τ) ↦{Transfers.shareTok fullShare 8 3} X)
        ∗ (M.view.loc (c : Thread nD τ) ↦{Transfers.shareTok fullShare 8 4} X)
        ∗ (M.view.loc (c : Thread nD τ) ↦{Transfers.shareTok fullShare 8 5} X)
        ∗ (M.view.loc (c : Thread nD τ) ↦{Transfers.shareTok fullShare 8 6} X)
        ∗ (M.view.loc (c : Thread nD τ) ↦{Transfers.shareTok fullShare 8 7} X))
      ⊢ (M.view.loc (c : Thread nD τ) ↦{fullShare} X : sProp 𝕄D) :=
  (Entails.of_eq (by rw [bigSep_fin8])).trans
    (Transfers.pointsTo_toks_join (Ix := Unit) (Name := ℕ) (U := UR sig nD τ × Counters) (Lvl := ℕ) fullShare 8)

/-- THE LOOP'S INVARIANT before trip `n`, from the scratch buffers' contents `f7₀`, `f8₀` at the loop's entry. -/
def loopI (f7₀ : BufTy.Contents (Elt F) arg7.view.ty) (f8₀ : BufTy.Contents (Elt F) arg8.view.ty) (n : ℕ) (_ : Unit) : sProp 𝕄D :=
  iprop(TripRes (F := F) c arg1 arg2 arg3 arg4 arg9 arg10 T1 T2 X3 X4
    ∗ (arg7.view.loc (c : Thread nD τ) ↦[arg7.view.set]{fullShare} ACC7 (F := F) i arg1 arg3 arg7 T1 X3 hU f7₀ n)
    ∗ (arg8.view.loc (c : Thread nD τ) ↦[arg8.view.set]{fullShare} ACC8 (F := F) i arg2 arg4 arg8 T2 X4 hI f8₀ n)
    ∗ ∃ W, owes (c : Thread nD τ) 0 W)

/-- What the body stores into the output block: the payload of the two gathered buffers and the bias block. -/
def outVal (x5 : Vec F S1 .f32) : FVec F S512 .f32 :=
  k0_pay1 (gathered arg3 X3 arg1 T1 hU i) (gathered arg4 X4 arg2 T2 hI i)
    (View.readAt (Elt F) arg5.view (Rect.unit (s := S1) ![0] S1.size inb_S1_S1_0).toLoadRect (harg5.unread x5))

set_option maxHeartbeats 4000000 in
/-- THE BODY. -/
theorem sound_kernel
    (hR7 : ∀ f₀, arg7.view.readAt (Elt F) (Rect.unit (s := S512x1x128) ![0, 0, 0] S512x1x128.size inb_S512x1x128_S512x1x128_0_0_0).toLoadRect
        (ACC7 (F := F) i arg1 arg3 arg7 T1 X3 hU f₀ 64) = gathered arg3 X3 arg1 T1 hU i)
    (hR8 : ∀ f₀, arg8.view.readAt (Elt F) (Rect.unit (s := S512x1x128) ![0, 0, 0] S512x1x128.size inb_S512x1x128_S512x1x128_0_0_0).toLoadRect
        (ACC8 (F := F) i arg2 arg4 arg8 T2 X4 hI f₀ 64) = gathered arg4 X4 arg2 T2 hI i)
    (x5 : Vec F S1 .f32) (W : Waits sig Unit) (K : PUnit → sProp 𝕄D) :
    iprop(owns (c : Thread nD τ) arg5 fullShare x5 ∗ (∃ d, owns (c : Thread nD τ) arg6 fullShare d)
        ∗ (∃ d, owns (c : Thread nD τ) arg7 fullShare d) ∗ (∃ d, owns (c : Thread nD τ) arg8 fullShare d)
        ∗ (semVal ((c : Thread nD τ), SemLoc.dma ((arg9.slice (Rect.unit (s := S8) ![0] S1.size inb_S8_S1_0)).squeeze S_ squeezes_S1_S_).sem) 0)
        ∗ (semVal ((c : Thread nD τ), SemLoc.dma ((arg9.slice (Rect.unit (s := S8) ![1] S1.size inb_S8_S1_1)).squeeze S_ squeezes_S1_S_).sem) 0)
        ∗ (semVal ((c : Thread nD τ), SemLoc.dma ((arg9.slice (Rect.unit (s := S8) ![2] S1.size inb_S8_S1_2)).squeeze S_ squeezes_S1_S_).sem) 0)
        ∗ (semVal ((c : Thread nD τ), SemLoc.dma ((arg9.slice (Rect.unit (s := S8) ![3] S1.size inb_S8_S1_3)).squeeze S_ squeezes_S1_S_).sem) 0)
        ∗ (semVal ((c : Thread nD τ), SemLoc.dma ((arg9.slice (Rect.unit (s := S8) ![4] S1.size inb_S8_S1_4)).squeeze S_ squeezes_S1_S_).sem) 0)
        ∗ (semVal ((c : Thread nD τ), SemLoc.dma ((arg9.slice (Rect.unit (s := S8) ![5] S1.size inb_S8_S1_5)).squeeze S_ squeezes_S1_S_).sem) 0)
        ∗ (semVal ((c : Thread nD τ), SemLoc.dma ((arg9.slice (Rect.unit (s := S8) ![6] S1.size inb_S8_S1_6)).squeeze S_ squeezes_S1_S_).sem) 0)
        ∗ (semVal ((c : Thread nD τ), SemLoc.dma ((arg9.slice (Rect.unit (s := S8) ![7] S1.size inb_S8_S1_7)).squeeze S_ squeezes_S1_S_).sem) 0)
        ∗ (semVal ((c : Thread nD τ), SemLoc.dma ((arg10.slice (Rect.unit (s := S8) ![0] S1.size inb_S8_S1_0)).squeeze S_ squeezes_S1_S_).sem) 0)
        ∗ (semVal ((c : Thread nD τ), SemLoc.dma ((arg10.slice (Rect.unit (s := S8) ![1] S1.size inb_S8_S1_1)).squeeze S_ squeezes_S1_S_).sem) 0)
        ∗ (semVal ((c : Thread nD τ), SemLoc.dma ((arg10.slice (Rect.unit (s := S8) ![2] S1.size inb_S8_S1_2)).squeeze S_ squeezes_S1_S_).sem) 0)
        ∗ (semVal ((c : Thread nD τ), SemLoc.dma ((arg10.slice (Rect.unit (s := S8) ![3] S1.size inb_S8_S1_3)).squeeze S_ squeezes_S1_S_).sem) 0)
        ∗ (semVal ((c : Thread nD τ), SemLoc.dma ((arg10.slice (Rect.unit (s := S8) ![4] S1.size inb_S8_S1_4)).squeeze S_ squeezes_S1_S_).sem) 0)
        ∗ (semVal ((c : Thread nD τ), SemLoc.dma ((arg10.slice (Rect.unit (s := S8) ![5] S1.size inb_S8_S1_5)).squeeze S_ squeezes_S1_S_).sem) 0)
        ∗ (semVal ((c : Thread nD τ), SemLoc.dma ((arg10.slice (Rect.unit (s := S8) ![6] S1.size inb_S8_S1_6)).squeeze S_ squeezes_S1_S_).sem) 0)
        ∗ (semVal ((c : Thread nD τ), SemLoc.dma ((arg10.slice (Rect.unit (s := S8) ![7] S1.size inb_S8_S1_7)).squeeze S_ squeezes_S1_S_).sem) 0)
        ∗ (arg3.view.loc (c : Thread nD τ) ↦{fullShare} X3) ∗ (arg4.view.loc (c : Thread nD τ) ↦{fullShare} X4)
        ∗ (arg1.view.loc (c : Thread nD τ) ↦{fullShare.right} T1) ∗ (arg2.view.loc (c : Thread nD τ) ↦{fullShare.right} T2)
        ∗ owes (c : Thread nD τ) 0 W
        ∗ (iprop(owns (c : Thread nD τ) arg5 fullShare x5
              ∗ owns (c : Thread nD τ) arg6 fullShare (outVal (F := F) i arg1 arg2 arg3 arg4 arg5 harg5 T1 T2 X3 X4 hU hI x5)
              ∗ (∃ d, owns (c : Thread nD τ) arg7 fullShare d) ∗ (∃ d, owns (c : Thread nD τ) arg8 fullShare d)
              ∗ (semVal ((c : Thread nD τ), SemLoc.dma ((arg9.slice (Rect.unit (s := S8) ![0] S1.size inb_S8_S1_0)).squeeze S_ squeezes_S1_S_).sem) 0)
              ∗ (semVal ((c : Thread nD τ), SemLoc.dma ((arg9.slice (Rect.unit (s := S8) ![1] S1.size inb_S8_S1_1)).squeeze S_ squeezes_S1_S_).sem) 0)
              ∗ (semVal ((c : Thread nD τ), SemLoc.dma ((arg9.slice (Rect.unit (s := S8) ![2] S1.size inb_S8_S1_2)).squeeze S_ squeezes_S1_S_).sem) 0)
              ∗ (semVal ((c : Thread nD τ), SemLoc.dma ((arg9.slice (Rect.unit (s := S8) ![3] S1.size inb_S8_S1_3)).squeeze S_ squeezes_S1_S_).sem) 0)
              ∗ (semVal ((c : Thread nD τ), SemLoc.dma ((arg9.slice (Rect.unit (s := S8) ![4] S1.size inb_S8_S1_4)).squeeze S_ squeezes_S1_S_).sem) 0)
              ∗ (semVal ((c : Thread nD τ), SemLoc.dma ((arg9.slice (Rect.unit (s := S8) ![5] S1.size inb_S8_S1_5)).squeeze S_ squeezes_S1_S_).sem) 0)
              ∗ (semVal ((c : Thread nD τ), SemLoc.dma ((arg9.slice (Rect.unit (s := S8) ![6] S1.size inb_S8_S1_6)).squeeze S_ squeezes_S1_S_).sem) 0)
              ∗ (semVal ((c : Thread nD τ), SemLoc.dma ((arg9.slice (Rect.unit (s := S8) ![7] S1.size inb_S8_S1_7)).squeeze S_ squeezes_S1_S_).sem) 0)
              ∗ (semVal ((c : Thread nD τ), SemLoc.dma ((arg10.slice (Rect.unit (s := S8) ![0] S1.size inb_S8_S1_0)).squeeze S_ squeezes_S1_S_).sem) 0)
              ∗ (semVal ((c : Thread nD τ), SemLoc.dma ((arg10.slice (Rect.unit (s := S8) ![1] S1.size inb_S8_S1_1)).squeeze S_ squeezes_S1_S_).sem) 0)
              ∗ (semVal ((c : Thread nD τ), SemLoc.dma ((arg10.slice (Rect.unit (s := S8) ![2] S1.size inb_S8_S1_2)).squeeze S_ squeezes_S1_S_).sem) 0)
              ∗ (semVal ((c : Thread nD τ), SemLoc.dma ((arg10.slice (Rect.unit (s := S8) ![3] S1.size inb_S8_S1_3)).squeeze S_ squeezes_S1_S_).sem) 0)
              ∗ (semVal ((c : Thread nD τ), SemLoc.dma ((arg10.slice (Rect.unit (s := S8) ![4] S1.size inb_S8_S1_4)).squeeze S_ squeezes_S1_S_).sem) 0)
              ∗ (semVal ((c : Thread nD τ), SemLoc.dma ((arg10.slice (Rect.unit (s := S8) ![5] S1.size inb_S8_S1_5)).squeeze S_ squeezes_S1_S_).sem) 0)
              ∗ (semVal ((c : Thread nD τ), SemLoc.dma ((arg10.slice (Rect.unit (s := S8) ![6] S1.size inb_S8_S1_6)).squeeze S_ squeezes_S1_S_).sem) 0)
              ∗ (semVal ((c : Thread nD τ), SemLoc.dma ((arg10.slice (Rect.unit (s := S8) ![7] S1.size inb_S8_S1_7)).squeeze S_ squeezes_S1_S_).sem) 0)
              ∗ (arg3.view.loc (c : Thread nD τ) ↦{fullShare} X3) ∗ (arg4.view.loc (c : Thread nD τ) ↦{fullShare} X4)
              ∗ (arg1.view.loc (c : Thread nD τ) ↦{fullShare.right} T1) ∗ (arg2.view.loc (c : Thread nD τ) ↦{fullShare.right} T2)
              ∗ (∃ W', owes (c : Thread nD τ) 0 W')) -∗ K ⟨⟩))
      ⊢ wp frame (wpE (defs₀ (F := F)) Variants.none (c : Thread nD τ) none) Set.univ
          (cc0__mf_kernel (F := F) i arg1 harg1 arg2 harg2 arg3 harg3 arg4 harg4 arg5 harg5 arg6 harg6 arg7 harg7 arg8 harg8 arg9 arg10) K := by
  simp only [cc0__mf_kernel_eq_skeleton]; unfold cc0__mf_kernel_skel
  unfold owns
  iintro ⟨⟨%f5, %hf5, H5⟩, ⟨%d6, %f6, -, H6⟩, ⟨%d7, %f7, -, H7⟩, ⟨%d8, %f8, -, H8⟩, HQ0, HQ1, HQ2, HQ3, HQ4, HQ5, HQ6, HQ7, HR0, HR1, HR2, HR3, HR4, HR5, HR6, HR7, H3, H4, H1, H2, HO, Hk⟩
  obtain rfl := harg5.eq_unread hf5
  -- the packed tables as read tokens for the loop
  ihave H3' := (toks_split (F := F) c arg3 X3) $$ H3
  icases H3' with ⟨H3d, H3t0, H3t1, H3t2, H3t3, H3t4, H3t5, H3t6, H3t7⟩
  ihave H4' := (toks_split (F := F) c arg4 X4) $$ H4
  icases H4' with ⟨H4d, H4t0, H4t1, H4t2, H4t3, H4t4, H4t5, H4t6, H4t7⟩
  sl_exec
  sl_for (loopI (F := F) c i arg1 arg2 arg3 arg4 arg7 arg8 arg9 arg10 T1 T2 X3 X4 hU hI f7 f8) $$ [H1 H2 H3d H3t0 H3t1 H3t2 H3t3 H3t4 H3t5 H3t6 H3t7 H4d H4t0 H4t1 H4t2 H4t3 H4t4 H4t5 H4t6 H4t7 HQ0 HQ1 HQ2 HQ3 HQ4 HQ5 HQ6 HQ7 HR0 HR1 HR2 HR3 HR4 HR5 HR6 HR7 H7 H8 HO]
  case region =>
    intro k acc
    unfold loopI
    rw [ACC7_succ, ACC8_succ]
    iintro ⟨HR, H7, H8, ⟨%W0, HO⟩⟩
    iapply (trip (F := F) c i arg1 harg1 arg2 harg2 arg3 harg3 arg4 harg4 arg5 harg5 arg6 harg6 arg7 harg7 arg8 harg8 arg9 arg10 _ T1 T2 X3 X4 hU hI k _ _ W0)
    isplitl [HR]; · iexact HR
    isplitl [H7]; · iexact H7
    isplitl [H8]; · iexact H8
    iexact HO
  · unfold loopI
    isplitl [H1 H2 H3d H3t0 H3t1 H3t2 H3t3 H3t4 H3t5 H3t6 H3t7 H4d H4t0 H4t1 H4t2 H4t3 H4t4 H4t5 H4t6 H4t7 HQ0 HQ1 HQ2 HQ3 HQ4 HQ5 HQ6 HQ7 HR0 HR1 HR2 HR3 HR4 HR5 HR6 HR7]
    ·
      isplitl [H1]; · iexact H1
      isplitl [H2]; · iexact H2
      isplitl [H3d]; · iexact H3d
      isplitl [H3t0]; · iexact H3t0
      isplitl [H3t1]; · iexact H3t1
      isplitl [H3t2]; · iexact H3t2
      isplitl [H3t3]; · iexact H3t3
      isplitl [H3t4]; · iexact H3t4
      isplitl [H3t5]; · iexact H3t5
      isplitl [H3t6]; · iexact H3t6
      isplitl [H3t7]; · iexact H3t7
      isplitl [H4d]; · iexact H4d
      isplitl [H4t0]; · iexact H4t0
      isplitl [H4t1]; · iexact H4t1
      isplitl [H4t2]; · iexact H4t2
      isplitl [H4t3]; · iexact H4t3
      isplitl [H4t4]; · iexact H4t4
      isplitl [H4t5]; · iexact H4t5
      isplitl [H4t6]; · iexact H4t6
      isplitl [H4t7]; · iexact H4t7
      isplitl [HQ0]; · iexact HQ0
      isplitl [HQ1]; · iexact HQ1
      isplitl [HQ2]; · iexact HQ2
      isplitl [HQ3]; · iexact HQ3
      isplitl [HQ4]; · iexact HQ4
      isplitl [HQ5]; · iexact HQ5
      isplitl [HQ6]; · iexact HQ6
      isplitl [HQ7]; · iexact HQ7
      isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      iexact HR7
    isplitl [H7]; · iexact H7
    isplitl [H8]; · iexact H8
    iexists _; iexact HO
  iintro %a HI
  unfold loopI
  icases HI with ⟨⟨H1, H2, H3d, H3t0, H3t1, H3t2, H3t3, H3t4, H3t5, H3t6, H3t7, H4d, H4t0, H4t1, H4t2, H4t3, H4t4, H4t5, H4t6, H4t7, HQ0, HQ1, HQ2, HQ3, HQ4, HQ5, HQ6, HQ7, HR0, HR1, HR2, HR3, HR4, HR5, HR6, HR7⟩, H7, H8, ⟨%W1, HO⟩⟩
  sl_exec
  sl_step
  iapply Hk
  isplitl [H5]
  · iexists _; isplitr; · ipureintro; exact harg5.read_unread _
    iexact H5
  isplitl [H6]
  · iexists _; isplitr; swap; · iexact H6
    ipureintro
    have hz : (![0] : Fin 1 → Nat) = fun _ => 0 := funext fun a => by fin_cases a; rfl
    rw [View.read_writes_eq_canon _ _ _ (View.cover_of_tiledL _ S512.size (by sl_kernel_rfl)), View.canon_unit_zero hz]
    rfl
  isplitl [H7]
  · iexists _, _; isplitr; swap; · iexact H7
    ipureintro; rfl
  isplitl [H8]
  · iexists _, _; isplitr; swap; · iexact H8
    ipureintro; rfl
  isplitl [HQ0]; · iexact HQ0
  isplitl [HQ1]; · iexact HQ1
  isplitl [HQ2]; · iexact HQ2
  isplitl [HQ3]; · iexact HQ3
  isplitl [HQ4]; · iexact HQ4
  isplitl [HQ5]; · iexact HQ5
  isplitl [HQ6]; · iexact HQ6
  isplitl [HQ7]; · iexact HQ7
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [H3d H3t0 H3t1 H3t2 H3t3 H3t4 H3t5 H3t6 H3t7]
  · iapply (toks_join (F := F) c arg3 X3)
    isplitl [H3d]; · iexact H3d
    isplitl [H3t0]; · iexact H3t0
    isplitl [H3t1]; · iexact H3t1
    isplitl [H3t2]; · iexact H3t2
    isplitl [H3t3]; · iexact H3t3
    isplitl [H3t4]; · iexact H3t4
    isplitl [H3t5]; · iexact H3t5
    isplitl [H3t6]; · iexact H3t6
    iexact H3t7
  isplitl [H4d H4t0 H4t1 H4t2 H4t3 H4t4 H4t5 H4t6 H4t7]
  · iapply (toks_join (F := F) c arg4 X4)
    isplitl [H4d]; · iexact H4d
    isplitl [H4t0]; · iexact H4t0
    isplitl [H4t1]; · iexact H4t1
    isplitl [H4t2]; · iexact H4t2
    isplitl [H4t3]; · iexact H4t3
    isplitl [H4t4]; · iexact H4t4
    isplitl [H4t5]; · iexact H4t5
    isplitl [H4t6]; · iexact H4t6
    iexact H4t7
  isplitl [H1]; · iexact H1
  isplitl [H2]; · iexact H2
  iexists _; iexact HO

end Body

end Cert.KernelIdeal.Hand

end
-- ==== Proof.KI.Rows.lean ====
/-
  What the two scratch buffers hold, row by row, after the gather loop.

  One landing replaces the 128 words of one row of a scratch buffer by the 128 words of one row of a packed table and
  keeps every other row. A trip is eight landings, into rows 8k … 8k + 7, so after it those rows hold the table rows
  named by the words at batch positions 512·i + 8k … 512·i + 8k + 7, and every other row is as before. After the 64
  trips every row r of the buffer holds the table row named by the word at batch position 512·i + r.
-/
import proofs.«411927_j1331439862348_2_alg».proof.Proof.KI.Trip
import Idealize.ShloMosaic.Lib.ValueIdx

noncomputable section

namespace Cert.KernelIdeal.Hand

open Cert.KernelIdeal Cert.KernelIdeal.Gen
open Idealize.ShloMosaic Idealize.ShloMosaic.TcCoe
open Idealize.ShloMosaic.ValueIdx

variable {F : FTy → Type} [FloatOps F]

/-- The view of one row of a buffer of n rows of 128 words (sliced out, the unit axis squeezed away) reads the buffer
    at the slice's image of the row's index behind the coordinate 0. -/
theorem read_rowview {sp : Space} {n : Nat} (M : Memref sig .tc sp ⟨3, ![n, 1, 128]⟩ .f32) (o : Fin 3 → Nat)
    (ho : ∀ a, o a + S1x1x128.size a ≤ (⟨3, ![n, 1, 128]⟩ : Shape).size a) (g : BufTy.Contents (Elt F) M.view.ty) (x : S1x128.Idx) :
    ((M.slice (Rect.unit (s := ⟨3, ![n, 1, 128]⟩) o S1x1x128.size ho) (fun _ => rfl)).squeeze S1x128 squeezes_S1x1x128_S1x128).view.read (Elt F) g x
      = M.view.read (Elt F) g ((Rect.unit (s := ⟨3, ![n, 1, 128]⟩) o S1x1x128.size ho).emb (Fin.cons ⟨0, Nat.one_pos⟩ x)) := by
  have h1 : ((M.slice (Rect.unit (s := ⟨3, ![n, 1, 128]⟩) o S1x1x128.size ho) (fun _ => rfl)).squeeze S1x128 squeezes_S1x1x128_S1x128).view.read (Elt F) g x
      = M.view.read (Elt F) g ((Rect.unit (s := ⟨3, ![n, 1, 128]⟩) o S1x1x128.size ho).emb
          (Shape.reshapeEquiv squeezes_S1x1x128_S1x128.numel_eq x)) := rfl
  rw [h1, Shape.reshapeEquiv_cons_one]

/-- The slice at row a places the row's word q at (a, 0, q). -/
theorem rowview_emb {n : Nat} (a : Nat) (ho : ∀ c, (![a, 0, 0] : Fin 3 → Nat) c + S1x1x128.size c ≤ (⟨3, ![n, 1, 128]⟩ : Shape).size c)
    (ha : a < n) (z : Fin 1) (q : Fin 128) :
    (Rect.unit (s := ⟨3, ![n, 1, 128]⟩) ![a, 0, 0] S1x1x128.size ho).emb (Fin.cons ⟨0, Nat.one_pos⟩ (ix2 z q))
      = ix3 (⟨a, ha⟩ : Fin n) (0 : Fin 1) q := by
  funext c
  apply Fin.ext
  rw [Rect.emb_apply]
  match c with
  | ⟨0, _⟩ => show a + 1 * 0 = a; omega
  | ⟨1, _⟩ => show 0 + 1 * z.val = 0; omega
  | ⟨2, _⟩ => show 0 + 1 * q.val = q.val; omega

/-- A scratch buffer after one landing, read at row r: at the destination row the source row's words, at any
    other row what was there before. -/
theorem read_land (D : Memref sig .tc .vmem S512x1x128 .f32) (od : Fin 3 → Nat) (hd : ∀ a, od a + S1x1x128.size a ≤ S512x1x128.size a)
    (S : Memref sig .tc .hbm S1000000x1x128 .f32) (os : Fin 3 → Nat) (hs : ∀ a, os a + S1x1x128.size a ≤ S1000000x1x128.size a)
    (X : BufTy.Contents (Elt F) S.view.ty) (f : BufTy.Contents (Elt F) D.view.ty) (a b : Nat)
    (hod : od = ![a, 0, 0]) (hos : os = ![b, 0, 0]) (hb : b < 1000000) (r : Fin 512) (q : Fin 128) :
    D.view.read (Elt F) (land D od hd S os hs X f) (ix3 r (0 : Fin 1) q)
      = if r.val = a then S.view.read (Elt F) X (ix3 (⟨b, hb⟩ : Fin 1000000) (0 : Fin 1) q)
        else D.view.read (Elt F) f (ix3 r (0 : Fin 1) q) := by
  subst hod hos
  unfold land
  by_cases h : r.val = a
  · rw [if_pos h]
    have ha : a < 512 := h ▸ r.isLt
    have er : r = (⟨a, ha⟩ : Fin 512) := Fin.ext h
    rw [er, ← rowview_emb a hd ha (0 : Fin 1) q, ← read_rowview D ![a, 0, 0] hd]
    rw [View.read_write_of_mem _ _ (Finset.mem_univ _)]
    show (srcRow S ![b, 0, 0] hs).view.read (Elt F) X (ix2 (0 : Fin 1) q) = _
    rw [read_rowview S ![b, 0, 0] hs, rowview_emb b hs hb]
  · rw [if_neg h]
    apply View.read_congr_at
    apply View.write_of_not_mem
    intro hm
    obtain ⟨x, _, hx⟩ := Finset.mem_map.mp hm
    have e : (dstRow D ![a, 0, 0] hd).view.emb x
        = D.view.emb ((Rect.unit (s := S512x1x128) ![a, 0, 0] S1x1x128.size hd).emb
            (Shape.reshapeEquiv squeezes_S1x1x128_S1x128.numel_eq x)) := rfl
    rw [e, Shape.reshapeEquiv_cons_one] at hx
    have h' := D.view.emb.injective hx
    have h0 := congrArg (fun i : S512x1x128.Idx => (i 0 : ℕ)) h'
    simp only [Rect.emb_apply] at h0
    have h4 : a + 1 * 0 = r.val := h0
    exact h (by omega)

/-- Table words at equal batch positions are the same word. -/
theorem word_congr (M : Memref sig .tc .smem S16384 .i32) (T : BufTy.Contents (Elt F) M.view.ty) (o o' : Fin 1 → Nat)
    (h : ∀ a, o a + S1.size a ≤ S16384.size a) (h' : ∀ a, o' a + S1.size a ≤ S16384.size a) (e : o = o') :
    word M T o h = word M T o' h' := by
  subst e; rfl

/-- One landing of the gather loop: into row m of the scratch buffer goes the table row named by the word at batch
    position 512·i + m, which is row m of the gathered rows; every other row is kept. -/
theorem read_land_word (D : Memref sig .tc .vmem S512x1x128 .f32) (od : Fin 3 → Nat) (hd : ∀ a, od a + S1x1x128.size a ≤ S512x1x128.size a)
    (S : Memref sig .tc .hbm S1000000x1x128 .f32) (os : Fin 3 → Nat) (hs : ∀ a, os a + S1x1x128.size a ≤ S1000000x1x128.size a)
    (X : BufTy.Contents (Elt F) S.view.ty) (f : BufTy.Contents (Elt F) D.view.ty)
    (M : Memref sig .tc .smem S16384 .i32) (T : BufTy.Contents (Elt F) M.view.ty)
    (hT : ∀ (R : LoadRect S16384) (j : R.shape.Idx), BitVec.toNat (M.view.readAt (Elt F) R T j) < 1000000)
    (i : grid0.Coords) (o : Fin 1 → Nat) (ho : ∀ a, o a + S1.size a ≤ S16384.size a) (m : Nat)
    (hod : od = ![m, 0, 0]) (hos : os = ![BitVec.toNat (word M T o ho), 0, 0]) (ho' : o = ![512 * (i 0).val + m])
    (r : Fin 512) (q : Fin 128) :
    D.view.read (Elt F) (land D od hd S os hs X f) (ix3 r (0 : Fin 1) q)
      = if r.val = m then gathered S X M T hT i (ix3 r (0 : Fin 1) q) else D.view.read (Elt F) f (ix3 r (0 : Fin 1) q) := by
  rw [read_land D od hd S os hs X f m (BitVec.toNat (word M T o ho)) hod hos (hT _ _) r q]
  by_cases h : r.val = m
  · rw [if_pos h, if_pos h]
    subst ho'
    subst h
    rfl
  · rw [if_neg h, if_neg h]

section Trip
variable (i : grid0.Coords) (arg1 : Memref sig .tc .smem S16384 .i32) (arg2 : Memref sig .tc .smem S16384 .i32)
  (arg3 : Memref sig .tc .hbm S1000000x1x128 .f32) (arg4 : Memref sig .tc .hbm S1000000x1x128 .f32)
  (arg7 : Memref sig .tc .vmem S512x1x128 .f32) (arg8 : Memref sig .tc .vmem S512x1x128 .f32)
  (T1 : BufTy.Contents (Elt F) arg1.view.ty) (T2 : BufTy.Contents (Elt F) arg2.view.ty)
  (X3 : BufTy.Contents (Elt F) arg3.view.ty) (X4 : BufTy.Contents (Elt F) arg4.view.ty)
  (hU : ∀ (R : LoadRect S16384) (j : R.shape.Idx), BitVec.toNat (arg1.view.readAt (Elt F) R T1 j) < 1000000)
  (hI : ∀ (R : LoadRect S16384) (j : R.shape.Idx), BitVec.toNat (arg2.view.readAt (Elt F) R T2 j) < 1000000)

/-- The first scratch buffer after trip k: rows 8k … 8k + 7 hold the gathered rows, every other row is kept. -/
theorem read_G7 (k : Fin k0_t1_loop.trips) (f : BufTy.Contents (Elt F) arg7.view.ty) (r : Fin 512) (q : Fin 128) :
    arg7.view.read (Elt F) (G7 (F := F) i arg1 arg3 arg7 T1 X3 hU k f) (ix3 r (0 : Fin 1) q)
      = if 8 * k.val ≤ r.val ∧ r.val < 8 * k.val + 8 then gathered arg3 X3 arg1 T1 hU i (ix3 r (0 : Fin 1) q)
        else arg7.view.read (Elt F) f (ix3 r (0 : Fin 1) q) := by
  have e1 : k0_off1 i k = ![512 * (i 0).val + 8 * k.val] := k0_off1_eq i k
  have e6 : k0_off6 i k = ![512 * (i 0).val + (8 * k.val + 1)] := by rw [k0_off6_eq, Nat.add_assoc]
  have e11 : k0_off11 i k = ![512 * (i 0).val + (8 * k.val + 2)] := by rw [k0_off11_eq, Nat.add_assoc]
  have e16 : k0_off16 i k = ![512 * (i 0).val + (8 * k.val + 3)] := by rw [k0_off16_eq, Nat.add_assoc]
  have e21 : k0_off21 i k = ![512 * (i 0).val + (8 * k.val + 4)] := by rw [k0_off21_eq, Nat.add_assoc]
  have e26 : k0_off26 i k = ![512 * (i 0).val + (8 * k.val + 5)] := by rw [k0_off26_eq, Nat.add_assoc]
  have e31 : k0_off31 i k = ![512 * (i 0).val + (8 * k.val + 6)] := by rw [k0_off31_eq, Nat.add_assoc]
  have e36 : k0_off36 i k = ![512 * (i 0).val + (8 * k.val + 7)] := by rw [k0_off36_eq, Nat.add_assoc]
  unfold G7
  rw [read_land_word arg7 _ _ arg3 (k0_off38 _) _ X3 _ arg1 T1 hU i _ _ _ (k0_off37_eq k) rfl e36,
    read_land_word arg7 _ _ arg3 (k0_off33 _) _ X3 _ arg1 T1 hU i _ _ _ (k0_off32_eq k) rfl e31,
    read_land_word arg7 _ _ arg3 (k0_off28 _) _ X3 _ arg1 T1 hU i _ _ _ (k0_off27_eq k) rfl e26,
    read_land_word arg7 _ _ arg3 (k0_off23 _) _ X3 _ arg1 T1 hU i _ _ _ (k0_off22_eq k) rfl e21,
    read_land_word arg7 _ _ arg3 (k0_off18 _) _ X3 _ arg1 T1 hU i _ _ _ (k0_off17_eq k) rfl e16,
    read_land_word arg7 _ _ arg3 (k0_off13 _) _ X3 _ arg1 T1 hU i _ _ _ (k0_off12_eq k) rfl e11,
    read_land_word arg7 _ _ arg3 (k0_off8 _) _ X3 _ arg1 T1 hU i _ _ _ (k0_off7_eq k) rfl e6,
    read_land_word arg7 _ _ arg3 (k0_off3 _) _ X3 _ arg1 T1 hU i _ _ _ (k0_off2_eq k) rfl e1]
  split_ifs <;> first | rfl | (exfalso; omega)

/-- The second scratch buffer after trip k: rows 8k … 8k + 7 hold the gathered rows, every other row is kept. -/
theorem read_G8 (k : Fin k0_t1_loop.trips) (f : BufTy.Contents (Elt F) arg8.view.ty) (r : Fin 512) (q : Fin 128) :
    arg8.view.read (Elt F) (G8 (F := F) i arg2 arg4 arg8 T2 X4 hI k f) (ix3 r (0 : Fin 1) q)
      = if 8 * k.val ≤ r.val ∧ r.val < 8 * k.val + 8 then gathered arg4 X4 arg2 T2 hI i (ix3 r (0 : Fin 1) q)
        else arg8.view.read (Elt F) f (ix3 r (0 : Fin 1) q) := by
  have e1 : k0_off1 i k = ![512 * (i 0).val + 8 * k.val] := k0_off1_eq i k
  have e6 : k0_off6 i k = ![512 * (i 0).val + (8 * k.val + 1)] := by rw [k0_off6_eq, Nat.add_assoc]
  have e11 : k0_off11 i k = ![512 * (i 0).val + (8 * k.val + 2)] := by rw [k0_off11_eq, Nat.add_assoc]
  have e16 : k0_off16 i k = ![512 * (i 0).val + (8 * k.val + 3)] := by rw [k0_off16_eq, Nat.add_assoc]
  have e21 : k0_off21 i k = ![512 * (i 0).val + (8 * k.val + 4)] := by rw [k0_off21_eq, Nat.add_assoc]
  have e26 : k0_off26 i k = ![512 * (i 0).val + (8 * k.val + 5)] := by rw [k0_off26_eq, Nat.add_assoc]
  have e31 : k0_off31 i k = ![512 * (i 0).val + (8 * k.val + 6)] := by rw [k0_off31_eq, Nat.add_assoc]
  have e36 : k0_off36 i k = ![512 * (i 0).val + (8 * k.val + 7)] := by rw [k0_off36_eq, Nat.add_assoc]
  unfold G8
  rw [read_land_word arg8 _ _ arg4 (k0_off40 _) _ X4 _ arg2 T2 hI i _ _ _ (k0_off39_eq k) rfl e36,
    read_land_word arg8 _ _ arg4 (k0_off35 _) _ X4 _ arg2 T2 hI i _ _ _ (k0_off34_eq k) rfl e31,
    read_land_word arg8 _ _ arg4 (k0_off30 _) _ X4 _ arg2 T2 hI i _ _ _ (k0_off29_eq k) rfl e26,
    read_land_word arg8 _ _ arg4 (k0_off25 _) _ X4 _ arg2 T2 hI i _ _ _ (k0_off24_eq k) rfl e21,
    read_land_word arg8 _ _ arg4 (k0_off20 _) _ X4 _ arg2 T2 hI i _ _ _ (k0_off19_eq k) rfl e16,
    read_land_word arg8 _ _ arg4 (k0_off15 _) _ X4 _ arg2 T2 hI i _ _ _ (k0_off14_eq k) rfl e11,
    read_land_word arg8 _ _ arg4 (k0_off10 _) _ X4 _ arg2 T2 hI i _ _ _ (k0_off9_eq k) rfl e6,
    read_land_word arg8 _ _ arg4 (k0_off5 _) _ X4 _ arg2 T2 hI i _ _ _ (k0_off4_eq k) rfl e1]
  split_ifs <;> first | rfl | (exfalso; omega)

/-- The load rectangle that is the whole scratch buffer at offset zero places every index at itself. -/
theorem idx_whole512 (y : S512x1x128.Idx) :
    (Rect.unit (s := S512x1x128) ![0, 0, 0] S512x1x128.size inb_S512x1x128_S512x1x128_0_0_0).toLoadRect.idx y = y := by
  funext a
  apply Fin.ext
  rw [LoadRect.idx_apply]
  match a with
  | ⟨0, _⟩ => show 0 + 1 * _ = _; rw [Nat.zero_add, Nat.one_mul]
  | ⟨1, _⟩ => show 0 + 1 * _ = _; rw [Nat.zero_add, Nat.one_mul]
  | ⟨2, _⟩ => show 0 + 1 * _ = _; rw [Nat.zero_add, Nat.one_mul]

/-- After n trips the first 8·n rows of the first scratch buffer hold the gathered rows. -/
theorem ACC7_rows (f₀ : BufTy.Contents (Elt F) arg7.view.ty) (n : Nat) (hn : n ≤ 64) (r : Fin 512) (q : Fin 128)
    (hr : r.val < 8 * n) :
    arg7.view.read (Elt F) (ACC7 (F := F) i arg1 arg3 arg7 T1 X3 hU f₀ n) (ix3 r (0 : Fin 1) q)
      = gathered arg3 X3 arg1 T1 hU i (ix3 r (0 : Fin 1) q) := by
  induction n with
  | zero => exact absurd hr (by omega)
  | succ n ih =>
    have hk : n < k0_t1_loop.trips := by rw [trips_eq]; omega
    have e := ACC7_succ (F := F) i arg1 arg3 arg7 T1 X3 hU f₀ ⟨n, hk⟩
    have e' : ACC7 (F := F) i arg1 arg3 arg7 T1 X3 hU f₀ (n + 1)
        = G7 (F := F) i arg1 arg3 arg7 T1 X3 hU ⟨n, hk⟩ (ACC7 (F := F) i arg1 arg3 arg7 T1 X3 hU f₀ n) := e
    rw [e', read_G7]
    by_cases h : 8 * n ≤ r.val ∧ r.val < 8 * n + 8
    · exact if_pos h
    · rw [if_neg h]
      exact ih (by omega) (by omega)

/-- After n trips the first 8·n rows of the second scratch buffer hold the gathered rows. -/
theorem ACC8_rows (f₀ : BufTy.Contents (Elt F) arg8.view.ty) (n : Nat) (hn : n ≤ 64) (r : Fin 512) (q : Fin 128)
    (hr : r.val < 8 * n) :
    arg8.view.read (Elt F) (ACC8 (F := F) i arg2 arg4 arg8 T2 X4 hI f₀ n) (ix3 r (0 : Fin 1) q)
      = gathered arg4 X4 arg2 T2 hI i (ix3 r (0 : Fin 1) q) := by
  induction n with
  | zero => exact absurd hr (by omega)
  | succ n ih =>
    have hk : n < k0_t1_loop.trips := by rw [trips_eq]; omega
    have e := ACC8_succ (F := F) i arg2 arg4 arg8 T2 X4 hI f₀ ⟨n, hk⟩
    have e' : ACC8 (F := F) i arg2 arg4 arg8 T2 X4 hI f₀ (n + 1)
        = G8 (F := F) i arg2 arg4 arg8 T2 X4 hI ⟨n, hk⟩ (ACC8 (F := F) i arg2 arg4 arg8 T2 X4 hI f₀ n) := e
    rw [e', read_G8]
    by_cases h : 8 * n ≤ r.val ∧ r.val < 8 * n + 8
    · exact if_pos h
    · rw [if_neg h]
      exact ih (by omega) (by omega)

/-- After the 64 trips, a load of the whole first scratch buffer reads the gathered rows, whatever the buffer
    held at the loop's entry. -/
theorem readAt_ACC7 (f₀ : BufTy.Contents (Elt F) arg7.view.ty) :
    arg7.view.readAt (Elt F) (Rect.unit (s := S512x1x128) ![0, 0, 0] S512x1x128.size inb_S512x1x128_S512x1x128_0_0_0).toLoadRect
        (ACC7 (F := F) i arg1 arg3 arg7 T1 X3 hU f₀ 64)
      = gathered arg3 X3 arg1 T1 hU i := by
  funext y
  rw [View.readAt_apply, idx_whole512 y]
  obtain ⟨a, b, c, rfl⟩ : ∃ a b c, (y : S512x1x128.Idx) = ix3 a b c := ⟨_, _, _, eq_ix3 y⟩
  have hb : b = 0 := Subsingleton.elim _ _
  subst hb
  exact ACC7_rows (F := F) i arg1 arg3 arg7 T1 X3 hU f₀ 64 (Nat.le_refl _) a c (by have := a.isLt; omega)

/-- After the 64 trips, a load of the whole second scratch buffer reads the gathered rows. -/
theorem readAt_ACC8 (f₀ : BufTy.Contents (Elt F) arg8.view.ty) :
    arg8.view.readAt (Elt F) (Rect.unit (s := S512x1x128) ![0, 0, 0] S512x1x128.size inb_S512x1x128_S512x1x128_0_0_0).toLoadRect
        (ACC8 (F := F) i arg2 arg4 arg8 T2 X4 hI f₀ 64)
      = gathered arg4 X4 arg2 T2 hI i := by
  funext y
  rw [View.readAt_apply, idx_whole512 y]
  obtain ⟨a, b, c, rfl⟩ : ∃ a b c, (y : S512x1x128.Idx) = ix3 a b c := ⟨_, _, _, eq_ix3 y⟩
  have hb : b = 0 := Subsingleton.elim _ _
  subst hb
  exact ACC8_rows (F := F) i arg2 arg4 arg8 T2 X4 hI f₀ 64 (Nat.le_refl _) a c (by have := a.isLt; omega)

end Trip

end Cert.KernelIdeal.Hand

end
-- ==== Proof.KI.Main.lean ====
/-
  The program up to its one region. Before the region @main packs each embedding table with its bias column into
  a table of 128-lane rows (pad, then the bias written into column 64, then a reshape to [1000000, 1, 128]); these
  five stretches of host operations run from the launch memory `m`, and the region is entered at the contents `V m`
  they leave. The two index vectors are the region's prefetched tables; no host operation writes an argument.
-/
import proofs.«411927_j1331439862348_2_alg».proof.Proof.Gen.KernelIdeal.Launch
import Idealize.ShloMosaic.Lib.Pipeline.Frame

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

variable (m : (ℓ : Loc nD τ sig) → Buf (Elt F) ℓ)

/-- Core `c`'s buffers when the region is entered. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main is the five stretches, then the region: holding the unscoped buffers at the launch contents it reaches the
    region holding them at `V m`. -/
theorem hmain (𝒱₀ : Variants) :
    Pipeline.HMainP (Ix := Unit) (Name := ℕ) (U := Pipeline.UD sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩)
    main_chain

/-- No host operation writes buffer `b` when `b` is none of the buffers the prefix writes: the region finds it as
    launched. -/
theorem V_of_not_written (c : Dev nD) (b : Ref sig .tc)
    (hb : b ≠ main_c ∧ b ≠ main_call0_v0 ∧ b ≠ main_v0 ∧ b ≠ main_v1 ∧ b ≠ main_c_0 ∧ b ≠ main_v2 ∧ b ≠ main_v3 ∧ b ≠ main_v4
      ∧ b ≠ main_c_1 ∧ b ≠ main_call1_v0 ∧ b ≠ main_v5 ∧ b ≠ main_v6 ∧ b ≠ main_c_2 ∧ b ≠ main_v7 ∧ b ≠ main_v8 ∧ b ≠ main_v9) :
    V m c b = m ((c : Thread nD τ).loc b) := by
  obtain ⟨h1, h2, h3, h4, h5, h6, h7, h8, h9, h10, h11, h12, h13, h14, h15, h16⟩ := hb
  refine StableHlo.after_of_forall_not_mem (b := Proc.devRef .tc b) _ _ (List.forall_iff_forall_mem.mp ?_)
  simp only [hostOps0, hostOps0_1, hostOps0_2, hostOps0_3, hostOps0_4, List.flatten_cons, List.flatten_nil, List.append_nil,
    List.cons_append, List.nil_append, List.Forall, StableHlo.nullary_writes, StableHlo.unary_writes, StableHlo.binary_writes,
    StableHlo.ternary_writes, StableHlo.reshape_writes, StableHlo.TRef.unary, StableHlo.TRef.binary, StableHlo.TRef.of, Finset.mem_singleton]
  repeat' apply And.intro
  all_goals first
    | exact StableHlo.devRef_ne_of_ne h1 | exact StableHlo.devRef_ne_of_ne h2 | exact StableHlo.devRef_ne_of_ne h3
    | exact StableHlo.devRef_ne_of_ne h4 | exact StableHlo.devRef_ne_of_ne h5 | exact StableHlo.devRef_ne_of_ne h6
    | exact StableHlo.devRef_ne_of_ne h7 | exact StableHlo.devRef_ne_of_ne h8 | exact StableHlo.devRef_ne_of_ne h9
    | exact StableHlo.devRef_ne_of_ne h10 | exact StableHlo.devRef_ne_of_ne h11 | exact StableHlo.devRef_ne_of_ne h12
    | exact StableHlo.devRef_ne_of_ne h13 | exact StableHlo.devRef_ne_of_ne h14 | exact StableHlo.devRef_ne_of_ne h15
    | exact StableHlo.devRef_ne_of_ne h16

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)

/-- The prefetched tables' contents at the region's entry: the two index vectors, on the one device. -/
def tbl : pre0.Contents (Elt F) := fun j => V m (0 : Dev nD) (pre0.ref j)

/-- The pipeline is admissible at any contents of the tables: no window's index map reads them. -/
abbrev adm : (pcfg0 (F := F)).Adm := ⟨tbl m, trivial⟩
abbrev cfgM : Pipeline.Cfg sig Λ₀ := cfg0 (adm m)

end Cert.KernelIdeal.Hand

end
-- ==== Proof.KI.Frame.lean ====
/-
  The frame of the program: every weakly fair execution of @main terminates, nothing faults, and the argument arrays
  end as they were.

  The one region runs 32 grid points. At each point the pipeline hands the body the bias block (window 0) and one of the
  output window's two staging buffers (window 1); the region's invariant is the kernel's own: its two scratch buffers at
  some contents, its sixteen DMA semaphore cells at zero, the two packed tables (which bypass the pipeline) whole at
  their region-entry contents, and half of each prefetched index table. The body gives all of it back as it found it,
  so the invariant is the same at every point. Every word of the two index tables names a row inside the packed
  tables (`InRange`): that is what each of the body's sixteen copies per trip needs of the word it has read.
-/
import proofs.«411927_j1331439862348_2_alg».proof.Proof.KI.Body
import proofs.«411927_j1331439862348_2_alg».proof.Proof.KI.Rows
import proofs.«411927_j1331439862348_2_alg».proof.Proof.KI.Main
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- On every device the tables hold the region-entry contents (there is one device). -/
theorem V_pre (c : Dev nD) (j : Fin 2) : V m c (pre0.ref j) = tbl m j := by
  obtain rfl : c = 0 := Subsingleton.elim _ _; rfl

/-! ## The operands the pipeline does not stage -/

/-- The two index tables, the two packed tables and the two scratch buffers, each its whole buffer as a memref. -/
abbrev tbM0 : Memref sig .tc .smem S16384 .i32 := Memref.whole main_arg0
abbrev tbM1 : Memref sig .tc .smem S16384 .i32 := Memref.whole main_arg1
abbrev hbM0 : Memref sig .tc .hbm S1000000x1x128 .f32 := Memref.whole main_v4
abbrev hbM1 : Memref sig .tc .hbm S1000000x1x128 .f32 := Memref.whole main_v9
abbrev scM0 : Memref sig .tc .vmem S512x1x128 .f32 := Memref.whole cc0_scratch0
abbrev scM1 : Memref sig .tc .vmem S512x1x128 .f32 := Memref.whole cc0_scratch1

/-- Every word of the two index tables names a row inside the packed tables. -/
def InRange : Prop :=
  (∀ (R : LoadRect S16384) (j : R.shape.Idx), BitVec.toNat (tbM0.view.readAt (Elt F) R (tbl m 0) j) < 1000000)
  ∧ (∀ (R : LoadRect S16384) (j : R.shape.Idx), BitVec.toNat (tbM1.view.readAt (Elt F) R (tbl m 1) j) < 1000000)

/-- The kernel's own DMA semaphore cells: the two arrays of eight. -/
abbrev osem0 : Fin 16 → SemLoc sig := fun j =>
  (![SemLoc.dma 3, SemLoc.dma 4, SemLoc.dma 5, SemLoc.dma 6, SemLoc.dma 7, SemLoc.dma 8, SemLoc.dma 9, SemLoc.dma 10,
     SemLoc.dma 11, SemLoc.dma 12, SemLoc.dma 13, SemLoc.dma 14, SemLoc.dma 15, SemLoc.dma 16, SemLoc.dma 17, SemLoc.dma 18] : Fin 16 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0) := by
  rw [Pipeline.ownSems0_eq_of_list c osem0 [0, 1, 2, 3, 4, 5, 6, 7, 8, 9, 10, 11, 12, 13, 14, 15] (by decide) (by decide)]; rfl

/-- The packed tables: unscoped, no window's array, no prefetched table. -/
def H0 : Finset (Ref sig .tc) := {main_v4, main_v9}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop((hbM0.view.loc (c : Thread nD τ) ↦{fullShare} V m c main_v4) ∗ (hbM1.view.loc (c : Thread nD τ) ↦{fullShare} V m c main_v9)) := by
  rw [BI.bigSep_eq_bigSepL_of_eq [main_v4, main_v9] (by decide) (by decide)]; rfl

/-- The region's invariant conjunct by conjunct. -/
theorem PhiD0_eq (c : Dev nD) :
    (Pipeline.ΦD osem0 spec0 H0 (V m) c : sProp 𝕄)
      = iprop(iprop((∃ d, owns (c : Thread nD τ) scM0 fullShare d) ∗ (∃ d, owns (c : Thread nD τ) scM1 fullShare d)) ∗ (∃ r, prngReg c r)
          ∗ iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0)
          ∗ iprop((hbM0.view.loc (c : Thread nD τ) ↦{fullShare} V m c main_v4) ∗ (hbM1.view.loc (c : Thread nD τ) ↦{fullShare} V m c main_v9))) := by
  rw [Pipeline.ΦD_eq, scopedRest0_eq, ownSems00_eq, hbmPts0_eq]; simp only [scM0, scM1, owns_whole]; try rfl

/-- The tables' halves the region hands the body, table by table. -/
theorem PhiT0_eq (c : Dev nD) :
    (Pipeline.ΦT pre0 (tbl m) c : sProp 𝕄)
      = iprop((tbM0.view.loc (c : Thread nD τ) ↦{fullShare.right} tbl m 0) ∗ (tbM1.view.loc (c : Thread nD τ) ↦{fullShare.right} tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The bias window's staging buffer holds its block at every point, fetched there or not. -/
theorem before0_0_of {c : Dev nD} (dat : Dat τ (Elt F) Unit ℕ (Pipeline.UD sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Each window's current staging memref at point `t`, as the pipeline passes it, and its wholeness. -/
abbrev ms0_0 (t : Fin (cfgM m).N) : Memref sig .tc .vmem S1 .f32 := spec0_0.stage ((cfgM m).slots t 0)
abbrev hs0_0 (t : Fin (cfgM m).N) : (ms0_0 m t).IsWhole := hstage0_0 (((cfgM m).slots t 0).cast nbuf0_0)
abbrev ms0_1 (t : Fin (cfgM m).N) : Memref sig .tc .vmem S512 .f32 := spec0_1.stage ((cfgM m).slots t 1)
abbrev hs0_1 (t : Fin (cfgM m).N) : (ms0_1 m t).IsWhole := hstage0_1 (((cfgM m).slots t 1).cast nbuf0_1)

/-- The kernel body at point `t`, on what the pipeline calls it with. -/
abbrev bodyAt0 (t : Fin (cfgM m).N) : Prog (TpuEff nD τ sig (Elt F) Λ₀ .tc) PUnit :=
  cc0__mf_kernel (grid0.coords t) (Memref.whole main_arg0) (Memref.isWhole_whole _) (Memref.whole main_arg1) (Memref.isWhole_whole _)
    (Memref.whole main_v4) (Memref.isWhole_whole _) (Memref.whole main_v9) (Memref.isWhole_whole _)
    (spec0_0.stage ((cfgM m).slots t 0)) (hstage0_0 (((cfgM m).slots t 0).cast nbuf0_0))
    (spec0_1.stage ((cfgM m).slots t 1)) (hstage0_1 (((cfgM m).slots t 1).cast nbuf0_1))
    (Memref.whole cc0_scratch0) (Memref.isWhole_whole _) (Memref.whole cc0_scratch1) (Memref.isWhole_whole _) cc0_scratch2 cc0_scratch3

/-! ## What the output block holds after each point, and the proof data -/

/-- What the body leaves in the output window's staging buffer at point `t`. -/
def outsAt (hR : InRange m) (c : Dev nD) (t : Fin (cfgM m).N) : Vec F S512 .f32 :=
  outVal (F := F) (grid0.coords t) tbM0 tbM1 hbM0 hbM1 (ms0_0 m t) (hs0_0 m t) (tbl m 0) (tbl m 1) (V m c main_v4) (V m c main_v9) hR.1 hR.2 (iblk m c 0 t)

/-- The proof data of the one pipeline on core `c`. -/
def dats (hR : InRange m) (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => outsAt m hR c t
  Φ _ := iprop(Pipeline.ΦD osem0 spec0 H0 (V m) c ∗ Pipeline.ΦT pre0 (tbl m) c)
  q _ := fullShare
  owed _ := 0

theorem A_eq (hR : InRange m) (c : Dev nD) (w : Fin (cfgM m).W) : (dats m hR 0 c).A w = V m c (Pipeline.arrRef spec0 w) := by
  dsimp only [dats]

theorem after0_0 (hR : InRange m) (c : Dev nD) (t : Fin (cfgM m).N) : (dats m hR 0 c).after 0 t = iblk m c 0 t := by dsimp only [dats]; try rfl
theorem after0_1 (hR : InRange m) (c : Dev nD) (t : Fin (cfgM m).N) : (dats m hR 0 c).after 1 t = outsAt m hR c t := by dsimp only [dats]; try rfl

theorem before0_0 (hR : InRange m) (c : Dev nD) (t : Fin (cfgM m).N) (d) : (dats m hR 0 c).before 0 t d = iblk m c 0 t :=
  before0_0_of m (dats m hR 0 c) (A_eq m hR c 0) (after0_0 m hR c) t d

/-! ## The body obligation -/

def bodyPre (hR : InRange m) (c : Dev nD) (t : Fin (cfgM m).N) : sProp 𝕄 :=
  iprop((dats m hR 0 c).Φ t.castSucc ∗ (dats m hR 0 c).owesAt () t.castSucc
    ∗ (∃ d, owns (c : Thread nD τ) (ms0_0 m t) fullShare ((dats m hR 0 c).before 0 t d))
    ∗ (∃ d, owns (c : Thread nD τ) (ms0_1 m t) fullShare ((dats m hR 0 c).before 1 t d)))

def bodyPost (hR : InRange m) (c : Dev nD) (t : Fin (cfgM m).N) : sProp 𝕄 :=
  iprop((dats m hR 0 c).Φ t.succ ∗ (dats m hR 0 c).owesAt () t.succ
    ∗ owns (c : Thread nD τ) (ms0_0 m t) fullShare ((dats m hR 0 c).after 0 t)
    ∗ owns (c : Thread nD τ) (ms0_1 m t) fullShare ((dats m hR 0 c).after 1 t))

/-- The body at any point: the invariant hands the run its scratch buffers, its cells at zero, the packed tables and the
    index tables' halves, and takes them back as they were; the core's recorded waits go in at whatever the points
    before left and come back with this point's. -/
theorem sound_body (hR : InRange m) (c : Dev nD) (t : Fin (cfgM m).N) :
    bodyPre m hR c t ⊢ wp frame (wpE (defs₀ (F := F)) Variants.none c none) Set.univ (bodyAt0 m t) (fun _ => bodyPost m hR c t) := by
  unfold bodyPre bodyPost bodyAt0
  simp only [before0_0]
  rw [show (dats m hR 0 c).Φ t.succ = (dats m hR 0 c).Φ t.castSucc from rfl, after0_0, after0_1]
  rw [show (dats m hR 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hR 0 c).owed t.castSucc = 0 from rfl, show (dats m hR 0 c).owed t.succ = 0 from rfl]
  unfold outsAt
  iintro ⟨⟨⟨⟨HS0, HS1⟩, Hg, ⟨Hq0, Hq1, Hq2, Hq3, Hq4, Hq5, Hq6, Hq7, Hq8, Hq9, Hq10, Hq11, Hq12, Hq13, Hq14, Hq15⟩, ⟨Hh0, Hh1⟩⟩, ⟨HT0, HT1⟩⟩, ⟨%W, -, HW⟩, ⟨%d0, H0⟩, ⟨%d1, H1⟩⟩
  iapply (sound_kernel (F := F) c (grid0.coords t) tbM0 (Memref.isWhole_whole _) tbM1 (Memref.isWhole_whole _) hbM0 (Memref.isWhole_whole _) hbM1 (Memref.isWhole_whole _)
    (ms0_0 m t) (hs0_0 m t) (ms0_1 m t) (hs0_1 m t) scM0 (Memref.isWhole_whole _) scM1 (Memref.isWhole_whole _) cc0_scratch2 cc0_scratch3
    (tbl m 0) (tbl m 1) (V m c main_v4) (V m c main_v9) hR.1 hR.2
    (fun f₀ => readAt_ACC7 (F := F) _ _ _ _ _ _ _ f₀) (fun f₀ => readAt_ACC8 (F := F) _ _ _ _ _ _ _ f₀) (iblk m c 0 t) W _)
  isplitl [H0]; · iexact H0
  isplitl [H1]; · iexists _; iexact H1
  isplitl [HS0]; · iexact HS0
  isplitl [HS1]; · iexact HS1
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  isplitl [HT0]; · iexact HT0
  isplitl [HT1]; · iexact HT1
  isplitl [HW]; · iexact HW
  iintro ⟨H0, H1, HS0, HS1, Hq0, Hq1, Hq2, Hq3, Hq4, Hq5, Hq6, Hq7, Hq8, Hq9, Hq10, Hq11, Hq12, Hq13, Hq14, Hq15, Hh0, Hh1, HT0, HT1, ⟨%W', HW'⟩⟩
  isplitl [HS0 HS1 Hg Hq0 Hq1 Hq2 Hq3 Hq4 Hq5 Hq6 Hq7 Hq8 Hq9 Hq10 Hq11 Hq12 Hq13 Hq14 Hq15 Hh0 Hh1 HT0 HT1]
  · isplitl [HS0 HS1 Hg Hq0 Hq1 Hq2 Hq3 Hq4 Hq5 Hq6 Hq7 Hq8 Hq9 Hq10 Hq11 Hq12 Hq13 Hq14 Hq15 Hh0 Hh1]
    · isplitl [HS0 HS1]
      · isplitl [HS0]; · iexact HS0
        iexact HS1
      isplitl [Hg]; · iexact Hg
      isplitl [Hq0 Hq1 Hq2 Hq3 Hq4 Hq5 Hq6 Hq7 Hq8 Hq9 Hq10 Hq11 Hq12 Hq13 Hq14 Hq15]
      ·
        isplitl [Hq0]; · iexact Hq0
        isplitl [Hq1]; · iexact Hq1
        isplitl [Hq2]; · iexact Hq2
        isplitl [Hq3]; · iexact Hq3
        isplitl [Hq4]; · iexact Hq4
        isplitl [Hq5]; · iexact Hq5
        isplitl [Hq6]; · iexact Hq6
        isplitl [Hq7]; · iexact Hq7
        isplitl [Hq8]; · iexact Hq8
        isplitl [Hq9]; · iexact Hq9
        isplitl [Hq10]; · iexact Hq10
        isplitl [Hq11]; · iexact Hq11
        isplitl [Hq12]; · iexact Hq12
        isplitl [Hq13]; · iexact Hq13
        isplitl [Hq14]; · iexact Hq14
        iexact Hq15
      isplitl [Hh0]; · iexact Hh0
      iexact Hh1
    isplitl [HT0]; · iexact HT0
    iexact HT1
  isplitl [HW']
  · iexists W'; isplitr; · ipureintro; exact fun _ _ => Or.inl trivial
    iexact HW'
  isplitl [H0]; · iexact H0
  iexact H1

/-- The library's body obligation, at every point. -/
theorem body_obligation (hR : InRange m) (c : Dev nD) : BodyObligation (dats (F := F) m hR 0 c) (defs₀ (F := F)) Variants.none () Set.univ := fun t => by
  rw [bigSep_W0, bigSep_W0]
  exact sound_body m hR c t

/-! ## The run and the frame -/

set_option backward.isDefEq.respectTransparency.types false in
/-- From any memory with zero counters: every weakly fair execution of @main terminates, and every final state has each
    window's array at what the proof data computes and every other unscoped buffer as the region found it. -/
theorem run_main (hR : InRange m) :
    θ_run defs (onTc (τ := τ) (main (F := F))) (s₀ m ρ) (Pipeline.FramePost (Pipeline.pin pcfgs fun _ => adm m) (dats m hR) 0 (V m)) :=
  Pipeline.θ_run_frameP_dma pcfgs (fun _ => adm m) (dats m hR) (0 : Fin 1) launch0 osem0 defs₀ Variants.none ownSemFacts0 H0 H0_sub m ρ main
    (hbody := fun c => (body_obligation m hR c).loose) (hshare := fun c => (dats m hR 0 c).share_full fun _ => rfl)
    (howed := fun _ _ => rfl) (V := V m) (hmain := hmain m Variants.none) (hA := A_eq m hR) (hpf := V_pre m)
    (hin := fun _ => .rfl)
    (hout := fun c => (show iprop(Pipeline.ΦD osem0 spec0 H0 (V m) c ∗ Pipeline.ΦT pre0 (tbl m) c) ⊢ Pipeline.ΦD osem0 spec0 H0 (V m) c from by
      iintro ⟨H, -⟩; iexact H))

/-- The frame claim's post from the frame run's: a staged input by the library's read of its array, an array no
    window stages by the post's second clause, each then as launched (no host operation writes an argument). -/
theorem frame_of (hR : InRange m)
    (h : θ_run defs (onTc (τ := τ) (main (F := F))) (s₀ m ρ) (Pipeline.FramePost (Pipeline.pin pcfgs fun _ => adm m) (dats m hR) 0 (V m))) :
    θ_run defs (onTc (τ := τ) (main (F := F))) ⟨m, fun _ => 0, ρ⟩ (fun r => ∀ c : Dev nD,
      r.2.mem ((c.tc : Thread nD τ).loc main_v10) = (dats m hR 0 c).arrAt 1 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1 1,
      ((h c).2 main_arg0 (Pipeline.mem_restRefs_of (win := spec0) main_arg0 (by decide) (by decide))).trans (V_main_arg0 m c),
      ((h c).2 main_arg1 (Pipeline.mem_restRefs_of (win := spec0) main_arg1 (by decide) (by decide))).trans (V_main_arg1 m c),
      ((h c).2 main_arg2 (Pipeline.mem_restRefs_of (win := spec0) main_arg2 (by decide) (by decide))).trans (V_main_arg2 m c),
      ((h c).2 main_arg3 (Pipeline.mem_restRefs_of (win := spec0) main_arg3 (by decide) (by decide))).trans (V_main_arg3 m c),
      ((h c).2 main_arg4 (Pipeline.mem_restRefs_of (win := spec0) main_arg4 (by decide) (by decide))).trans (V_main_arg4 m c),
      ((h c).2 main_arg5 (Pipeline.mem_restRefs_of (win := spec0) main_arg5 (by decide) (by decide))).trans (V_main_arg5 m c),
      ((h c).1 0).trans ((((dats m hR 0 c).arrAt_in 0 rfl _).trans ((A_eq m hR c 0).trans (V_main_arg6 m c))))⟩) h

end Cert.KernelIdeal.Hand

end
-- ==== Proof.KI.Reads.lean ====
/-
  Three facts about reading whole buffers.

  A load through the view of a WHOLE buffer reads the buffer's contents at the index the load's rectangle places
  each of its multi-indices at. Hence: (A) under the precondition every word a load reads off either index table is
  a row number below 1000000; (B) the word of an index table at batch position n is entry n of the index vector as
  launched; (C) a load of the whole one-word block of a whole one-word buffer reads what the buffer holds.
-/
import proofs.«411927_j1331439862348_2_alg».proof.Proof.KI.Main
import proofs.«411927_j1331439862348_2_alg».proof.Proof.KI.Canon
import proofs.«411927_j1331439862348_2_alg».proof.Proof.Words
import proofs.«411927_j1331439862348_2_alg».proof.Proof.Gen.Pre_finite_inputs
import Idealize.ShloMosaic.Lib.ValueIdx

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

/-- The first prefetched table is the first index vector as launched: no host operation writes it. -/
theorem tbl0 : tbl m 0 = m (((0 : Dev nD).tc : Thread nD τ).loc main_arg0) := V_main_arg0 m 0
/-- The second prefetched table is the second index vector as launched. -/
theorem tbl1 : tbl m 1 = m (((0 : Dev nD).tc : Thread nD τ).loc main_arg1) := V_main_arg1 m 0

/-- Under the precondition, whatever rectangle a load reads an index table through, every word read is below 1000000:
    the table is the index vector as launched, the load reads one of its entries, and every entry is in range. -/
theorem ranges_of_pre
    (h : ∀ c : Dev nD, Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = (fun _ => 1#1)) :
    (∀ (R : LoadRect S16384) (j : R.shape.Idx), BitVec.toNat ((Memref.whole main_arg0 : Memref sig .tc .smem S16384 .i32).view.readAt (Elt F) R (tbl m 0) j) < 1000000)
    ∧ (∀ (R : LoadRect S16384) (j : R.shape.Idx), BitVec.toNat ((Memref.whole main_arg1 : Memref sig .tc .smem S16384 .i32).view.readAt (Elt F) R (tbl m 1) j) < 1000000) := by
  obtain ⟨h0, h1⟩ := Cert.MF.index_ranges (F := F) _ _ _ _ _ _ _ (h 0)
  refine ⟨fun R j => ?_, fun R j => ?_⟩
  · rw [tbl0]; exact h0 (R.idx j)
  · rw [tbl1]; exact h1 (R.idx j)

/-- The unit rectangle at offset n of one element, read at its first index, is entry n: the user word at batch
    position n is entry n of the first index vector as launched. -/
theorem word_users (n : Nat) (hn : n < 16384) (h : ∀ a, (![n] : Fin 1 → Nat) a + S1.size a ≤ S16384.size a) :
    word (Memref.whole main_arg0) (tbl m 0) ![n] h = (m (((0 : Dev nD).tc : Thread nD τ).loc main_arg0) : S16384.Idx → BitVec 32) (ValueIdx.ix1 (⟨n, hn⟩ : Fin 16384)) := by
  have e : (Rect.unit (s := S16384) ![n] S1.size h).toLoadRect.idx (Shape.Idx.first (numel1_S1.symm ▸ Nat.one_pos))
      = ValueIdx.ix1 (⟨n, hn⟩ : Fin 16384) := by
    funext a
    apply Fin.ext
    rw [LoadRect.idx_apply]
    match a with
    | ⟨0, _⟩ => show n + 1 * 0 = n; omega
  rw [tbl0]
  unfold word
  rw [View.readAt_apply, e]
  rfl

/-- Likewise the item word at batch position n is entry n of the second index vector as launched. -/
theorem word_items (n : Nat) (hn : n < 16384) (h : ∀ a, (![n] : Fin 1 → Nat) a + S1.size a ≤ S16384.size a) :
    word (Memref.whole main_arg1) (tbl m 1) ![n] h = (m (((0 : Dev nD).tc : Thread nD τ).loc main_arg1) : S16384.Idx → BitVec 32) (ValueIdx.ix1 (⟨n, hn⟩ : Fin 16384)) := by
  have e : (Rect.unit (s := S16384) ![n] S1.size h).toLoadRect.idx (Shape.Idx.first (numel1_S1.symm ▸ Nat.one_pos))
      = ValueIdx.ix1 (⟨n, hn⟩ : Fin 16384) := by
    funext a
    apply Fin.ext
    rw [LoadRect.idx_apply]
    match a with
    | ⟨0, _⟩ => show n + 1 * 0 = n; omega
  rw [tbl1]
  unfold word
  rw [View.readAt_apply, e]
  rfl

/-- The rectangle at offset zero of the full size places every index at itself, so a load of the whole one-word
    block of a whole buffer held at the contents that read x reads x. -/
theorem load_whole_S1 (M : Memref sig .tc .vmem S1 .f32) (hM : M.IsWhole) (x : Vec F S1 .f32) :
    M.view.readAt (Elt F) (Rect.unit (s := S1) ![0] S1.size inb_S1_S1_0).toLoadRect (hM.unread x) = x := by
  funext y
  have e : (Rect.unit (s := S1) ![0] S1.size inb_S1_S1_0).toLoadRect.idx y = y := by
    funext a
    apply Fin.ext
    rw [LoadRect.idx_apply]
    match a with
    | ⟨0, _⟩ => show 0 + 1 * _ = _; rw [Nat.zero_add, Nat.one_mul]
  rw [View.readAt_apply, e]
  exact congrFun (hM.read_unread x) y

end Cert.KernelIdeal.Hand

end
-- ==== Proof.LibScatterAtPosition.lean ====
/-
  A scatter read at ONE position of its operand.

  The host's scatter is a left fold, over the update indices in order, of point updates: update `j` lands on the
  operand position `d.resultIdx? j idx` (nowhere, when that is `none`) and replaces the element there by the body
  `f` applied to it and the update's element. Read at one position `i` the fold needs only what happens AT `i`:
    * `scatter_apply_of_miss`: if no update lands on `i`, the result there is the operand's element;
    * `scatter_apply_of_hit`:  if exactly one update `j` lands on `i`, the result there is `f (x i) (upd j)`.
  Neither mentions the extents, the dimension numbers or the contents of the index array beyond where the updates
  land, so neither makes Lean evaluate a fold or an index array of literal size. They rest on two lemmas about any
  left fold of steps that each touch at most one position (`foldl_step_miss`, `foldl_step_hit`).
  Typical use: `x.at[rows, cols].set(v)` at pairwise distinct in-bounds positions (a diagonal, a permutation) —
  show where update `j` lands, that distinct updates land on distinct positions, and split on whether `i` is hit.
-/
import Idealize.ShloMosaic.PureOps.ShapeOps

namespace Cert.Lib

open Idealize.ShloMosaic

/-! ## A scatter whose updates land on pairwise distinct positions, read at a position

The host's scatter is a left fold of point updates over the update indices. Read at one position of the operand it
needs only what happens AT that position: if no update lands there the operand's element survives, and if exactly one
does the result is the body applied to the operand's element and that update. Neither statement mentions the extents,
the dimension numbers or the index array beyond where the updates land. -/

section ScatterAtAPosition
/-- A left fold of steps that each leave position `i` alone leaves it alone. -/
theorem foldl_step_miss {ι κ α : Type} (pos : κ → Option ι) (step : (ι → α) → κ → ι → α)
    (hmiss : ∀ r n i, pos n ≠ some i → step r n i = r i) :
    ∀ (l : List κ) (x : ι → α) (i : ι), (∀ n ∈ l, pos n ≠ some i) → l.foldl step x i = x i
  | [], _, _, _ => rfl
  | a :: l, x, i, h => by
    rw [List.foldl_cons, foldl_step_miss pos step hmiss l (step x a) i (fun n hn => h n (List.mem_cons_of_mem _ hn)),
      hmiss x a i (h a List.mem_cons_self)]

/-- A left fold of point updates, over a list without repetition in which exactly `n` lands on position `i`,
    holds at `i` that one update applied to the starting value. -/
theorem foldl_step_hit {ι κ α : Type} (f : α → α → α) (pos : κ → Option ι) (v : κ → α) (step : (ι → α) → κ → ι → α)
    (hhit : ∀ r n i, pos n = some i → step r n i = f (r i) (v n))
    (hmiss : ∀ r n i, pos n ≠ some i → step r n i = r i) :
    ∀ (l : List κ) (x : ι → α) (i : ι) (n : κ), l.Nodup → n ∈ l → pos n = some i →
      (∀ n' ∈ l, pos n' = some i → n' = n) → l.foldl step x i = f (x i) (v n)
  | [], _, _, _, _, hn, _, _ => absurd hn List.not_mem_nil
  | a :: l, x, i, n, hnd, hn, hp, hu => by
    rw [List.foldl_cons]
    have hnd' := List.nodup_cons.1 hnd
    by_cases han : a = n
    · subst han
      rw [foldl_step_miss pos step hmiss l (step x a) i (fun n' hn' e => hnd'.1 (hu n' (List.mem_cons_of_mem _ hn') e ▸ hn')),
        hhit x a i hp]
    · have hn' : n ∈ l := (List.mem_cons.1 hn).resolve_left (fun e => han e.symm)
      rw [foldl_step_hit f pos v step hhit hmiss l (step x a) i n hnd'.2 hn' hp (fun n' h' => hu n' (List.mem_cons_of_mem _ h')),
        hmiss x a i (fun e => han (hu a List.mem_cons_self e))]

variable {α : Type} {s si u : Shape} {w : Nat}

/-- A scatter read at a position no update lands on is the operand there. -/
theorem scatter_apply_of_miss (d : ScatterDims s si u) (f : α → α → α) (x : s.Idx → α) (idx : IVec si w) (upd : u.Idx → α)
    (i : s.Idx) (h : ∀ j, d.resultIdx? j idx ≠ some i) : Host.scatter d f x idx upd i = x i := by
  unfold Host.scatter
  refine foldl_step_miss (fun n => d.resultIdx? (u.rowMajor.symm n) idx) _ ?_ _ x i (fun n _ => h _)
  intro r n i' hne
  generalize d.resultIdx? (u.rowMajor.symm n) idx = o at hne
  cases o with
  | none => rfl
  | some i0 => exact if_neg (fun e => hne (congrArg some e.symm))

/-- A scatter read at a position exactly one update lands on is the body applied to the operand there and that update. -/
theorem scatter_apply_of_hit (d : ScatterDims s si u) (f : α → α → α) (x : s.Idx → α) (idx : IVec si w) (upd : u.Idx → α)
    (i : s.Idx) (j : u.Idx) (hj : d.resultIdx? j idx = some i) (hu : ∀ j', d.resultIdx? j' idx = some i → j' = j) :
    Host.scatter d f x idx upd i = f (x i) (upd j) := by
  unfold Host.scatter
  refine (foldl_step_hit f (fun n => d.resultIdx? (u.rowMajor.symm n) idx) (fun n => upd (u.rowMajor.symm n))
    _ ?_ ?_ (List.finRange u.numel) x i (u.rowMajor j) (List.nodup_finRange _) (List.mem_finRange _)
      ?_ (fun n' _ e => ?_)).trans ?_
  · intro r n i' e
    simp only [e]
    exact if_pos trivial
  · intro r n i' hne
    generalize d.resultIdx? (u.rowMajor.symm n) idx = o at hne
    cases o with
    | none => rfl
    | some i0 => exact if_neg (fun e => hne (congrArg some e.symm))
  · simp only [Equiv.symm_apply_apply]; exact hj
  · have := hu _ e
    rw [← this, Equiv.apply_symm_apply]
  · simp only [Equiv.symm_apply_apply]

end ScatterAtAPosition

end Cert.Lib
-- ==== Proof.KI.Tables.lean ====
/-
  The two packed tables at the region's entry, read at an index.

  Before its region the program packs each embedding table with its bias column into rows of 128 lanes: the table
  [1000000, 64] is padded on the right with zeros to [1000000, 128]; the bias [1000000, 1], flattened to a vector,
  is written into column 64 by one scatter whose single index is the word 64 and whose update window is the whole
  column (update `j` lands on position (j, 64), and on no other); the result is given a unit middle axis,
  [1000000, 1, 128]. Read at row `r`, lane `q`, the packed table therefore holds
      the embedding's entry (r, q)   for q < 64,
      the bias of row r              for q = 64,
      zero                           for q > 64.
  `packedTable` is that chain of operations over any two arrays; `packedTable_apply` reads it at an index, each
  operation by its own read-at-an-index law (a reshape keeps the row-major position, a pad is the operand inside and
  the pad value outside, a scatter is the operand where no update lands and the update where exactly one does);
  `V_main_v4_eq` / `V_main_v9_eq` say the region's entry contents of the two packed buffers are that chain over
  the launch contents of the user side's and the item side's arguments.
-/
import proofs.«411927_j1331439862348_2_alg».proof.Proof.KI.Main
import proofs.«411927_j1331439862348_2_alg».proof.Proof.LibScatterAtPosition
import Idealize.ShloMosaic.Lib.KernelVsHost

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.ValueIdx

/-- An embedding table `x` and its bias column `b` packed into rows of 128 lanes with a unit middle axis: `x`
    padded with zeros to 128 columns, `b` written into column 64, reshaped. -/
def packedTable {F : FTy → Type} [FloatOps F] (x : S1000000x64.Idx → F .f32) (b : S1000000x1.Idx → F .f32) :
    S1000000x1x128.Idx → F .f32 :=
  fun i => shapeCast S1000000x1x128
    (Host.scatter scatter_S1000000x128_S1_S1000000_0_1_1_0 (fun _ b => b)
      (pad S1000000x128 ![0, 0] ![0, 64] ![0, 0] x (sitofp .f32 (constantI S_ 32 0#32)) pads_S1000000x64_S1000000x128_000_0640 h_S_)
      (broadcastInDim S1 ![] bcast_S_S1 (constantI S_ 32 64#32))
      (fun i => shapeCast S1000000 b shapeCasts_S1000000x1_S1000000 i))
    shapeCasts_S1000000x128_S1000000x1x128 i

/-! ## Where the scatter's updates land

The scatter's dimension numbers: the one update window axis is the updates' axis 0 and goes to the operand's axis 0
(axis 1 is inserted); the index vector has the one component, for operand axis 1. So on axis 0 the start is 0 and the
window coordinate is the update's row; on axis 1 the start is the index, 64, and the window coordinate is 0. -/

/-- The one scatter index is the word 64, whatever the position read. -/
private theorem idx64 (k : S1.Idx) : (broadcastInDim S1 ![] bcast_S_S1 (constantI S_ 32 64#32)) k = 64#32 := rfl

private theorem start_zero (j : S1000000.Idx) (idx : IVec S1 32) :
    scatter_S1000000x128_S1_S1000000_0_1_1_0.start j idx (0 : Fin 2) = 0 := by
  unfold ScatterDims.start
  rw [dif_neg (by decide)]

private theorem start_one (j : S1000000.Idx) :
    scatter_S1000000x128_S1_S1000000_0_1_1_0.start j (broadcastInDim S1 ![] bcast_S_S1 (constantI S_ 32 64#32)) (1 : Fin 2) = 64 := by
  unfold ScatterDims.start
  rw [dif_pos (by decide)]
  rw [idx64]
  decide

private theorem window_zero (j : S1000000.Idx) : scatter_S1000000x128_S1_S1000000_0_1_1_0.window j (0 : Fin 2) = (j 0).val := by
  unfold ScatterDims.window
  rw [dif_pos (by decide)]
  exact congrArg (fun a => (j a).val) (Subsingleton.elim _ _)

private theorem window_one (j : S1000000.Idx) : scatter_S1000000x128_S1_S1000000_0_1_1_0.window j (1 : Fin 2) = 0 := by
  unfold ScatterDims.window
  rw [dif_neg (by decide)]

/-- Update `j` (a row number) lands on column 64 of row `j`. -/
private theorem lands (j : S1000000.Idx) :
    scatter_S1000000x128_S1_S1000000_0_1_1_0.resultIdx? j (broadcastInDim S1 ![] bcast_S_S1 (constantI S_ 32 64#32))
      = some (ix2 (j 0) (⟨64, by decide⟩ : Fin 128)) := by
  have hj : (j 0).val < 1000000 := (j 0).isLt
  unfold ScatterDims.resultIdx?
  have h : ∀ a : Fin 2,
      0 ≤ scatter_S1000000x128_S1_S1000000_0_1_1_0.start j (broadcastInDim S1 ![] bcast_S_S1 (constantI S_ 32 64#32)) a
            + scatter_S1000000x128_S1_S1000000_0_1_1_0.window j a
      ∧ scatter_S1000000x128_S1_S1000000_0_1_1_0.start j (broadcastInDim S1 ![] bcast_S_S1 (constantI S_ 32 64#32)) a
            + scatter_S1000000x128_S1_S1000000_0_1_1_0.window j a < S1000000x128.size a := by
    refine Fin.forall_fin_two.2 ⟨?_, ?_⟩
    · rw [start_zero, window_zero]
      show (0 : ℤ) ≤ 0 + ((j 0).val : ℤ) ∧ 0 + ((j 0).val : ℤ) < ((1000000 : ℕ) : ℤ)
      omega
    · rw [start_one, window_one]
      show (0 : ℤ) ≤ 64 + ((0 : ℕ) : ℤ) ∧ 64 + ((0 : ℕ) : ℤ) < ((128 : ℕ) : ℤ)
      omega
  rw [dif_pos h]
  refine congrArg some (funext ?_)
  refine Fin.forall_fin_two.2 ⟨Fin.ext ?_, Fin.ext ?_⟩
  · show (scatter_S1000000x128_S1_S1000000_0_1_1_0.start j (broadcastInDim S1 ![] bcast_S_S1 (constantI S_ 32 64#32)) 0
            + scatter_S1000000x128_S1_S1000000_0_1_1_0.window j 0).toNat = (j 0).val
    rw [start_zero, window_zero]
    omega
  · show (scatter_S1000000x128_S1_S1000000_0_1_1_0.start j (broadcastInDim S1 ![] bcast_S_S1 (constantI S_ 32 64#32)) 1
            + scatter_S1000000x128_S1_S1000000_0_1_1_0.window j 1).toNat = 64
    rw [start_one, window_one]
    omega

/-! ## The operations read at an index -/

/-- The padded table at row `r`, column `q`: the embedding's entry left of column 64, zero from there on. -/
private theorem padded_apply (x : S1000000x64.Idx → Ideal .f32) (r : Fin 1000000) (q : Fin 128) :
    pad S1000000x128 ![0, 0] ![0, 64] ![0, 0] x (sitofp .f32 (constantI S_ 32 0#32)) pads_S1000000x64_S1000000x128_000_0640 h_S_ (ix2 r q)
      = if h : q.val < 64 then x (ix2 r ⟨q.val, h⟩) else 0 := by
  by_cases h : q.val < 64
  · rw [dif_pos h]
    refine pad_apply_of_inside _ _ _ x _ _ _ (ix2 r q) (ix2 r ⟨q.val, h⟩) ?_
    refine Fin.forall_fin_two.2 ⟨?_, ?_⟩
    · show r.val = 0 + r.val * (0 + 1)
      omega
    · show q.val = 0 + q.val * (0 + 1)
      omega
  · rw [dif_neg h]
    rw [pad_apply_of_not_inside _ _ _ x _ _ _ (ix2 r q) (1 : Fin 2) ?_]
    · exact sitofp_zero
    · show ¬(0 ≤ q.val ∧ (q.val - 0) % (0 + 1) = 0 ∧ (q.val - 0) / (0 + 1) < 64)
      omega

/-- The bias column as a vector: entry `j` is the column's row `j`. -/
private theorem bias_apply {α : Type} (b : S1000000x1.Idx → α) (j : S1000000.Idx) :
    shapeCast S1000000 b shapeCasts_S1000000x1_S1000000 j = b (ix2 (j 0) (0 : Fin 1)) := by
  refine shapeCast_apply b _ j (ix2 (j 0) (0 : Fin 1)) ?_
  rw [Shape.rowMajor_val_two, Shape.rowMajor_val_one]
  show (j 0).val * 1 + 0 = (j 0).val
  omega

/-- The table with a unit middle axis reads the table without it. -/
private theorem unit_axis_apply {α : Type} (y : S1000000x128.Idx → α) (r : Fin 1000000) (q : Fin 128) :
    shapeCast S1000000x1x128 y shapeCasts_S1000000x128_S1000000x1x128 (ix3 r (0 : Fin 1) q) = y (ix2 r q) := by
  refine shapeCast_apply y _ _ (ix2 r q) ?_
  rw [Shape.rowMajor_val_two, Shape.rowMajor_val_three]
  show r.val * 128 + q.val = (r.val * 1 + 0) * 128 + q.val
  omega

/-- The packed table at row `r`, lane `q`: the embedding left of lane 64, the bias at lane 64, zero after. -/
theorem packedTable_apply (x : S1000000x64.Idx → Ideal .f32) (b : S1000000x1.Idx → Ideal .f32) (r : Fin 1000000) (q : Fin 128) :
    packedTable x b (ix3 r (0 : Fin 1) q)
      = if h : q.val < 64 then x (ix2 r ⟨q.val, h⟩) else if q.val = 64 then b (ix2 r (0 : Fin 1)) else 0 := by
  unfold packedTable
  rw [unit_axis_apply]
  by_cases h64 : q.val = 64
  · have hq : q = (⟨64, by decide⟩ : Fin 128) := Fin.ext h64
    subst hq
    rw [Cert.Lib.scatter_apply_of_hit _ _ _ _ _ (ix2 r (⟨64, by decide⟩ : Fin 128)) (ix1 r) (lands (ix1 r)) ?_]
    · rw [dif_neg (by decide), if_pos rfl]
      exact bias_apply b (ix1 r)
    · intro j' hj'
      rw [lands j'] at hj'
      have h0 : j' 0 = r := congrFun (Option.some.inj hj') (0 : Fin 2)
      exact (eq_ix1 j').trans (congrArg (fun a => ix1 a) h0)
  · rw [Cert.Lib.scatter_apply_of_miss _ _ _ _ _ (ix2 r q) ?_]
    · rw [padded_apply]
      by_cases h : q.val < 64
      · rw [dif_pos h, dif_pos h]
      · rw [dif_neg h, dif_neg h, if_neg h64]
    · intro j hj
      rw [lands j] at hj
      have h1 : (⟨64, by decide⟩ : Fin 128) = q := congrFun (Option.some.inj hj) (1 : Fin 2)
      exact h64 (congrArg Fin.val h1).symm

/-! ## The region's entry contents -/

variable {F : FTy → Type} [FloatOps F]

/-- The user side's packed buffer at the region's entry: the packing of the launch contents of the user embedding
    table and the user bias column. -/
theorem V_main_v4_eq (m : (ℓ : Loc nD τ sig) → Buf (Elt F) ℓ) (c : Dev nD) :
    (V m c main_v4 : S1000000x1x128.Idx → F .f32)
      = packedTable (m ((c : Thread nD τ).loc main_arg2)) (m ((c : Thread nD τ).loc main_arg4)) := by
  dsimp only [V]
  simp only [hostOps0, hostOps0_1, hostOps0_2, hostOps0_3, hostOps0_4, List.flatten_cons, List.flatten_nil, List.append_nil,
    List.cons_append, List.nil_append]
  after_results
  rfl

/-- The item side's packed buffer at the region's entry: the packing of the launch contents of the item embedding
    table and the item bias column. -/
theorem V_main_v9_eq (m : (ℓ : Loc nD τ sig) → Buf (Elt F) ℓ) (c : Dev nD) :
    (V m c main_v9 : S1000000x1x128.Idx → F .f32)
      = packedTable (m ((c : Thread nD τ).loc main_arg3)) (m ((c : Thread nD τ).loc main_arg5)) := by
  dsimp only [V]
  simp only [hostOps0, hostOps0_1, hostOps0_2, hostOps0_3, hostOps0_4, List.flatten_cons, List.flatten_nil, List.append_nil,
    List.cons_append, List.nil_append]
  after_results
  rfl

/-- The user side's packed table at the region's entry, row `r`, lane `q`: the user embedding left of lane 64, the
    user bias at lane 64, zero after. -/
theorem V_main_v4_apply (m : (ℓ : Loc nD τ sig) → Buf (Elt Ideal) ℓ) (c : Dev nD) (r : Fin 1000000) (q : Fin 128) :
    (V (F := Ideal) m c main_v4 : S1000000x1x128.Idx → Ideal .f32) (ValueIdx.ix3 r (0 : Fin 1) q)
      = (if h : q.val < 64 then (m ((c : Thread nD τ).loc main_arg2) : S1000000x64.Idx → Ideal .f32) (ValueIdx.ix2 r ⟨q.val, h⟩)
        else if q.val = 64 then (m ((c : Thread nD τ).loc main_arg4) : S1000000x1.Idx → Ideal .f32) (ValueIdx.ix2 r (0 : Fin 1)) else 0 : Ideal .f32) :=
  (congrFun (V_main_v4_eq m c) _).trans (packedTable_apply _ _ r q)

/-- The item side's packed table at the region's entry, row `r`, lane `q`: the item embedding left of lane 64, the
    item bias at lane 64, zero after. -/
theorem V_main_v9_apply (m : (ℓ : Loc nD τ sig) → Buf (Elt Ideal) ℓ) (c : Dev nD) (r : Fin 1000000) (q : Fin 128) :
    (V (F := Ideal) m c main_v9 : S1000000x1x128.Idx → Ideal .f32) (ValueIdx.ix3 r (0 : Fin 1) q)
      = (if h : q.val < 64 then (m ((c : Thread nD τ).loc main_arg3) : S1000000x64.Idx → Ideal .f32) (ValueIdx.ix2 r ⟨q.val, h⟩)
        else if q.val = 64 then (m ((c : Thread nD τ).loc main_arg5) : S1000000x1.Idx → Ideal .f32) (ValueIdx.ix2 r (0 : Fin 1)) else 0 : Ideal .f32) :=
  (congrFun (V_main_v9_eq m c) _).trans (packedTable_apply _ _ r q)

end Cert.KernelIdeal.Hand

end
-- ==== Proof.KI.Payload.lean ====
/-
  The kernel body's one payload, read at a row.

  Each of the two gathered buffers is a [512, 1, 128] array whose row r holds an embedding row in lanes 0..63 and that
  row's bias in lane 64. The payload at row r is
    min 5 (max 1 (((x[r, 0, 64] + y[r, 0, 64]) + b[0]) + Σ_{q < 64} x[r, 0, q] * y[r, 0, q])),
  the three additions associated in that order, the lane sum started from zero, the clip's lower bound applied first.
  The layout operations between the buffers and the arithmetic (dropping the unit axis, cutting the lanes 0..63 and the
  lane 64, dropping the cut's unit axis) only rename coordinates: each is read at explicit coordinates by one lemma.
-/
import proofs.«411927_j1331439862348_2_alg».proof.Proof.Gen.KernelIdeal.Skeleton
import proofs.«411927_j1331439862348_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

variable {α : Type}

/-- A [512, 1, 128] array with its unit axis dropped reads, at (r, c), the array at (r, 0, c): both have row-major
    position r * 128 + c. -/
theorem dropMid_apply (x : S512x1x128.Idx → α) (h : S512x1x128.ShapeCasts S512x128) (r : Fin 512) (c : Fin 128) :
    shapeCast S512x128 x h (ix2 r c) = x (ix3 r (0 : Fin 1) c) :=
  shapeCast_apply x h _ _ (by
    rw [Shape.rowMajor_val_three, Shape.rowMajor_val_two]
    show (r.val * 1 + 0) * 128 + c.val = r.val * 128 + c.val
    omega)

/-- A [512, 1] column with its unit axis dropped reads, at r, the column at (r, 0). -/
theorem dropLast_apply (x : S512x1.Idx → α) (h : S512x1.ShapeCasts S512) (r : Fin 512) :
    shapeCast S512 x h (ix1 r) = x (ix2 r (0 : Fin 1)) :=
  shapeCast_apply x h _ _ (by
    rw [Shape.rowMajor_val_two, Shape.rowMajor_val_one]
    show r.val * 1 + 0 = r.val
    omega)

/-- The bias lane: lane 64 of row r, through the cast, the cut at lane 64 and the cast of the cut. -/
theorem biasLane_apply (x : S512x1x128.Idx → α) (h1 : S512x1x128.ShapeCasts S512x128)
    (h2 : S512x128.Slices ![0, 64] S512x1) (h3 : S512x1.ShapeCasts S512) (r : Fin 512) :
    shapeCast S512 (extractStridedSlice S512x1 ![0, 64] (shapeCast S512x128 x h1) h2) h3 (ix1 r)
      = x (ix3 r (0 : Fin 1) (⟨64, by decide⟩ : Fin 128)) :=
  (dropLast_apply _ h3 r).trans
    ((slice2_axis1_apply 64 _ h2 r (0 : Fin 1) (⟨64, by decide⟩ : Fin 128) rfl).trans (dropMid_apply x h1 r _))

/-- An embedding lane: lane q < 64 of row r, through the cast and the cut of lanes 0..63. -/
theorem embLane_apply (x : S512x1x128.Idx → α) (h1 : S512x1x128.ShapeCasts S512x128)
    (h2 : S512x128.Slices ![0, 0] S512x64) (r : Fin 512) (q : Fin 64) :
    extractStridedSlice S512x64 ![0, 0] (shapeCast S512x128 x h1) h2 (ix2 r q)
      = x (ix3 r (0 : Fin 1) (⟨q.val, Nat.lt_trans q.isLt (by decide)⟩ : Fin 128)) :=
  (slice2_axis1_apply 0 _ h2 r q (⟨q.val, Nat.lt_trans q.isLt (by decide)⟩ : Fin 128) (Nat.zero_add _).symm).trans
    (dropMid_apply x h1 r _)

/-- The source index of the lane sum over row r with lane q inserted is (r, q). -/
theorem lift_row (h : S512x64.Reduces [1] S512) (r : Fin 512) (q : Fin 64) :
    h.lift (ix1 r) q = ix2 r q := by
  funext c
  match c with
  | ⟨0, _⟩ => exact Fin.ext rfl
  | ⟨1, _⟩ => exact Fin.ext rfl

/-- The lane sum of a product of two [512, 64] arrays, from the zero word, at row r: the sum over the 64 lanes. -/
theorem laneSum_apply (x y : FVec Ideal S512x64 .f32) (acc : BitVec 32) (h : S512x64.Reduces [1] S512)
    (hφ : FKind.Formats .f32) (hacc : acc = FKind.add.neutral .f32 hφ) (r : Fin 512) :
    multiReduction .add [1] S512 (mulf x y) acc h hφ hacc (ix1 r) = ∑ q : Fin 64, x (ix2 r q) * y (ix2 r q) := by
  refine (Ideal.multiReduction_add_single (mulf x y) acc h hφ hacc (ix1 r)).trans ?_
  refine Finset.sum_congr rfl fun q _ => ?_
  exact congrArg (fun i => x i * y i) (lift_row h r q)

/-- The payload at row r. -/
theorem pay_apply (v2 v4 : Vec Ideal S512x1x128 .f32) (v15 : Vec Ideal S1 .f32) (r : Fin 512) :
    k0_pay1 (F := Ideal) v2 v4 v15 (ix1 r)
      = min Cert.MF.hi (max Cert.MF.lo
          (((v2 (ix3 r (0 : Fin 1) (⟨64, by decide⟩ : Fin 128)) + v4 (ix3 r (0 : Fin 1) (⟨64, by decide⟩ : Fin 128))) + v15 (ix1 (0 : Fin 1)))
            + ∑ q : Fin 64, v2 (ix3 r (0 : Fin 1) (⟨q.val, by omega⟩ : Fin 128)) * v4 (ix3 r (0 : Fin 1) (⟨q.val, by omega⟩ : Fin 128)))) := by
  unfold k0_pay1
  have e1 := biasLane_apply v2 shapeCasts_S512x1x128_S512x128 slices_S512x128_o0_64_S512x1 shapeCasts_S512x1_S512 r
  have e2 := biasLane_apply v4 shapeCasts_S512x1x128_S512x128 slices_S512x128_o0_64_S512x1 shapeCasts_S512x1_S512 r
  have e3 : extractAt ![0] v15 inpos_S1_p0 = v15 (ix1 (0 : Fin 1)) :=
    congrArg v15 (funext fun d => match d with | ⟨0, _⟩ => rfl)
  have e4 := (laneSum_apply
      (extractStridedSlice S512x64 ![0, 0] (shapeCast S512x128 v2 shapeCasts_S512x1x128_S512x128) slices_S512x128_o0_0_S512x64)
      (extractStridedSlice S512x64 ![0, 0] (shapeCast S512x128 v4 shapeCasts_S512x1x128_S512x128) slices_S512x128_o0_0_S512x64)
      0x00000000#32 reduces_S512x64_S512 (.inl rfl) rfl r).trans
    (Finset.sum_congr rfl fun q _ => congrArg₂ (· * ·)
      (embLane_apply v2 shapeCasts_S512x1x128_S512x128 slices_S512x128_o0_0_S512x64 r q)
      (embLane_apply v4 shapeCasts_S512x1x128_S512x128 slices_S512x128_o0_0_S512x64 r q))
  show min Cert.MF.hi (max Cert.MF.lo (((_ + _) + extractAt ![0] v15 inpos_S1_p0) + _)) = _
  rw [e1, e2, e3, e4]

end Cert.KernelIdeal.Hand

end
-- ==== Proof.KI.Value.lean ====
/-
  The output array after the run is the score of the argument arrays.

  The region runs 32 grid points. Point t hands the body the one-word bias block and the output window's block t:
  the 512 batch entries 512·t … 512·t + 511 of the [16384] output array. Into row r of that block the body stores the
  payload of row r of its two gathered buffers and the bias word. Row r of a gathered buffer is the packed table's row
  named by the index vector's word at batch entry 512·t + r; a word below 1000000 names the row of its value; the
  packed table holds the embedding row in lanes 0..63 and the row's bias in lane 64; the bias block holds the global
  bias. So row r of block t holds
    min 5 (max 1 (((user_bias u + item_bias v) + bias) + Σ_{q < 64} user_emb (u, q) * item_emb (v, q)))
  for u, v the rows named by entry 512·t + r of the two index vectors: the score of batch entry 512·t + r
  (`out_point`, `flushed_eq`). Every point writes its block back, and the 32 blocks of 512 tile the 16384 entries
  (entry j lies in the block of point j / 512: `cover`), so the array ends holding the score (`final_out`).

  Every fact about the window's geometry is stated at arbitrary contents of the prefetched index tables (no index map
  reads them) and every fact about the body's result at arbitrary contents of the tables and packed buffers, from the
  read-at-an-index facts it needs; the launch contents are put in last.
-/
import proofs.«411927_j1331439862348_2_alg».proof.Proof.KI.Frame
import proofs.«411927_j1331439862348_2_alg».proof.Proof.KI.Tables
import proofs.«411927_j1331439862348_2_alg».proof.Proof.KI.Payload
import proofs.«411927_j1331439862348_2_alg».proof.Proof.KI.Reads
import proofs.«411927_j1331439862348_2_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-! ## The grid and the output window, decided over the 32 points -/

/-- The grid is one axis of 32 points: point t has coordinate t. -/
theorem coords_val : ∀ t : Fin grid0.N, (grid0.coords t 0).val = t.val := by decide +kernel

/-- The output window's index map sends point t to block t. -/
theorem tr3_val : ∀ t : Fin grid0.N, cc0_transform_3 (grid0.coords t) 0 = t.val := by decide +kernel

/-- The output window's block index at point t, whatever the tables hold. -/
theorem index1 (a : (pcfg0 (F := Ideal)).Adm) (t : Fin grid0.N) : ((cfg0 a).win 1).index t = cc0_transform_3 (grid0.coords t) := rfl

/-- Every point's block index differs from the next point's (or the point is the last). -/
theorem flush_free : ∀ t : Fin grid0.N, (t.val + 1 = grid0.N || decide (∃ h : t.val + 1 < grid0.N, cc0_transform_3 (grid0.coords ⟨t.val + 1, h⟩) ≠ cc0_transform_3 (grid0.coords t))) = true := by decide +kernel

/-- So every point writes the output block back. -/
theorem flush1 (a : (pcfg0 (F := Ideal)).Adm) (t : Fin grid0.N) : ((cfg0 a).win 1).flush t = true := flush_free t

/-! ## Row r of the output block -/

/-- The table row the loop gathers into row r at grid coordinates i: the row named by the word at batch entry 512·i + r. -/
def rowAt (M : Memref sig .tc .smem S16384 .i32) (T : BufTy.Contents (Elt Ideal) M.view.ty)
    (hT : ∀ (R : LoadRect S16384) (j : R.shape.Idx), BitVec.toNat (M.view.readAt (Elt Ideal) R T j) < 1000000)
    (i : grid0.Coords) (r : Fin 512) : Fin 1000000 :=
  ⟨BitVec.toNat (word M T ![512 * (i 0).val + r.val] (pos_inb i r)), hT _ _⟩

/-- Row r, lane q of the rows gathered out of a whole packed table: the table's row `rowAt`, at lane q. -/
theorem gathered0_apply (X : BufTy.Contents (Elt Ideal) hbM0.view.ty) (M : Memref sig .tc .smem S16384 .i32)
    (T : BufTy.Contents (Elt Ideal) M.view.ty)
    (hT : ∀ (R : LoadRect S16384) (j : R.shape.Idx), BitVec.toNat (M.view.readAt (Elt Ideal) R T j) < 1000000)
    (i : grid0.Coords) (r : Fin 512) (q : Fin 128) :
    gathered hbM0 X M T hT i (ix3 r (0 : Fin 1) q)
      = (X : S1000000x1x128.Idx → Ideal .f32) (ix3 (rowAt M T hT i r) (0 : Fin 1) q) := rfl

/-- The same for the second packed table. -/
theorem gathered1_apply (X : BufTy.Contents (Elt Ideal) hbM1.view.ty) (M : Memref sig .tc .smem S16384 .i32)
    (T : BufTy.Contents (Elt Ideal) M.view.ty)
    (hT : ∀ (R : LoadRect S16384) (j : R.shape.Idx), BitVec.toNat (M.view.readAt (Elt Ideal) R T j) < 1000000)
    (i : grid0.Coords) (r : Fin 512) (q : Fin 128) :
    gathered hbM1 X M T hT i (ix3 r (0 : Fin 1) q)
      = (X : S1000000x1x128.Idx → Ideal .f32) (ix3 (rowAt M T hT i r) (0 : Fin 1) q) := rfl

/-- A word below 1000000 names the row of its value: when the word at batch entry 512·i + r is v, the gathered row
    is the row the specification reads for v. -/
theorem rowAt_eq (M : Memref sig .tc .smem S16384 .i32) (T : BufTy.Contents (Elt Ideal) M.view.ty)
    (hT : ∀ (R : LoadRect S16384) (j : R.shape.Idx), BitVec.toNat (M.view.readAt (Elt Ideal) R T j) < 1000000)
    (i : grid0.Coords) (r : Fin 512) (v : BitVec 32)
    (hw : word M T ![512 * (i 0).val + r.val] (pos_inb i r) = v) :
    rowAt M T hT i r = Cert.MF.row v := by
  have hlt : BitVec.toNat (word M T ![512 * (i 0).val + r.val] (pos_inb i r)) < 1000000 := hT _ _
  apply Fin.ext
  rw [Cert.MF.row_val_of_lt (by rw [← hw]; exact hlt)]
  show BitVec.toNat (word M T ![512 * (i 0).val + r.val] (pos_inb i r)) = _
  rw [hw]

/-- The output block at row r: the payload of the two gathered buffers' row r and the bias word. -/
theorem outVal_apply (i : grid0.Coords) (arg1 arg2 : Memref sig .tc .smem S16384 .i32)
    (arg3 arg4 : Memref sig .tc .hbm S1000000x1x128 .f32) (arg5 : Memref sig .tc .vmem S1 .f32) (harg5 : arg5.IsWhole)
    (T1 : BufTy.Contents (Elt Ideal) arg1.view.ty) (T2 : BufTy.Contents (Elt Ideal) arg2.view.ty)
    (X3 : BufTy.Contents (Elt Ideal) arg3.view.ty) (X4 : BufTy.Contents (Elt Ideal) arg4.view.ty)
    (hU : ∀ (R : LoadRect S16384) (j : R.shape.Idx), BitVec.toNat (arg1.view.readAt (Elt Ideal) R T1 j) < 1000000)
    (hI : ∀ (R : LoadRect S16384) (j : R.shape.Idx), BitVec.toNat (arg2.view.readAt (Elt Ideal) R T2 j) < 1000000)
    (x5 : Vec Ideal S1 .f32) (r : Fin 512) :
    outVal (F := Ideal) i arg1 arg2 arg3 arg4 arg5 harg5 T1 T2 X3 X4 hU hI x5 (ix1 r)
      = min Cert.MF.hi (max Cert.MF.lo
          (((gathered arg3 X3 arg1 T1 hU i (ix3 r (0 : Fin 1) (⟨64, by decide⟩ : Fin 128))
              + gathered arg4 X4 arg2 T2 hI i (ix3 r (0 : Fin 1) (⟨64, by decide⟩ : Fin 128))) + x5 (ix1 (0 : Fin 1)))
            + ∑ q : Fin 64, gathered arg3 X3 arg1 T1 hU i (ix3 r (0 : Fin 1) (⟨q.val, by omega⟩ : Fin 128))
                * gathered arg4 X4 arg2 T2 hI i (ix3 r (0 : Fin 1) (⟨q.val, by omega⟩ : Fin 128)))) := by
  unfold outVal
  rw [load_whole_S1 arg5 harg5 x5]
  exact pay_apply _ _ x5 r

/-- The packed user table as the region finds it: lanes 0..63 of row k are the user embedding's row k, lane 64 is
    the user bias of k. The item side likewise. -/
theorem user_lane (c : Dev nD) (k : Fin 1000000) (q : Fin 64) :
    (V (F := Ideal) m c main_v4 : S1000000x1x128.Idx → Ideal .f32) (ix3 k (0 : Fin 1) (⟨q.val, by omega⟩ : Fin 128))
      = (m ((c.tc : Thread nD τ).loc main_arg2) : S1000000x64.Idx → Ideal .f32) (ix2 k q) :=
  (V_main_v4_apply m c k (⟨q.val, by omega⟩ : Fin 128)).trans (dif_pos q.isLt)

/-- Lane 64 of the packed user table. -/
theorem user_bias_lane (c : Dev nD) (k : Fin 1000000) :
    (V (F := Ideal) m c main_v4 : S1000000x1x128.Idx → Ideal .f32) (ix3 k (0 : Fin 1) (⟨64, by decide⟩ : Fin 128))
      = (m ((c.tc : Thread nD τ).loc main_arg4) : S1000000x1.Idx → Ideal .f32) (ix2 k (0 : Fin 1)) :=
  (V_main_v4_apply m c k (⟨64, by decide⟩ : Fin 128)).trans ((dif_neg (by decide)).trans (if_pos rfl))

/-- Lanes 0..63 of the packed item table. -/
theorem item_lane (c : Dev nD) (k : Fin 1000000) (q : Fin 64) :
    (V (F := Ideal) m c main_v9 : S1000000x1x128.Idx → Ideal .f32) (ix3 k (0 : Fin 1) (⟨q.val, by omega⟩ : Fin 128))
      = (m ((c.tc : Thread nD τ).loc main_arg3) : S1000000x64.Idx → Ideal .f32) (ix2 k q) :=
  (V_main_v9_apply m c k (⟨q.val, by omega⟩ : Fin 128)).trans (dif_pos q.isLt)

/-- Lane 64 of the packed item table. -/
theorem item_bias_lane (c : Dev nD) (k : Fin 1000000) :
    (V (F := Ideal) m c main_v9 : S1000000x1x128.Idx → Ideal .f32) (ix3 k (0 : Fin 1) (⟨64, by decide⟩ : Fin 128))
      = (m ((c.tc : Thread nD τ).loc main_arg5) : S1000000x1.Idx → Ideal .f32) (ix2 k (0 : Fin 1)) :=
  (V_main_v9_apply m c k (⟨64, by decide⟩ : Fin 128)).trans ((dif_neg (by decide)).trans (if_pos rfl))

section Point
variable (users items : S16384.Idx → BitVec 32) (ue ie : S1000000x64.Idx → Ideal .f32) (ub ib : S1000000x1.Idx → Ideal .f32)
  (b : S1.Idx → Ideal .f32)
  (T0 : BufTy.Contents (Elt Ideal) tbM0.view.ty) (T1 : BufTy.Contents (Elt Ideal) tbM1.view.ty)
  (X3 : BufTy.Contents (Elt Ideal) hbM0.view.ty) (X4 : BufTy.Contents (Elt Ideal) hbM1.view.ty)
  (hU : ∀ (R : LoadRect S16384) (j : R.shape.Idx), BitVec.toNat (tbM0.view.readAt (Elt Ideal) R T0 j) < 1000000)
  (hI : ∀ (R : LoadRect S16384) (j : R.shape.Idx), BitVec.toNat (tbM1.view.readAt (Elt Ideal) R T1 j) < 1000000)

/-- WHAT THE BODY LEAVES AT ROW r OF THE OUTPUT BLOCK at grid coordinates i, from: each table word is the index
    vector's entry, each packed table holds the embedding in lanes 0..63 and the bias in lane 64, the bias block holds
    the global bias. It is the score of batch entry 512·i + r. -/
theorem out_point
    (hw0 : ∀ (n : Nat) (hn : n < 16384) (h : ∀ a, (![n] : Fin 1 → Nat) a + S1.size a ≤ S16384.size a), word tbM0 T0 ![n] h = users (ix1 (⟨n, hn⟩ : Fin 16384)))
    (hw1 : ∀ (n : Nat) (hn : n < 16384) (h : ∀ a, (![n] : Fin 1 → Nat) a + S1.size a ≤ S16384.size a), word tbM1 T1 ![n] h = items (ix1 (⟨n, hn⟩ : Fin 16384)))
    (h3 : ∀ (k : Fin 1000000) (q : Fin 64), (X3 : S1000000x1x128.Idx → Ideal .f32) (ix3 k (0 : Fin 1) (⟨q.val, by omega⟩ : Fin 128)) = ue (ix2 k q))
    (h3b : ∀ (k : Fin 1000000), (X3 : S1000000x1x128.Idx → Ideal .f32) (ix3 k (0 : Fin 1) (⟨64, by decide⟩ : Fin 128)) = ub (ix2 k (0 : Fin 1)))
    (h4 : ∀ (k : Fin 1000000) (q : Fin 64), (X4 : S1000000x1x128.Idx → Ideal .f32) (ix3 k (0 : Fin 1) (⟨q.val, by omega⟩ : Fin 128)) = ie (ix2 k q))
    (h4b : ∀ (k : Fin 1000000), (X4 : S1000000x1x128.Idx → Ideal .f32) (ix3 k (0 : Fin 1) (⟨64, by decide⟩ : Fin 128)) = ib (ix2 k (0 : Fin 1)))
    (i : grid0.Coords) (M5 : Memref sig .tc .vmem S1 .f32) (hM5 : M5.IsWhole)
    (x5 : Vec Ideal S1 .f32) (r : Fin 512) (hn : 512 * (i 0).val + r.val < 16384)
    (hx5 : x5 (ix1 (0 : Fin 1)) = b (ix1 (0 : Fin 1))) :
    outVal (F := Ideal) i tbM0 tbM1 hbM0 hbM1 M5 hM5 T0 T1 X3 X4 hU hI x5 (ix1 r)
      = Cert.MF.score users items ue ie ub ib b (ix1 (⟨512 * (i 0).val + r.val, hn⟩ : Fin 16384)) := by
  rw [outVal_apply]
  simp only [gathered0_apply, gathered1_apply]
  rw [rowAt_eq tbM0 T0 hU i r _ (hw0 _ hn _), rowAt_eq tbM1 T1 hI i r _ (hw1 _ hn _)]
  simp only [h3, h3b, h4, h4b]
  rw [hx5]
  rfl

end Point

/-! ## The blocks -/

/-- The bias window's block index at point t. -/
theorem index0 (a : (pcfg0 (F := Ideal)).Adm) (t : Fin grid0.N) : ((cfg0 a).win 0).index t = cc0_transform_2 (grid0.coords t) := rfl

/-- The bias window's one block is the whole one-word array: read at its word it is the array's word. -/
theorem blk0_read (a : (pcfg0 (F := Ideal)).Adm) (t : Fin grid0.N) (A : S1.Idx → Ideal .f32) :
    (((cfg0 a).win 0).blk t).view.read (Elt Ideal) A (ix1 (0 : Fin 1)) = A (ix1 (0 : Fin 1)) := by
  show A ((((cfg0 a).win 0).blk t).view.emb (ix1 (0 : Fin 1))) = _
  refine congrArg A ?_
  funext d; apply Fin.ext
  match d with
  | ⟨0, _⟩ => show ((cfg0 a).win 0).index t (0 : Fin 1) * 1 + 1 * 0 = 0; rw [index0]; rfl

/-- Row r of the output window's block at point t is batch entry 512·t + r of the array. -/
theorem blk1_read (a : (pcfg0 (F := Ideal)).Adm) (t : Fin grid0.N) (G : S16384.Idx → Ideal .f32)
    (r : Fin 512) (hn : 512 * t.val + r.val < 16384) :
    (((cfg0 a).win 1).blk t).view.read (Elt Ideal) G (ix1 r) = G (ix1 (⟨512 * t.val + r.val, hn⟩ : Fin 16384)) := by
  show G ((((cfg0 a).win 1).blk t).view.emb (ix1 r)) = _
  refine congrArg G ?_
  funext d; apply Fin.ext
  match d with
  | ⟨0, _⟩ => show ((cfg0 a).win 1).index t (0 : Fin 1) * 512 + 1 * r.val = 512 * t.val + r.val; rw [index1, tr3_val]; omega

/-- What a point writes back of a staging buffer's contents X, at row r of the block: X at row r. -/
theorem cut1_apply (a : (pcfg0 (F := Ideal)).Adm) (t : Fin grid0.N) (X : S512.Idx → Ideal .f32) (r : Fin 512) :
    ((cfg0 a).win 1).cut (grid0.coords t) X (ix1 r) = X (ix1 r) := by
  show X (((cfg0 a).win 1).xinj (grid0.coords t) (ix1 r)) = _
  refine congrArg X ?_
  funext d
  match d with
  | ⟨0, _⟩ => rfl

/-! ## What each point writes back, and the array after the run -/

/-- The bias block the body loads at any point holds the global bias as launched. -/
theorem bias_block (c : Dev nD) (t : Fin (cfgM m).N) :
    iblk m c 0 t (ix1 (0 : Fin 1)) = (m ((c.tc : Thread nD τ).loc main_arg6) : S1.Idx → Ideal .f32) (ix1 (0 : Fin 1)) := by
  unfold iblk
  refine (blk0_read (adm m) t _).trans ?_
  exact congrFun (V_main_arg6 m c) (ix1 (0 : Fin 1))

/-- WHAT POINT t WRITES BACK is block t of the score of the argument arrays. -/
theorem flushed_eq (hR : InRange (F := Ideal) m) (c : Dev nD) (t : Fin (cfgM m).N) :
    (dats m hR 0 c).flushed 1 t
      = (((cfgM m).win 1).blk t).view.read (Elt Ideal)
          (Cert.MF.score (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))) := by
  obtain rfl : c = 0 := Subsingleton.elim _ _
  show ((cfgM m).win 1).cut (grid0.coords t) ((dats m hR 0 0).after 1 t) = _
  rw [after0_1]
  funext y
  obtain ⟨r, hy⟩ : ∃ r : Fin 512, y = ix1 r := ⟨y (0 : Fin 1), eq_ix1 y⟩
  rw [hy]
  have hr : r.val < 512 := r.isLt
  have ht : t.val < 32 := t.isLt
  have hc : (grid0.coords t 0).val = t.val := coords_val t
  have hn : 512 * (grid0.coords t 0).val + r.val < 16384 := by omega
  rw [cut1_apply (adm m) t _ r, blk1_read (adm m) t _ r (by omega)]
  unfold outsAt
  rw [out_point _ _ _ _ _ _ _ (tbl m 0) (tbl m 1) (V m 0 main_v4) (V m 0 main_v9) hR.1 hR.2
    (word_users m) (word_items m) (user_lane m 0) (user_bias_lane m 0) (item_lane m 0) (item_bias_lane m 0)
    (grid0.coords t) (ms0_0 m t) (hs0_0 m t) (iblk m 0 0 t) r hn (bias_block m 0 t)]
  exact congrArg _ (congrArg ix1 (Fin.ext (by show 512 * (grid0.coords t 0).val + r.val = 512 * t.val + r.val; rw [hc])))

set_option backward.isDefEq.respectTransparency.types false in
/-- A batch entry is in point t's block iff it lies in the block's range of 512 entries. -/
theorem mem_blk1 (a : (pcfg0 (F := Ideal)).Adm) (t : Fin grid0.N) (j : S16384.Idx) :
    j ∈ (((cfg0 a).win 1).blk t).view.set
      ↔ ∀ d : Fin 1, ((cfg0 a).win 1).index t d * S512.size d ≤ (j d).val ∧ (j d).val < ((cfg0 a).win 1).index t d * S512.size d + S512.size d := by
  show j ∈ ((View.whole main_v10).slice (((cfg0 a).win 1).rect t)).set ↔ _
  rw [View.set_slice_whole]
  exact Rect.mem_set_unit

/-- THE BLOCKS TILE THE ARRAY: batch entry j is in the block of point j / 512, and every point writes its block back. -/
theorem cover (a : (pcfg0 (F := Ideal)).Adm) (j : S16384.Idx) :
    ∃ t : Fin grid0.N, ((cfg0 a).win 1).flush t = true ∧ j ∈ (((cfg0 a).win 1).blk t).view.set := by
  have hj : (j 0).val < 16384 := (j 0).isLt
  have hN : grid0.N = 32 := N_0
  refine ⟨⟨(j 0).val / 512, by omega⟩, flush1 a _, ?_⟩
  rw [mem_blk1]
  intro d
  match d with
  | ⟨0, _⟩ =>
    show ((cfg0 a).win 1).index ⟨(j 0).val / 512, _⟩ (0 : Fin 1) * 512 ≤ (j 0).val
      ∧ (j 0).val < ((cfg0 a).win 1).index ⟨(j 0).val / 512, _⟩ (0 : Fin 1) * 512 + 512
    rw [index1, tr3_val]
    show (j 0).val / 512 * 512 ≤ (j 0).val ∧ (j 0).val < (j 0).val / 512 * 512 + 512
    omega

/-- THE OUTPUT ARRAY AFTER THE RUN is the score of the argument arrays as launched. -/
theorem final_out (hR : InRange (F := Ideal) m) (c : Dev nD) :
    ((dats m hR 0 c).arrAt 1 (cfgM m).N : S16384.Idx → Ideal .f32)
      = Cert.MF.score (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) :=
  (dats m hR 0 c).arrAt_eq_of_cover 1 _ (fun t _ => flushed_eq m hR c t) (cover (adm m))

end Cert.KernelIdeal.Hand

end
-- ==== Proof.lean ====
/-
  The certificate of the matrix-factorisation scoring kernel against its reference.

  Both programs compute, for each of the 16384 batch entries j with user index u and item index v,
    min 5 (max 1 (((user_bias u + item_bias v) + bias) + Σ_{q < 64} user_emb (u, q) * item_emb (v, q))).
  The kernel packs each embedding table with its bias column into 128-lane rows on the host, and at each of its 32
  grid points gathers the 512 user rows and 512 item rows its indices name by row copies — eight of each in flight
  at a time — before one vectorised multiply, lane sum, bias add and clip. The reference gathers with jnp indexing.
  The precondition keeps every float input finite and every index inside its table: outside that range the
  kernel's row copy has no source row, and inside it the reference's index wrap and clamp are the identity.

  * The three frames: the kernel's by the frame run of its one region, the same text read at the word-level and at
    the ideal instance; the reference's is its run with the result dropped.
  * The idealization rewrote nothing, so there is nothing to preserve.
  * The two results are the same function `Cert.MF.score` of the argument arrays: the kernel's output array block by
    block, the reference's operation by operation. No law of the extended reals beyond 0 + s = s is used: both
    sides associate the three additions and order the clip's bounds the same way.
-/
import proofs.«411927_j1331439862348_2_alg».proof.Defs
import proofs.«411927_j1331439862348_2_alg».proof.Proof.Gen.Kernel
import proofs.«411927_j1331439862348_2_alg».proof.Proof.Gen.KernelIdeal
import proofs.«411927_j1331439862348_2_alg».proof.Proof.Gen.ReferenceIdeal
import proofs.«411927_j1331439862348_2_alg».proof.Proof.Gen.Pre_finite_inputs
import proofs.«411927_j1331439862348_2_alg».proof.Proof.Gen.ReferenceIdeal.Run
import proofs.«411927_j1331439862348_2_alg».proof.Proof.Gen.ReferenceIdeal.Read
import proofs.«411927_j1331439862348_2_alg».proof.Proof.Words
import proofs.«411927_j1331439862348_2_alg».proof.Proof.RefValue
import proofs.«411927_j1331439862348_2_alg».proof.Proof.K.Frame
import proofs.«411927_j1331439862348_2_alg».proof.Proof.K.Reads
import proofs.«411927_j1331439862348_2_alg».proof.Proof.KI.Frame
import proofs.«411927_j1331439862348_2_alg».proof.Proof.KI.Reads
import proofs.«411927_j1331439862348_2_alg».proof.Proof.KI.Value

noncomputable section

namespace Cert.Proof

open Idealize.ShloMosaic Idealize.SL.Sem

/-- The word-level kernel runs and leaves its arguments as they were. -/
theorem frame_kernel : Cert.frame_Kernel (hKernel := Cert.Kernel.Gen.facts) (hPre_finite_inputs := Cert.Pre_finite_inputs.Gen.facts) :=
  fun m g hpre =>
    have hR : Cert.Kernel.Hand.InRange (F := Bits) m := Cert.Kernel.Hand.ranges_of_pre m hpre
    (θ_run (Cert.Kernel.defs (F := Bits)) _ _).mono (fun _ h c => (h c).2)
      (Cert.Kernel.Hand.frame_of m g hR (Cert.Kernel.Hand.run_main m g hR))

/-- The idealized kernel runs and leaves its arguments as they were. -/
theorem frame_kernelIdeal : Cert.frame_KernelIdeal (hKernelIdeal := Cert.KernelIdeal.Gen.facts) (hPre_finite_inputs := Cert.Pre_finite_inputs.Gen.facts) :=
  fun m g hpre =>
    have hR : Cert.KernelIdeal.Hand.InRange (F := Ideal) m := Cert.KernelIdeal.Hand.ranges_of_pre m hpre
    (θ_run (Cert.KernelIdeal.defs (F := Ideal)) _ _).mono (fun _ h c => (h c).2)
      (Cert.KernelIdeal.Hand.frame_of m g hR (Cert.KernelIdeal.Hand.run_main m g hR))

/-- The reference runs and leaves its arguments as they were: its run, the result dropped. -/
theorem frame_reference : Cert.frame_ReferenceIdeal (hReferenceIdeal := Cert.ReferenceIdeal.Gen.facts) (hPre_finite_inputs := Cert.Pre_finite_inputs.Gen.facts) :=
  fun m g _ =>
    (θ_run (Cert.ReferenceIdeal.defs (F := Ideal)) _ _).mono (fun _ h c => (h c).2) (Cert.ReferenceIdeal.Value.run (F := Ideal) m g)

/-- From memories agreeing on the arguments both idealized programs end with the score of every batch entry. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) :=
  fun m g m' g' hpre hagree =>
    have hR : Cert.KernelIdeal.Hand.InRange (F := Ideal) m := Cert.KernelIdeal.Hand.ranges_of_pre m hpre
    ⟨fun c => Cert.MF.score (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
      (θ_run (Cert.KernelIdeal.defs (F := Ideal)) _ _).mono
        (fun _ h c => ⟨(h c).1.trans (Cert.KernelIdeal.Hand.final_out m hR c), (h c).2⟩)
        (Cert.KernelIdeal.Hand.frame_of m g hR (Cert.KernelIdeal.Hand.run_main m g hR)),
      (θ_run (Cert.ReferenceIdeal.defs (F := Ideal)) _ _).mono
        (fun _ h c => by
          have hr := Cert.MF.index_ranges (F := Ideal) _ _ _ _ _ _ _ (hpre c)
          obtain ⟨e0, e1, e2, e3, e4, e5, e6⟩ := hagree c
          refine ⟨?_, (h c).2⟩
          rw [(h c).1, Cert.ReferenceIdeal.Read.val_main_v43_eq,
            Cert.ReferenceIdeal.RefValue.val_is_score _ _ _ _ _ _ _ (by rw [e0]; exact hr.1) (by rw [e1]; exact hr.2),
            e0, e1, e2, e3, e4, e5, e6])
        (Cert.ReferenceIdeal.Value.run (F := Ideal) m' g')⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
